-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S16 : Shape := ⟨1, ![16]⟩
abbrev S256 : Shape := ⟨1, ![256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S256 : S_.BroadcastsInDim S256 (![] : Fin 0 → Fin S256.rank)
  reducesTo_S256_S_d0 : S256.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg1 : IVec S16 32) (main_v13 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v13 main_v16
  let main_c_6 : IVec S_ 32 := constantI S_ 32 8192#32
  let main_v18 : IVec S16 32 := broadcastInDim S16 ![] bcast_S_S16 main_c_6
  let main_v19 : IVec S16 1 := cmpi .sle main_arg1 main_v18
  let main_c_7 : IVec S_ 1 := constantI S_ 1 1#1
  let main_v20 : IVec S_ 1 := (fun x v => Host.reduce IntOp.andi x v reducesTo_S16_S_d0 h_S_) main_v19 main_c_7
  let main_v21 : IVec S_ 1 := andi main_v17 main_v20
  main_v21

def fn {F : FTy → Type} [FloatOps F] (main_arg0 : FVec F S16x8192x256 .f32) (main_arg1 : IVec S16 32) (main_arg2 : FVec F S256 .f32) (main_arg3 : FVec F S256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S16 32 := broadcastInDim S16 ![] bcast_S_S16 main_c_4
  let main_v15 : IVec S16 1 := cmpi .sge main_arg1 main_v14
  let main_c_5 : IVec S_ 1 := constantI S_ 1 1#1
  fn_part1 (F := F) main_arg1 main_v13 main_v15 main_c_5
-- ==== Kernel.lean ====
abbrev S16x8192x256 : Shape := ⟨3, ![16, 8192, 256]⟩
abbrev S16 : Shape := ⟨1, ![16]⟩
abbrev S256 : Shape := ⟨1, ![256]⟩
abbrev S16x1x256 : Shape := ⟨3, ![16, 1, 256]⟩
abbrev S1x4096x256 : Shape := ⟨3, ![1, 4096, 256]⟩
abbrev S1 : Shape := ⟨1, ![1]⟩
abbrev S1x1x256 : Shape := ⟨3, ![1, 1, 256]⟩
abbrev S1x256 : Shape := ⟨2, ![1, 256]⟩
abbrev S4096x1 : Shape := ⟨2, ![4096, 1]⟩
abbrev S4096x256 : Shape := ⟨2, ![4096, 256]⟩
abbrev S_ : Shape := ⟨0, ![]⟩

abbrev nBuf : Space → Nat
  | .hbm => 33
  | .vmem => 12
  | .smem => 1
  | _ => 0

abbrev bufTy : (tb : Table) → Fin (tcTables nBuf tb) → BufTy
  | .hbm, ⟨0, _⟩ => ⟨S16x8192x256, .f32⟩
  | .hbm, ⟨1, _⟩ => ⟨S256, .f32⟩
  | .hbm, ⟨2, _⟩ => ⟨S256, .f32⟩
  | .hbm, ⟨3, _⟩ => ⟨S16x1x256, .f32⟩
  | .hbm, ⟨4, _⟩ => ⟨S16x1x256, .f32⟩
  | .hbm, ⟨5, _⟩ => ⟨S_, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S_, .f32⟩
  | .hbm, ⟨21, _⟩ => ⟨S1x256, .f32⟩
  | .hbm, ⟨22, _⟩ => ⟨S1x256, .f32⟩
  | .hbm, ⟨23, _⟩ => ⟨S_, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S16x8192x256, .f32⟩
  | .local _ .vmem, ⟨0, _⟩ => ⟨S1x4096x256, .f32⟩
  | .local _ .vmem, ⟨1, _⟩ => ⟨S1x4096x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x256, .f32⟩
  | .local _ .vmem, ⟨7, _⟩ => ⟨S1x256, .f32⟩
  | .local _ .vmem, ⟨8, _⟩ => ⟨S1x4096x256, .f32⟩
  | .local _ .vmem, ⟨9, _⟩ => ⟨S1x4096x256, .f32⟩
  | .local _ .vmem, ⟨10, _⟩ => ⟨S1x4096x256, .f32⟩
  | .local _ .vmem, ⟨11, _⟩ => ⟨S1x4096x256, .f32⟩
  | .local _ .smem, ⟨0, _⟩ => ⟨S16, .i32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c4096_i32 : BitVec 32 := 4096#32
  let v2 : BitVec 32 := Scalar.addi v1 c4096_i32
  let c1_i32 : BitVec 32 := 1#32
  let v3 : BitVec 32 := Scalar.subi v2 c1_i32
  let c4096_i32_0 : BitVec 32 := 4096#32
  let v4 : BitVec 32 := Scalar.divsi v3 c4096_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32_0 c0_i32_2
  let v11 : BitVec 32 := Scalar.extui v10
  let c0_i32_3 : BitVec 32 := 0#32
  let v12 : BitVec 1 := Scalar.cmpi .slt c4096_i32_0 c0_i32_3
  let v13 : BitVec 32 := Scalar.extui v12
  let v14 : BitVec 32 := Scalar.subi v11 v13
  let v15 : BitVec 1 := Scalar.cmpi .ne v9 v14
  let v16 : BitVec 32 := Scalar.remsi v3 c4096_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 2], ![false, false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (k1_off1_inb : ∀ i : grid1.Coords, ∀ a, (k1_off1 i) a + S1.size a ≤ S16.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k1_off1_inb i)) numel1_S1
  let c4096_i32 : BitVec 32 := 4096#32
  let v2 : BitVec 32 := Scalar.addi v1 c4096_i32
  let c1_i32 : BitVec 32 := 1#32
  let v3 : BitVec 32 := Scalar.subi v2 c1_i32
  let c4096_i32_0 : BitVec 32 := 4096#32
  let v4 : BitVec 32 := Scalar.divsi v3 c4096_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32_0 c0_i32_2
  let v11 : BitVec 32 := Scalar.extui v10
  let c0_i32_3 : BitVec 32 := 0#32
  let v12 : BitVec 1 := Scalar.cmpi .slt c4096_i32_0 c0_i32_3
  let v13 : BitVec 32 := Scalar.extui v12
  let v14 : BitVec 32 := Scalar.subi v11 v13
  let v15 : BitVec 1 := Scalar.cmpi .ne v9 v14
  let v16 : BitVec 32 := Scalar.remsi v3 c4096_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S1x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  numel1_S1 : S1.numel = 1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  iota_S4096x1_d0_w32 : S4096x1.Iotas .tc 32 [0]
  natLt_1_32 : 1 < 32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  broadcasts_S4096x1_S4096x256 : S4096x1.Broadcasts S4096x256
  reduces_S4096x256_S256 : S4096x256.Reduces [0] S256
  shapeCasts_S256_S1x256 : S256.ShapeCasts S1x256
  reducesTo_S16x1x256_S1x256_d0 : S16x1x256.ReducesTo [0] S1x256
  h_S_ : 0 < S_.numel
  reducesTo_S16_S_d0 : S16.ReducesTo [0] S_
  bcast_S_S1x256 : S_.BroadcastsInDim S1x256 (![] : Fin 0 → Fin S1x256.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S4096x256_S1x4096x256 : S4096x256.ShapeCasts S1x4096x256
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S16x1x256.size a
  hwx0_1 : ∀ i : grid0.Coords, EltTy.bits .f32 = 32 ∨ (Rect.block (s := S16x1x256) S1x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S16x1x256.size a
  hwx0_2 : ∀ i : grid0.Coords, EltTy.bits .f32 = 32 ∨ (Rect.block (s := S16x1x256) S1x1x256.size (cc0_transform_2 i) (hinb0_2 i)).WholeWords (EltTy.packing .f32)
  hrank1 : 0 < grid1.rank
  k1_off1_inb : ∀ i : grid1.Coords, ∀ a, (k1_off1 i) a + S1.size a ≤ S16.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x256.size a ≤ S1x256.size a
  hwx1_0 : ∀ i : grid1.Coords, EltTy.bits .f32 = 32 ∨ (Rect.block (s := S1x256) S1x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x256.size a ≤ S16x8192x256.size a
  hwx1_3 : ∀ i : grid1.Coords, EltTy.bits .f32 = 32 ∨ (Rect.block (s := S16x8192x256) S1x4096x256.size (cc1_transform_3 i) (hinb1_3 i)).WholeWords (EltTy.packing .f32)

variable [Facts₀]

abbrev spec0_0 : Pipeline.WinSpec sig grid0.rank :=
  Pipeline.WinSpec.ofSpec (Memref.whole main_arg0) S1x4096x256.size reads0_0 false false 2 stage0_0 sem0_0 nbuf0_0 hstage0_0

abbrev spec0_1 : Pipeline.WinSpec sig grid0.rank :=
  Pipeline.WinSpec.ofSpec (Memref.whole main_v0_0) S1x1x256.size reads0_1 true false 2 stage0_1 sem0_1 nbuf0_1 hstage0_1

abbrev spec0_2 : Pipeline.WinSpec sig grid0.rank :=
  Pipeline.WinSpec.ofSpec (Memref.whole main_v0_1) S1x1x256.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x4096x256.size a ≤ S16x8192x256.size a), EltTy.bits .f32 = 32 ∨ (Rect.block (s := S16x8192x256) S1x4096x256.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | ⟨_ + 3, h⟩ => absurd h (Nat.not_lt.2 (Nat.le_add_left _ _))
abbrev spec1_0 : Pipeline.WinSpec sig grid1.rank :=
  Pipeline.WinSpec.ofSpec (Memref.whole main_v19) S1x256.size reads1_0 false true 1 stage1_0 sem1_0 nbuf1_0 hstage1_0

abbrev spec1_1 : Pipeline.WinSpec sig grid1.rank :=
  Pipeline.WinSpec.ofSpec (Memref.whole main_v21) S1x256.size reads1_1 false true 1 stage1_1 sem1_1 nbuf1_1 hstage1_1

abbrev spec1_2 : Pipeline.WinSpec sig grid1.rank :=
  Pipeline.WinSpec.ofSpec (Memref.whole main_arg0) S1x4096x256.size reads1_2 false false 2 stage1_2 sem1_2 nbuf1_2 hstage1_2

abbrev spec1_3 : Pipeline.WinSpec sig grid1.rank :=
  Pipeline.WinSpec.ofSpec (Memref.whole main_v22) S1x4096x256.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 | 1 => cc1_transform_1 | 2 => cc1_transform_2 k1_off1_inb numel1_S1 pf | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 pf | 3 => hreads1_3 | ⟨_ + 4, h⟩ => absurd h (Nat.not_lt.2 (Nat.le_add_left _ _))
def ok1 (pf : pre1.Contents (Elt F)) : Prop :=
  (∀ i : grid1.Coords, ∃ h : (∀ a, (cc1_transform_2 k1_off1_inb numel1_S1 pf i a + 1) * S1x4096x256.size a ≤ S16x8192x256.size a), EltTy.bits .f32 = 32 ∨ (Rect.block (s := S16x8192x256) S1x4096x256.size (cc1_transform_2 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => hinb1_1 | 2 => fun i a => (hok i).elim fun h _ => h a | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => hwx1_1 | 2 => fun i => (hok i).elim fun _ h => h | 3 => hwx1_3 | ⟨_ + 4, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S16x8192x256 : Shape := ⟨3, ![16, 8192, 256]⟩
abbrev S16 : Shape := ⟨1, ![16]⟩
abbrev S256 : Shape := ⟨1, ![256]⟩
abbrev S8192 : Shape := ⟨1, ![8192]⟩
abbrev S1x8192 : Shape := ⟨2, ![1, 8192]⟩
abbrev S16x1 : Shape := ⟨2, ![16, 1]⟩
abbrev S16x8192 : Shape := ⟨2, ![16, 8192]⟩
abbrev S16x8192x1 : Shape := ⟨3, ![16, 8192, 1]⟩
abbrev S_ : Shape := ⟨0, ![]⟩
abbrev S1x1x256 : Shape := ⟨3, ![1, 1, 256]⟩

abbrev nBuf : Space → Nat
  | .hbm => 51
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S16, .i32⟩
  | .hbm, ⟨2, _⟩ => ⟨S256, .f32⟩
  | .hbm, ⟨3, _⟩ => ⟨S256, .f32⟩
  | .hbm, ⟨4, _⟩ => ⟨S8192, .i32⟩
  | .hbm, ⟨5, _⟩ => ⟨S1x8192, .i32⟩
  | .hbm, ⟨6, _⟩ => ⟨S16x1, .i32⟩
  | .hbm, ⟨7, _⟩ => ⟨S16x8192, .i32⟩
  | .hbm, ⟨8, _⟩ => ⟨S16x8192, .i32⟩
  | .hbm, ⟨9, _⟩ => ⟨S16x8192, .i1⟩
  | .hbm, ⟨10, _⟩ => ⟨S16x8192, .f32⟩
  | .hbm, ⟨11, _⟩ => ⟨S16x8192x1, .f32⟩
  | .hbm, ⟨12, _⟩ => ⟨S_, .i32⟩
  | .hbm, ⟨13, _⟩ => ⟨S_, .i32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x8192x256, .f32⟩
  | .hbm, ⟨18, _⟩ => ⟨S16x8192x256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S1x1x256, .f32⟩
  | .hbm, ⟨24, _⟩ => ⟨S16x8192x256, .f32⟩
  | .hbm, ⟨25, _⟩ => ⟨S16x8192x256, .f32⟩
  | .hbm, ⟨26, _⟩ => ⟨S16x8192x256, .f32⟩
  | .hbm, ⟨27, _⟩ => ⟨S16x8192x256, .f32⟩
  | .hbm, ⟨28, _⟩ => ⟨S16x8192x256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S1x1x256, .f32⟩
  | .hbm, ⟨38, _⟩ => ⟨S16x8192x256, .f32⟩
  | .hbm, ⟨39, _⟩ => ⟨S16x8192x256, .f32⟩
  | .hbm, ⟨40, _⟩ => ⟨S1x1x256, .f32⟩
  | .hbm, ⟨41, _⟩ => ⟨S16x8192x256, .f32⟩
  | .hbm, ⟨42, _⟩ => ⟨S16x8192x256, .f32⟩
  | .hbm, ⟨43, _⟩ => ⟨S1x1x256, .f32⟩
  | .hbm, ⟨44, _⟩ => ⟨S16x8192x256, .f32⟩
  | .hbm, ⟨45, _⟩ => ⟨S16x8192x256, .f32⟩
  | .hbm, ⟨46, _⟩ => ⟨S1x1x256, .f32⟩
  | .hbm, ⟨47, _⟩ => ⟨S16x8192x256, .f32⟩
  | .hbm, ⟨48, _⟩ => ⟨S16x8192x256, .f32⟩
  | .hbm, ⟨49, _⟩ => ⟨S16x8192x256, .f32⟩
  | .hbm, ⟨50, _⟩ => ⟨S16x8192x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S16_S16x1_0 : S16.BroadcastsInDim S16x1 (![0] : Fin 1 → Fin S16x1.rank)
  bcast_S1x8192_S16x8192_0_1 : S1x8192.BroadcastsInDim S16x8192 (![0, 1] : Fin 2 → Fin S16x8192.rank)
  bcast_S16x1_S16x8192_0_1 : S16x1.BroadcastsInDim S16x8192 (![0, 1] : Fin 2 → Fin S16x8192.rank)
  bcast_S16x8192_S16x8192x1_0_1 : S16x8192.BroadcastsInDim S16x8192x1 (![0, 1] : Fin 2 → Fin S16x8192x1.rank)
  reducesTo_S16_S_d0 : S16.ReducesTo [0] S_
  h_S_ : 0 < S_.numel
  bcast_S16x8192x1_S16x8192x256_0_1_2 : S16x8192x1.BroadcastsInDim S16x8192x256 (![0, 1, 2] : Fin 3 → Fin S16x8192x256.rank)
  reducesTo_S16x8192x256_S256_d0_1 : S16x8192x256.ReducesTo [0, 1] S256
  bcast_S_S256 : S_.BroadcastsInDim S256 (![] : Fin 0 → Fin S256.rank)
  bcast_S256_S1x1x256_2 : S256.BroadcastsInDim S1x1x256 (![2] : Fin 1 → Fin S1x1x256.rank)
  bcast_S1x1x256_S16x8192x256_0_1_2 : S1x1x256.BroadcastsInDim S16x8192x256 (![0, 1, 2] : Fin 3 → Fin S16x8192x256.rank)

variable [Facts₀]

class Facts : Prop extends Facts₀ where

variable [Facts]
-- ==== Proof.KB.Base.lean ====
/-
  Names shared by the frame proof of the two-call program (statistics pass, then normalisation pass), for any float
  instance: the table of valid-row counts as the kernels are handed it, the condition of the statistics kernel's
  reset branch (first row tile of an entry), each window's current staging memref at a grid point, and each kernel
  body as its pipeline calls it there.  The grids are 16 entries x 2 row tiles; point t is entry t / 2, tile t % 2.
-/
import proofs.«411793_j30253749633578_3_alg».proof.Proof.Gen.Kernel.Launch
import proofs.«411793_j30253749633578_3_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table of valid-row counts -/

/-- The table as both kernel bodies are handed it: its whole buffer (in scalar memory) as a memref. -/
abbrev tbM : Memref sig .tc .smem S16 .i32 := Memref.whole main_arg1
abbrev htbM : tbM.IsWhole := Memref.isWhole_whole _
/-- The table's contents type on core `c`, and the table held at contents `f` at the full share. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f

/-- The word the statistics kernel loads from the table at grid point `i`: entry `i 0`'s count. -/
abbrev word0 (c : Dev nD) (i : grid0.Coords) (xt : TbBuf (F := F) c) : Elt F .i32 :=
  tbM.view.readAt (Elt F) (Rect.unit (s := S16) (k0_off1 i) S1.size (k0_off1_inb i)).toLoadRect xt (Shape.Idx.first (numel1_S1.symm ▸ Nat.one_pos))
/-- The word the normalisation kernel loads from the table at grid point `i`. -/
abbrev word1 (c : Dev nD) (i : grid1.Coords) (xt : TbBuf (F := F) c) : Elt F .i32 :=
  tbM.view.readAt (Elt F) (Rect.unit (s := S16) (k1_off1 i) S1.size (k1_off1_inb i)).toLoadRect xt (Shape.Idx.first (numel1_S1.symm ▸ Nat.one_pos))

/-! ## The statistics kernel's branch -/

/-- The condition of the statistics kernel's `scf.if` (its accumulators are reset): the row-tile coordinate is 0. -/
abbrev cond0 (i : grid0.Coords) : Prop :=
  (Scalar.cmpi .ne (Scalar.extui (Scalar.cmpi .eq (BitVec.ofNat 32 (i 1).val) 0#32)) 0#32) = 1#1
/-- It holds exactly at the even points (row tile 0 of each entry) — decided over the grid. -/
theorem hcond0 : ∀ t : Fin grid0.N, cond0 (grid0.coords t) ↔ t.val % 2 = 0 :=
  (by decide +kernel : ∀ t : Fin grid0.N, cond0 (grid0.coords t) ↔ t.val % 2 = 0)

/-! ## Staging memrefs and bodies at a point, at any admissible contents of the table -/

section Points
variable (a0 : (pcfg0 (F := F)).Adm) (a1 : (pcfg1 (F := F)).Adm)

abbrev ms0_0 (t : Fin (cfg0 a0).N) : Memref sig .tc .vmem S1x4096x256 .f32 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S1x1x256 .f32 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S1x1x256 .f32 := spec0_2.stage ((cfg0 a0).slots t 2)
abbrev hs0_2 (t : Fin (cfg0 a0).N) : (ms0_2 a0 t).IsWhole := hstage0_2 (((cfg0 a0).slots t 2).cast nbuf0_2)

/-- The statistics kernel's body at point `t`, on what its pipeline calls it with. -/
abbrev bodyAt0 (t : Fin (cfg0 a0).N) : Prog (TpuEff nD τ sig (Elt F) Λ₀ .tc) PUnit :=
  cc0__stats_kernel (grid0.coords t) tbM htbM (ms0_0 a0 t) (hs0_0 a0 t) (ms0_1 a0 t) (hs0_1 a0 t) (ms0_2 a0 t) (hs0_2 a0 t)

abbrev ms1_0 (t : Fin (cfg1 a1).N) : Memref sig .tc .vmem S1x256 .f32 := spec1_0.stage ((cfg1 a1).slots t 0)
abbrev hs1_0 (t : Fin (cfg1 a1).N) : (ms1_0 a1 t).IsWhole := hstage1_0 (((cfg1 a1).slots t 0).cast nbuf1_0)
abbrev ms1_1 (t : Fin (cfg1 a1).N) : Memref sig .tc .vmem S1x256 .f32 := spec1_1.stage ((cfg1 a1).slots t 1)
abbrev hs1_1 (t : Fin (cfg1 a1).N) : (ms1_1 a1 t).IsWhole := hstage1_1 (((cfg1 a1).slots t 1).cast nbuf1_1)
abbrev ms1_2 (t : Fin (cfg1 a1).N) : Memref sig .tc .vmem S1x4096x256 .f32 := spec1_2.stage ((cfg1 a1).slots t 2)
abbrev hs1_2 (t : Fin (cfg1 a1).N) : (ms1_2 a1 t).IsWhole := hstage1_2 (((cfg1 a1).slots t 2).cast nbuf1_2)
abbrev ms1_3 (t : Fin (cfg1 a1).N) : Memref sig .tc .vmem S1x4096x256 .f32 := spec1_3.stage ((cfg1 a1).slots t 3)
abbrev hs1_3 (t : Fin (cfg1 a1).N) : (ms1_3 a1 t).IsWhole := hstage1_3 (((cfg1 a1).slots t 3).cast nbuf1_3)

/-- The normalisation kernel's body at point `t`, on what its pipeline calls it with. -/
abbrev bodyAt1 (t : Fin (cfg1 a1).N) : Prog (TpuEff nD τ sig (Elt F) Λ₀ .tc) PUnit :=
  cc1__norm_kernel (grid1.coords t) tbM htbM (ms1_0 a1 t) (hs1_0 a1 t) (ms1_1 a1 t) (hs1_1 a1 t) (ms1_2 a1 t) (hs1_2 a1 t) (ms1_3 a1 t) (hs1_3 a1 t)

end Points

/-- One staging buffer of each output window, through which an output block's contents are stated. -/
abbrev VO0_1 : View sig .tc .vmem S1x1x256 .f32 := (Memref.whole cc0_stg1_0 : Memref sig .tc .vmem S1x1x256 .f32).view
abbrev VO0_2 : View sig .tc .vmem S1x1x256 .f32 := (Memref.whole cc0_stg2_0 : Memref sig .tc .vmem S1x1x256 .f32).view
abbrev VO1_3 : View sig .tc .vmem S1x4096x256 .f32 := (Memref.whole cc1_stg3_0 : Memref sig .tc .vmem S1x4096x256 .f32).view

end Cert.Kernel.H

end
-- ==== Proof.KB.Sched.lean ====
/-
  Facts about the two pipelines that hold at every contents of the table of valid-row counts: the table-indexed
  window's block always lies inside the array (its row-tile index is a minimum with the grid's row tile, which is 0
  or 1); the accumulators of the statistics pass are written back exactly at the second row tile of each entry (odd
  points), the output of the normalisation pass at every point; and, when the count is in [0, 8192], the row-tile
  index the table-indexed window uses: the grid's row tile, except that the second tile of an entry whose count is
  at most 4096 re-uses tile 0.
-/
import proofs.«411793_j30253749633578_3_alg».proof.Proof.KB.Base

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The row-tile index is 0 or 1 whatever the table holds -/

/-- A signed maximum with 0 is not negative. -/
theorem maxsi_zero_nonneg (z : BitVec 32) : 0 ≤ (Scalar.maxsi z 0#32).toInt := by
  unfold Scalar.maxsi IntOp.maxsi
  split
  · rename_i h
    have h' : (0#32).toInt < z.toInt := by simpa [BitVec.slt] using h
    simp at h'; omega
  · simp

/-- The signed minimum of `a` ∈ {0, 1} with a signed maximum against 0 is, as a natural, at most `a`: the maximum
    is a non-negative word, so the minimum is either `a` or a non-negative word that is not above `a`. -/
theorem minsi_maxsi_le (a z : BitVec 32) (ha : a = 0#32 ∨ a = 1#32) :
    (Scalar.minsi a (Scalar.maxsi z 0#32)).toNat ≤ a.toNat := by
  have hy := maxsi_zero_nonneg z
  generalize Scalar.maxsi z 0#32 = y at hy ⊢
  unfold Scalar.minsi IntOp.minsi
  split
  · exact le_refl _
  · rename_i h
    have h' : ¬ a.toInt < y.toInt := by simpa [BitVec.slt] using h
    have hc := BitVec.toInt_eq_toNat_cond y
    rcases ha with rfl | rfl
    · have e1 : (0#32 : BitVec 32).toInt = 0 := by decide
      have e2 : (0#32 : BitVec 32).toNat = 0 := rfl
      rw [e1] at h'; rw [e2]
      split at hc <;> omega
    · have e1 : (1#32 : BitVec 32).toInt = 1 := by decide
      have e2 : (1#32 : BitVec 32).toNat = 1 := rfl
      rw [e1] at h'; rw [e2]
      split at hc <;> omega

/-- With the row tile `k` < 2 in place of `a`: the index is at most 1. -/
theorem tile_le_one (k : Nat) (hk : k < 2) (z : BitVec 32) :
    (Scalar.minsi (BitVec.ofNat 32 k) (Scalar.maxsi z 0#32)).toNat ≤ 1 := by
  have hk' : k = 0 ∨ k = 1 := by omega
  rcases hk' with rfl | rfl
  · exact (minsi_maxsi_le _ z (.inl rfl)).trans (by decide)
  · exact (minsi_maxsi_le _ z (.inr rfl)).trans (by decide)

/-- A grid coordinate below 2^32 is its own word. -/
theorem toNat_ofNat_small (k : Nat) (hk : k < 16) : (BitVec.ofNat 32 k).toNat = k := by
  rw [BitVec.toNat_ofNat]; omega

/-- The index map of the statistics pass's table-indexed window, with everything below its maximum named `z`. -/
theorem tr0_shape (pf : pre0.Contents (Elt F)) (i : grid0.Coords) : ∃ z : BitVec 32,
    cc0_transform_0 k0_off1_inb numel1_S1 pf i
      = ![(BitVec.ofNat 32 (i 0).val).toNat, (Scalar.minsi (BitVec.ofNat 32 (i 1).val) (Scalar.maxsi z 0#32)).toNat, (0#32).toNat] :=
  ⟨_, rfl⟩

/-- The same for the normalisation pass. -/
theorem tr1_shape (pf : pre1.Contents (Elt F)) (i : grid1.Coords) : ∃ z : BitVec 32,
    cc1_transform_2 k1_off1_inb numel1_S1 pf i
      = ![(BitVec.ofNat 32 (i 0).val).toNat, (Scalar.minsi (BitVec.ofNat 32 (i 1).val) (Scalar.maxsi z 0#32)).toNat, (0#32).toNat] :=
  ⟨_, rfl⟩

/-- A block index `![e, t, 0]` with entry `e` < 16 and row tile `t` ≤ 1 names a 1 x 4096 x 256 block inside the
    16 x 8192 x 256 array. -/
theorem block_inb (e t : Nat) (he : e < 16) (ht : t ≤ 1) :
    ∀ a : Fin 3, ((![e, t, (0#32).toNat] : Fin 3 → Nat) a + 1) * S1x4096x256.size a ≤ S16x8192x256.size a
  | ⟨0, _⟩ => by show (e + 1) * 1 ≤ 16; omega
  | ⟨1, _⟩ => by show (t + 1) * 4096 ≤ 8192; omega
  | ⟨2, _⟩ => by show (0 + 1) * 256 ≤ 256; omega

theorem ok0_all (pf : pre0.Contents (Elt F)) : ok0 (F := F) pf := by
  unfold ok0
  intro i
  obtain ⟨z, hz⟩ := tr0_shape pf i
  refine ⟨?_, .inl rfl⟩
  rw [hz, toNat_ofNat_small _ (i 0).isLt]
  exact block_inb _ _ (i 0).isLt (tile_le_one _ (i 1).isLt z)

theorem ok1_all (pf : pre1.Contents (Elt F)) : ok1 (F := F) pf := by
  unfold ok1
  intro i
  obtain ⟨z, hz⟩ := tr1_shape pf i
  refine ⟨?_, .inl rfl⟩
  rw [hz, toNat_ofNat_small _ (i 0).isLt]
  exact block_inb _ _ (i 0).isLt (tile_le_one _ (i 1).isLt z)

/-! ## When the output windows are written back -/

/- An output window is written back at a point when the next point's block index differs, or at the last point. The
   accumulators' block index is the entry alone, so it changes after the second row tile of each entry: decided
   over the 32 points. The normalisation pass's output block index is the point itself, so it changes at every point. -/

theorem flush0_1 (a : (pcfg0 (F := F)).Adm) : ∀ t : Fin (cfg0 a).N, ((cfg0 a).win 1).flush t = decide (t.val % 2 = 1) :=
  (by decide +kernel : ∀ t : Fin grid0.N, Pipeline.Window.flushOf grid0 true cc0_transform_1 t = decide (t.val % 2 = 1))

theorem flush0_2 (a : (pcfg0 (F := F)).Adm) : ∀ t : Fin (cfg0 a).N, ((cfg0 a).win 2).flush t = decide (t.val % 2 = 1) :=
  (by decide +kernel : ∀ t : Fin grid0.N, Pipeline.Window.flushOf grid0 true cc0_transform_2 t = decide (t.val % 2 = 1))

theorem flush1_3 (a : (pcfg1 (F := F)).Adm) : ∀ t : Fin (cfg1 a).N, ((cfg1 a).win 3).flush t = true :=
  (by decide +kernel : ∀ t : Fin grid1.N, Pipeline.Window.flushOf grid1 true cc1_transform_3 t = true)

/-! ## The row-tile index when the count is in range -/

/-- The row-tile index both table-indexed index maps compute from the count word `w` and the grid's row tile `a1`:
    the ceiling of `w / 4096` (printed with a signed division, a remainder and a sign correction), less one,
    clamped below at 0, then the minimum with the row tile. -/
def tileIx (w a1 : BitVec 32) : BitVec 32 :=
  let v3 : BitVec 32 := Scalar.subi (Scalar.addi w 4096#32) 1#32
  let v4 : BitVec 32 := Scalar.divsi v3 4096#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 4096#32 0#32)) (Scalar.extui (Scalar.cmpi .slt 4096#32 0#32))
  let v18 : BitVec 1 := Scalar.andi (Scalar.cmpi .ne v9 v14) (Scalar.cmpi .ne (Scalar.remsi v3 4096#32) 0#32)
  let v20 : BitVec 32 := Scalar.select v18 (Scalar.subi v4 1#32) v4
  Scalar.minsi a1 (Scalar.maxsi (Scalar.subi v20 1#32) 0#32)

/-- The count word the statistics pass's index map reads at grid point `i`: the table at entry `i 0`. -/
abbrev cnt0 (pf : pre0.Contents (Elt F)) (i : grid0.Coords) : BitVec 32 :=
  pf.at 0 (Rect.unit (s := S16) ![(Scalar.indexCast (BitVec.ofNat 32 (i 0).val)).toNat] S1.size (k0_off1_inb i)) numel1_S1
/-- The count word the normalisation pass's index map reads at grid point `i`. -/
abbrev cnt1 (pf : pre1.Contents (Elt F)) (i : grid1.Coords) : BitVec 32 :=
  pf.at 0 (Rect.unit (s := S16) ![(Scalar.indexCast (BitVec.ofNat 32 (i 0).val)).toNat] S1.size (k1_off1_inb i)) numel1_S1

theorem tr0_eq (pf : pre0.Contents (Elt F)) (i : grid0.Coords) :
    cc0_transform_0 k0_off1_inb numel1_S1 pf i
      = ![(BitVec.ofNat 32 (i 0).val).toNat, (tileIx (cnt0 pf i) (BitVec.ofNat 32 (i 1).val)).toNat, (0#32).toNat] := rfl

theorem tr1_eq (pf : pre1.Contents (Elt F)) (i : grid1.Coords) :
    cc1_transform_2 k1_off1_inb numel1_S1 pf i
      = ![(BitVec.ofNat 32 (i 0).val).toNat, (tileIx (cnt1 pf i) (BitVec.ofNat 32 (i 1).val)).toNat, (0#32).toNat] := rfl

/-- The index at every count `64 q + r` ≤ 8192 and row tile `j`, by evaluation: nothing wraps in this range, the
    ceiling of the count over 4096 is 0, 1 or 2, so the clamped value is 1 exactly above 4096. -/
theorem tileIx_table : ∀ q : Fin 129, ∀ r : Fin 64, ∀ j : Fin 2, 64 * q.val + r.val ≤ 8192 →
    (tileIx (BitVec.ofNat 32 (64 * q.val + r.val)) (BitVec.ofNat 32 j.val)).toNat
      = if j.val = 1 ∧ 64 * q.val + r.val ≤ 4096 then 0 else j.val := by
  decide +kernel

theorem tileIx_nat (n : Nat) (hn : n ≤ 8192) (k : Nat) (hk : k < 2) :
    (tileIx (BitVec.ofNat 32 n) (BitVec.ofNat 32 k)).toNat = if k = 1 ∧ n ≤ 4096 then 0 else k := by
  have key := tileIx_table ⟨n / 64, by omega⟩ ⟨n % 64, by omega⟩ ⟨k, hk⟩
  have e : 64 * (n / 64) + n % 64 = n := Nat.div_add_mod n 64
  dsimp only at key
  rw [e] at key
  exact key hn

/-- At a count word in [0, 8192] read as a signed integer. -/
theorem tileIx_of_range (w : BitVec 32) (hr : 0 ≤ w.toInt ∧ w.toInt ≤ 8192) (k : Nat) (hk : k < 2) :
    (tileIx w (BitVec.ofNat 32 k)).toNat = if k = 1 ∧ w.toInt ≤ 4096 then 0 else k := by
  have hc := BitVec.toInt_eq_toNat_cond w
  have hlt := w.isLt
  have hn : w.toInt = (w.toNat : Int) := by split at hc <;> omega
  have hle : w.toNat ≤ 8192 := by omega
  have e : tileIx w (BitVec.ofNat 32 k) = tileIx (BitVec.ofNat 32 w.toNat) (BitVec.ofNat 32 k) :=
    congrArg (fun v => tileIx v (BitVec.ofNat 32 k)) (by simp : w = BitVec.ofNat 32 w.toNat)
  rw [e, tileIx_nat _ hle k hk]
  by_cases h : w.toInt ≤ 4096
  · have h' : w.toNat ≤ 4096 := by omega
    simp only [h, h']
  · have h' : ¬ w.toNat ≤ 4096 := by omega
    simp only [h, h']

theorem vec3_congr {a b c a' b' c' : Nat} (ha : a = a') (hb : b = b') (hc : c = c') :
    (![a, b, c] : Fin 3 → Nat) = ![a', b', c'] := by subst ha hb hc; rfl

/-- The statistics pass's table-indexed block at a count in range: entry `i 0`, and the grid's row tile unless that is
    tile 1 of an entry with at most 4096 valid rows, which re-uses tile 0. -/
theorem eff0 (pf : pre0.Contents (Elt F)) (i : grid0.Coords) (hr : 0 ≤ (cnt0 pf i).toInt ∧ (cnt0 pf i).toInt ≤ 8192) :
    cc0_transform_0 k0_off1_inb numel1_S1 pf i
      = ![(i 0).val, (if (i 1).val = 1 ∧ (cnt0 pf i).toInt ≤ 4096 then 0 else (i 1).val), 0] :=
  (tr0_eq pf i).trans (vec3_congr (toNat_ofNat_small _ (i 0).isLt) (tileIx_of_range _ hr _ (i 1).isLt) rfl)

/-- The same for the normalisation pass's input block. -/
theorem eff1 (pf : pre1.Contents (Elt F)) (i : grid1.Coords) (hr : 0 ≤ (cnt1 pf i).toInt ∧ (cnt1 pf i).toInt ≤ 8192) :
    cc1_transform_2 k1_off1_inb numel1_S1 pf i
      = ![(i 0).val, (if (i 1).val = 1 ∧ (cnt1 pf i).toInt ≤ 4096 then 0 else (i 1).val), 0] :=
  (tr1_eq pf i).trans (vec3_congr (toNat_ofNat_small _ (i 0).isLt) (tileIx_of_range _ hr _ (i 1).isLt) rfl)

end Cert.Kernel.H

end
-- ==== Proof.KB.Run0.lean ====
/-
  The statistics kernel's body, run on any whole staging memrefs, in its two cases.
  At row tile 0 of an entry (the reset branch taken) it stores zeros into both accumulators, then adds the tile's
  masked column sums: the accumulators end at the update of the zero block.  At the other row tile it adds into what
  the accumulators held.  In both cases the input block and the table are left as they were.  The update of an
  accumulator `p` by the input block `x0` at the table word `w` is the body's own payload term (`k0_pay5`, `k0_pay6`).
-/
import proofs.«411793_j30253749633578_3_alg».proof.Proof.KB.Base
import Idealize.ShloMosaic.Lib.Pipeline.Value

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, as the constant function. -/
private theorem hz3 : (![0, 0, 0] : Fin 3 → Nat) = fun _ => 0 := by funext a; fin_cases a <;> rfl

/-- A store of the whole accumulator block, made last, leaves its payload whatever was stored before. -/
private theorem read_store_acc (v : View sig .tc .vmem S1x1x256 .f32) (f : v.ty.Contents (Elt F))
    (w : S1x1x256.Idx → Elt F .f32) (L : List (View.Piece (Elt F) S1x1x256 .f32)) :
    v.read (Elt F) (v.writes (Elt F) f
      ((⟨Rect.unit ![0, 0, 0] S1x1x256.size inb_S1x1x256_S1x1x256_0_0_0, w⟩ : View.Piece (Elt F) S1x1x256 .f32) :: L)) = w := by
  rw [View.read_writes_eq_canon _ _ _ (fun y => ⟨_, List.mem_cons_self .., View.mem_set_unit_zero hz3 inb_S1x1x256_S1x1x256_0_0_0 y⟩),
    View.canon_cons_unit_zero (S := S1x1x256) hz3]

/-- A load of the whole accumulator block after one store of the whole block reads that store's payload. -/
private theorem readCov_acc (v : View sig .tc .vmem S1x1x256 .f32) (w : S1x1x256.Idx → Elt F .f32) :
    v.readCov [(⟨Rect.unit ![0, 0, 0] S1x1x256.size inb_S1x1x256_S1x1x256_0_0_0, w⟩ : View.Piece (Elt F) S1x1x256 .f32)]
      (Rect.unit ![0, 0, 0] S1x1x256.size inb_S1x1x256_S1x1x256_0_0_0).toLoadRect = w :=
  View.readCov_unit_zero (S := S1x1x256) v hz3 _ w

/-- A load of the whole accumulator block of a whole memref reads its contents. -/
private theorem readAt_acc (m : Memref sig .tc .vmem S1x1x256 .f32) (h : m.IsWhole) (X : S1x1x256.Idx → Elt F .f32) :
    m.view.readAt (Elt F) (Rect.unit ![0, 0, 0] S1x1x256.size inb_S1x1x256_S1x1x256_0_0_0).toLoadRect (h.unread X) = X := by
  rw [View.readAt_eq_ld, h.read_unread, View.ld_unit_zero (S := S1x1x256) hz3]

/-- A load of the whole input block of a whole memref reads its contents. -/
private theorem readAt_inp (m : Memref sig .tc .vmem S1x4096x256 .f32) (h : m.IsWhole) (X : S1x4096x256.Idx → Elt F .f32) :
    m.view.readAt (Elt F) (Rect.unit ![0, 0, 0] S1x4096x256.size inb_S1x4096x256_S1x4096x256_0_0_0).toLoadRect (h.unread X) = X := by
  rw [View.readAt_eq_ld, h.read_unread, View.ld_unit_zero (S := S1x4096x256) hz3]

set_option maxHeartbeats 1000000 in
/-- Row tile 0 of an entry: both accumulators are reset, then updated. -/
theorem run0_A (c : Dev nD) (i : grid0.Coords) (arg3 : Memref sig .tc .vmem S1x4096x256 .f32) (harg3 : arg3.IsWhole)
    (arg4 : Memref sig .tc .vmem S1x1x256 .f32) (harg4 : arg4.IsWhole) (arg5 : Memref sig .tc .vmem S1x1x256 .f32) (harg5 : arg5.IsWhole)
    (hc0 : cond0 i) (x0 : Vec F S1x4096x256 .f32) (xt : TbBuf (F := F) c) (E : Set ℕ) (K : PUnit → sProp 𝕄) :
    iprop(owns (c : Thread nD τ) arg3 fullShare x0 ∗ (∃ d, owns (c : Thread nD τ) arg4 fullShare d) ∗ (∃ d, owns (c : Thread nD τ) arg5 fullShare d) ∗ tbPt c xt
        ∗ (iprop(owns (c : Thread nD τ) arg3 fullShare x0
            ∗ owns (c : Thread nD τ) arg4 fullShare (k0_pay5 i (word0 c i xt) x0 (k0_pay1 (F := F)))
            ∗ owns (c : Thread nD τ) arg5 fullShare (k0_pay6 i (word0 c i xt) x0 (k0_pay2 (F := F)))
            ∗ tbPt c xt) -∗ K ⟨⟩))
      ⊢ wp frame (wpE (defs₀ (F := F)) Variants.none c none) E (cc0__stats_kernel i tbM htbM arg3 harg3 arg4 harg4 arg5 harg5) K := by
  simp only [cc0__stats_kernel_eq_skeleton]; unfold cc0__stats_kernel_skel
  unfold owns
  iintro ⟨⟨%f0, %hf0, H0⟩, ⟨%d1, %f1, -, H1⟩, ⟨%d2, %f2, -, H2⟩, HT, Hk⟩
  obtain rfl := harg3.eq_unread hf0
  sl_exec (disch := first | exact hc0)
  sl_step
  iapply Hk
  isplitl [H0]
  · iexists _; isplitr; · ipureintro; exact harg3.read_unread _
    iexact H0
  isplitl [H1]
  · iexists _; isplitr; swap; iexact H1
    ipureintro
    refine (read_store_acc _ _ _ _).trans ?_
    sl_unfold_words
    rw [readAt_inp arg3 harg3 x0, readCov_acc]
    rfl
  isplitl [H2]
  · iexists _; isplitr; swap; iexact H2
    ipureintro
    refine (read_store_acc _ _ _ _).trans ?_
    sl_unfold_words
    rw [readAt_inp arg3 harg3 x0, readCov_acc]
    rfl
  iexact HT

set_option maxHeartbeats 1000000 in
/-- The other row tile: both accumulators are updated from what they held. -/
theorem run0_B (c : Dev nD) (i : grid0.Coords) (arg3 : Memref sig .tc .vmem S1x4096x256 .f32) (harg3 : arg3.IsWhole)
    (arg4 : Memref sig .tc .vmem S1x1x256 .f32) (harg4 : arg4.IsWhole) (arg5 : Memref sig .tc .vmem S1x1x256 .f32) (harg5 : arg5.IsWhole)
    (hc0 : ¬cond0 i) (x0 : Vec F S1x4096x256 .f32) (xo1 xo2 : Vec F S1x1x256 .f32) (xt : TbBuf (F := F) c) (E : Set ℕ) (K : PUnit → sProp 𝕄) :
    iprop(owns (c : Thread nD τ) arg3 fullShare x0 ∗ owns (c : Thread nD τ) arg4 fullShare xo1 ∗ owns (c : Thread nD τ) arg5 fullShare xo2 ∗ tbPt c xt
        ∗ (iprop(owns (c : Thread nD τ) arg3 fullShare x0
            ∗ owns (c : Thread nD τ) arg4 fullShare (k0_pay5 i (word0 c i xt) x0 xo1)
            ∗ owns (c : Thread nD τ) arg5 fullShare (k0_pay6 i (word0 c i xt) x0 xo2)
            ∗ tbPt c xt) -∗ K ⟨⟩))
      ⊢ wp frame (wpE (defs₀ (F := F)) Variants.none c none) E (cc0__stats_kernel i tbM htbM arg3 harg3 arg4 harg4 arg5 harg5) K := by
  simp only [cc0__stats_kernel_eq_skeleton]; unfold cc0__stats_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0)
  sl_step
  iapply Hk
  isplitl [H0]
  · iexists _; isplitr; · ipureintro; exact harg3.read_unread _
    iexact H0
  isplitl [H1]
  · iexists _; isplitr; swap; iexact H1
    ipureintro
    refine (read_store_acc _ _ _ _).trans ?_
    sl_unfold_words
    rw [readAt_inp arg3 harg3 x0, readAt_acc arg4 harg4 xo1]
    rfl
  isplitl [H2]
  · iexists _; isplitr; swap; iexact H2
    ipureintro
    refine (read_store_acc _ _ _ _).trans ?_
    sl_unfold_words
    rw [readAt_inp arg3 harg3 x0, readAt_acc arg5 harg5 xo2]
    rfl
  iexact HT

end Cert.Kernel.H

end
-- ==== Proof.KB.Region0.lean ====
/-
  The statistics pass as a pipeline: its proof data and body obligation, at any contents `V` of the core's buffers
  when the pass is entered and any admissible contents `a0` of the table of counts.

  The grid point t is entry t / 2, row tile t % 2.  The input window holds its block of x at every point.  Each of
  the two accumulators (masked column sums, masked column sums of squares) holds, after the body at point t, the
  body's update of the zero block (at row tile 0) or of what the point before left (at row tile 1: the buffer is not
  written back between the two tiles of an entry).  The table rides in the invariant, whole, and is only read.
-/
import proofs.«411793_j30253749633578_3_alg».proof.Proof.KB.Sched
import proofs.«411793_j30253749633578_3_alg».proof.Proof.KB.Run0

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b)) (a0 : (pcfg0 (F := F)).Adm)

/-- The table's contents as the body reads them. -/
abbrev tbl0 (c : Dev nD) : TbBuf (F := F) c := a0.1 0

/-- Window `w`'s block at point `t`, read off its array as the pass finds it. -/
def iblk0 (c : Dev nD) (w : Fin (cfg0 a0).W) (t : Fin (cfg0 a0).N) : (((cfg0 a0).win w).xblock ((cfg0 a0).grid.coords t)).Idx → Elt F ((cfg0 a0).win w).elt :=
  (((cfg0 a0).win w).blk t).view.read (Elt F) (V c (Pipeline.arrRef spec0 w))

/-- The input window's staging buffer holds its block at every point, fetched there or not. -/
theorem before0_0_of {c : Dev nD} (dat : Dat τ (Elt F) Unit ℕ (UR sig nD τ) ℕ (cfg0 a0) c) (hA : dat.A 0 = V c (Pipeline.arrRef spec0 0))
    (hafter : ∀ t, dat.after 0 t = iblk0 V a0 c 0 t) (t : Fin (cfg0 a0).N) (d) : dat.before 0 t d = iblk0 V a0 c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION of the masked column sums: what the first accumulator's staging buffer holds after the body at
    position `n` — the update of zeros at a row tile 0, of what position `n - 1` left otherwise. -/
def acc1 (c : Dev nD) : (n : ℕ) → n < (cfg0 a0).N → Vec F S1x1x256 .f32
  | 0, hn => k0_pay5 (grid0.coords ⟨0, hn⟩) (word0 c (grid0.coords ⟨0, hn⟩) (tbl0 a0 c)) (iblk0 V a0 c 0 ⟨0, hn⟩) (k0_pay1 (F := F))
  | n + 1, hn =>
    if (n + 1) % 2 = 0 then
      k0_pay5 (grid0.coords ⟨n + 1, hn⟩) (word0 c (grid0.coords ⟨n + 1, hn⟩) (tbl0 a0 c)) (iblk0 V a0 c 0 ⟨n + 1, hn⟩) (k0_pay1 (F := F))
    else
      k0_pay5 (grid0.coords ⟨n + 1, hn⟩) (word0 c (grid0.coords ⟨n + 1, hn⟩) (tbl0 a0 c)) (iblk0 V a0 c 0 ⟨n + 1, hn⟩) (acc1 c n (Nat.lt_of_succ_lt hn))

/-- The same for the masked column sums of squares. -/
def acc2 (c : Dev nD) : (n : ℕ) → n < (cfg0 a0).N → Vec F S1x1x256 .f32
  | 0, hn => k0_pay6 (grid0.coords ⟨0, hn⟩) (word0 c (grid0.coords ⟨0, hn⟩) (tbl0 a0 c)) (iblk0 V a0 c 0 ⟨0, hn⟩) (k0_pay2 (F := F))
  | n + 1, hn =>
    if (n + 1) % 2 = 0 then
      k0_pay6 (grid0.coords ⟨n + 1, hn⟩) (word0 c (grid0.coords ⟨n + 1, hn⟩) (tbl0 a0 c)) (iblk0 V a0 c 0 ⟨n + 1, hn⟩) (k0_pay2 (F := F))
    else
      k0_pay6 (grid0.coords ⟨n + 1, hn⟩) (word0 c (grid0.coords ⟨n + 1, hn⟩) (tbl0 a0 c)) (iblk0 V a0 c 0 ⟨n + 1, hn⟩) (acc2 c n (Nat.lt_of_succ_lt hn))

theorem acc1_A (c : Dev nD) (t : Fin (cfg0 a0).N) (h0 : t.val % 2 = 0) :
    acc1 V a0 c t.val t.isLt = k0_pay5 (grid0.coords t) (word0 c (grid0.coords t) (tbl0 a0 c)) (iblk0 V a0 c 0 t) (k0_pay1 (F := F)) := by
  obtain ⟨n, hn⟩ := t
  cases n with
  | zero => exact rfl
  | succ n => exact (if_pos h0).trans rfl

theorem acc1_B (c : Dev nD) (t : Fin (cfg0 a0).N) (h0 : ¬t.val % 2 = 0) :
    acc1 V a0 c t.val t.isLt = k0_pay5 (grid0.coords t) (word0 c (grid0.coords t) (tbl0 a0 c)) (iblk0 V a0 c 0 t)
      (acc1 V a0 c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

theorem acc2_A (c : Dev nD) (t : Fin (cfg0 a0).N) (h0 : t.val % 2 = 0) :
    acc2 V a0 c t.val t.isLt = k0_pay6 (grid0.coords t) (word0 c (grid0.coords t) (tbl0 a0 c)) (iblk0 V a0 c 0 t) (k0_pay2 (F := F)) := by
  obtain ⟨n, hn⟩ := t
  cases n with
  | zero => exact rfl
  | succ n => exact (if_pos h0).trans rfl

theorem acc2_B (c : Dev nD) (t : Fin (cfg0 a0).N) (h0 : ¬t.val % 2 = 0) :
    acc2 V a0 c t.val t.isLt = k0_pay6 (grid0.coords t) (word0 c (grid0.coords t) (tbl0 a0 c)) (iblk0 V a0 c 0 t)
      (acc2 V a0 c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The table, whole, as the pass's invariant carries it. -/
abbrev PhiT0 (c : Dev nD) : sProp 𝕄 := Pipeline.prefHeld (Ix := Unit) (Name := ℕ) (U := UR sig nD τ) (Lvl := ℕ) pre0 c (fun _ => fullShare) a0.1

theorem PhiT0_eq (c : Dev nD) : (PhiT0 a0 c : sProp 𝕄) = tbPt c (tbl0 a0 c) := by
  unfold PhiT0 Pipeline.prefHeld
  rw [show (Finset.univ : Finset (Fin 1)) = {(0 : Fin 1)} from by decide, bigSep_singleton]
  rfl

/-- The proof data of the statistics pass on core `c`. -/
def dat0 (c : Dev nD) : Dat τ (Elt F) Unit ℕ (UR sig nD τ) ℕ (cfg0 a0) c where
  A w := V c (Pipeline.arrRef spec0 w)
  after w t := match w with
    | ⟨0, _⟩ => iblk0 V a0 c 0 t
    | ⟨1, _⟩ => acc1 V a0 c t.val t.isLt
    | ⟨2, _⟩ => acc2 V a0 c t.val t.isLt
  Φ _ := iprop(Pipeline.ΦA spec0 c ∗ PhiT0 a0 c)
  q _ := fullShare
  owed _ := 0

theorem A_eq0 (c : Dev nD) (w : Fin (cfg0 a0).W) : (dat0 V a0 c).A w = V c (Pipeline.arrRef spec0 w) := by
  dsimp only [dat0]

theorem after0_0 (c : Dev nD) (t : Fin (cfg0 a0).N) : (dat0 V a0 c).after 0 t = iblk0 V a0 c 0 t := by dsimp only [dat0]; try rfl
theorem after0_1 (c : Dev nD) (t : Fin (cfg0 a0).N) : (dat0 V a0 c).after 1 t = acc1 V a0 c t.val t.isLt := by dsimp only [dat0]; try rfl
theorem after0_2 (c : Dev nD) (t : Fin (cfg0 a0).N) : (dat0 V a0 c).after 2 t = acc2 V a0 c t.val t.isLt := by dsimp only [dat0]; try rfl

theorem before0_0 (c : Dev nD) (t : Fin (cfg0 a0).N) (d) : (dat0 V a0 c).before 0 t d = iblk0 V a0 c 0 t :=
  before0_0_of V a0 (dat0 V a0 c) (A_eq0 V a0 c 0) (after0_0 V a0 c) t d

/-- At the second row tile of an entry the accumulators hold what the first tile left: the point is not the first,
    and the buffers were not written back in between. -/
theorem before0_1_B (c : Dev nD) (t : Fin (cfg0 a0).N) (h0 : ¬t.val % 2 = 0) (d) :
    (dat0 V a0 c).before 1 t d = acc1 V a0 c (t.val - 1) (Nat.lt_of_le_of_lt (Nat.sub_le _ _) t.isLt) := by
  have hN : t.val < 32 := lt_of_lt_of_eq t.isLt (show (cfg0 a0).N = 32 from N_0)
  rw [Dat.before_out_kept _ 1 rfl t (by omega) (by rw [flush0_1]; exact decide_eq_false (by dsimp only; omega))
    (fun _ => rfl) (fun _ _ => rfl)]
  dsimp only [dat0]; try rfl

theorem before0_2_B (c : Dev nD) (t : Fin (cfg0 a0).N) (h0 : ¬t.val % 2 = 0) (d) :
    (dat0 V a0 c).before 2 t d = acc2 V a0 c (t.val - 1) (Nat.lt_of_le_of_lt (Nat.sub_le _ _) t.isLt) := by
  have hN : t.val < 32 := lt_of_lt_of_eq t.isLt (show (cfg0 a0).N = 32 from N_0)
  rw [Dat.before_out_kept _ 2 rfl t (by omega) (by rw [flush0_2]; exact decide_eq_false (by dsimp only; omega))
    (fun _ => rfl) (fun _ _ => rfl)]
  dsimp only [dat0]; try rfl

/-! ## The body obligation -/

def bodyPre0 (c : Dev nD) (t : Fin (cfg0 a0).N) : sProp 𝕄 :=
  iprop((dat0 V a0 c).Φ t.castSucc ∗ (dat0 V a0 c).owesAt () t.castSucc
    ∗ (∃ d, owns (c : Thread nD τ) (ms0_0 a0 t) fullShare ((dat0 V a0 c).before 0 t d))
    ∗ (∃ d, owns (c : Thread nD τ) (ms0_1 a0 t) fullShare ((dat0 V a0 c).before 1 t d))
    ∗ (∃ d, owns (c : Thread nD τ) (ms0_2 a0 t) fullShare ((dat0 V a0 c).before 2 t d)))

def bodyPost0 (c : Dev nD) (t : Fin (cfg0 a0).N) : sProp 𝕄 :=
  iprop((dat0 V a0 c).Φ t.succ ∗ (dat0 V a0 c).owesAt () t.succ
    ∗ owns (c : Thread nD τ) (ms0_0 a0 t) fullShare ((dat0 V a0 c).after 0 t)
    ∗ owns (c : Thread nD τ) (ms0_1 a0 t) fullShare ((dat0 V a0 c).after 1 t)
    ∗ owns (c : Thread nD τ) (ms0_2 a0 t) fullShare ((dat0 V a0 c).after 2 t))

set_option maxHeartbeats 800000 in
theorem sound_body0 (c : Dev nD) (t : Fin (cfg0 a0).N) :
    bodyPre0 V a0 c t ⊢ wp frame (wpE (defs₀ (F := F)) Variants.none c none) Set.univ (bodyAt0 a0 t) (fun _ => bodyPost0 V a0 c t) := by
  unfold bodyPre0 bodyPost0 bodyAt0
  simp only [before0_0]
  rw [show (dat0 V a0 c).Φ t.succ = (dat0 V a0 c).Φ t.castSucc from rfl,
    show (dat0 V a0 c).owesAt () t.succ = (dat0 V a0 c).owesAt () t.castSucc from rfl,
    after0_0, after0_1, after0_2]
  rw [show (dat0 V a0 c).Φ t.castSucc = iprop(Pipeline.ΦA spec0 c ∗ PhiT0 a0 c) from rfl, PhiT0_eq]
  by_cases h0 : t.val % 2 = 0
  · rw [acc1_A V a0 c t h0, acc2_A V a0 c t h0]
    iintro ⟨⟨HΦ, HT⟩, Ho, ⟨%d0, H0⟩, ⟨%d1, H1⟩, ⟨%d2, H2⟩⟩
    iapply (run0_A c (grid0.coords t) _ _ _ _ _ _ ((hcond0 t).mpr h0) (iblk0 V a0 c 0 t) (tbl0 a0 c) Set.univ _)
    isplitl [H0]; · iexact H0
    isplitl [H1]; · iexists _; iexact H1
    isplitl [H2]; · iexists _; iexact H2
    isplitl [HT]; · iexact HT
    iintro ⟨H0, H1, H2, HT⟩
    isplitl [HΦ HT]
    · isplitl [HΦ]; · iexact HΦ
      iexact HT
    isplitl [Ho]; · iexact Ho
    isplitl [H0]; · iexact H0
    isplitl [H1]; · iexact H1
    iexact H2
  · rw [acc1_B V a0 c t h0, acc2_B V a0 c t h0]
    simp only [before0_1_B V a0 c t h0, before0_2_B V a0 c t h0]
    iintro ⟨⟨HΦ, HT⟩, Ho, ⟨%d0, H0⟩, ⟨%d1, H1⟩, ⟨%d2, H2⟩⟩
    iapply (run0_B c (grid0.coords t) _ _ _ _ _ _ (fun h => h0 ((hcond0 t).mp h)) (iblk0 V a0 c 0 t) _ _ (tbl0 a0 c) Set.univ _)
    isplitl [H0]; · iexact H0
    isplitl [H1]; · iexact H1
    isplitl [H2]; · iexact H2
    isplitl [HT]; · iexact HT
    iintro ⟨H0, H1, H2, HT⟩
    isplitl [HΦ HT]
    · isplitl [HΦ]; · iexact HΦ
      iexact HT
    isplitl [Ho]; · iexact Ho
    isplitl [H0]; · iexact H0
    isplitl [H1]; · iexact H1
    iexact H2

theorem body_obligation0 (c : Dev nD) : BodyObligation (dat0 (F := F) V a0 c) (defs₀ (F := F)) Variants.none () Set.univ := fun t => by
  rw [bigSep_W0, bigSep_W0]
  exact sound_body0 V a0 c t

end Region0

end Cert.Kernel.H

end
-- ==== Proof.KB.Run1.lean ====
/-
  The normalisation kernel's body, run on any whole staging memrefs: it loads the table word, the row tile, the scale
  and the shift rows, and stores the masked affine image of the tile — the body's own payload term `k1_pay1` — over the
  whole output block; the three input blocks and the table are left as they were.
-/
import proofs.«411793_j30253749633578_3_alg».proof.Proof.KB.Base
import Idealize.ShloMosaic.Lib.Pipeline.Value

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem run1 (c : Dev nD) (i : grid1.Coords) (arg3 : Memref sig .tc .vmem S1x256 .f32) (harg3 : arg3.IsWhole)
    (arg4 : Memref sig .tc .vmem S1x256 .f32) (harg4 : arg4.IsWhole) (arg5 : Memref sig .tc .vmem S1x4096x256 .f32) (harg5 : arg5.IsWhole)
    (arg6 : Memref sig .tc .vmem S1x4096x256 .f32) (harg6 : arg6.IsWhole)
    (xs xh : Vec F S1x256 .f32) (x2 : Vec F S1x4096x256 .f32) (xt : TbBuf (F := F) c) (E : Set ℕ) (K : PUnit → sProp 𝕄) :
    iprop(owns (c : Thread nD τ) arg3 fullShare xs ∗ owns (c : Thread nD τ) arg4 fullShare xh ∗ owns (c : Thread nD τ) arg5 fullShare x2
        ∗ (∃ d, owns (c : Thread nD τ) arg6 fullShare d) ∗ tbPt c xt
        ∗ (iprop(owns (c : Thread nD τ) arg3 fullShare xs ∗ owns (c : Thread nD τ) arg4 fullShare xh ∗ owns (c : Thread nD τ) arg5 fullShare x2
            ∗ owns (c : Thread nD τ) arg6 fullShare (k1_pay1 i (word1 c i xt) x2 xs xh)
            ∗ tbPt c xt) -∗ K ⟨⟩))
      ⊢ wp frame (wpE (defs₀ (F := F)) Variants.none c none) E (cc1__norm_kernel i tbM htbM arg3 harg3 arg4 harg4 arg5 harg5 arg6 harg6) K := by
  simp only [cc1__norm_kernel_eq_skeleton]; unfold cc1__norm_kernel_skel
  unfold owns
  iintro ⟨⟨%f3, %hf3, H3⟩, ⟨%f4, %hf4, H4⟩, ⟨%f5, %hf5, H5⟩, ⟨%d6, %f6, -, H6⟩, HT, Hk⟩
  -- a whole memref's contents are determined by what is read through it
  obtain rfl := harg3.eq_unread hf3
  obtain rfl := harg4.eq_unread hf4
  obtain rfl := harg5.eq_unread hf5
  -- the body: the table word, the four whole-block loads, one store over the whole output block
  sl_exec
  sl_step
  have hz3 : (![0, 0, 0] : Fin 3 → Nat) = fun _ => 0 := by funext a; fin_cases a <;> rfl
  have hz2 : (![0, 0] : Fin 2 → Nat) = fun _ => 0 := by funext a; fin_cases a <;> rfl
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; iexact H6
    ipureintro
    -- one store through the whole-shape rectangle covers every index, so the buffer reads as that store's payload;
    -- each load through a whole-shape rectangle read its buffer's contents
    refine Eq.trans (View.read_writes_eq_canon _ _ _ ?cov) ?_
    case cov => exact fun y => ⟨_, List.mem_singleton_self _, View.mem_set_unit_zero (S := S1x4096x256) hz3 inb_S1x4096x256_S1x4096x256_0_0_0 y⟩
    sl_unfold_words
    rw [View.canon_unit_zero (S := S1x4096x256) hz3]
    simp only [View.readAt_eq_ld, harg3.read_unread, harg4.read_unread, harg5.read_unread,
      View.ld_unit_zero (S := S1x4096x256) hz3, View.ld_unit_zero (S := S1x256) hz2]
    rfl
  iexact HT

end Cert.Kernel.H

end
-- ==== Proof.KB.Region1.lean ====
/-
  The normalisation pass as a pipeline: its proof data and body obligation, at any contents `V` of the core's buffers
  when the pass is entered and any admissible contents `a1` of the table of counts.  Every input window (the scale
  row, the shift row, the row tile of x the table-indexed map selects) holds its block at every point; the output
  window holds, after the body at point t, the body's masked affine image of the input blocks there.
-/
import proofs.«411793_j30253749633578_3_alg».proof.Proof.KB.Sched
import proofs.«411793_j30253749633578_3_alg».proof.Proof.KB.Run1

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b)) (a1 : (pcfg1 (F := F)).Adm)

/-- The table's contents as the body reads them. -/
abbrev tbl1 (c : Dev nD) : TbBuf (F := F) c := a1.1 0

/-- Window `w`'s block at point `t`, read off its array as the pass finds it. -/
def iblk1 (c : Dev nD) (w : Fin (cfg1 a1).W) (t : Fin (cfg1 a1).N) : (((cfg1 a1).win w).xblock ((cfg1 a1).grid.coords t)).Idx → Elt F ((cfg1 a1).win w).elt :=
  (((cfg1 a1).win w).blk t).view.read (Elt F) (V c (Pipeline.arrRef spec1 w))

theorem before1_0_of {c : Dev nD} (dat : Dat τ (Elt F) Unit ℕ (UR sig nD τ) ℕ (cfg1 a1) c) (hA : dat.A 0 = V c (Pipeline.arrRef spec1 0))
    (hafter : ∀ t, dat.after 0 t = iblk1 V a1 c 0 t) (t : Fin (cfg1 a1).N) (d) : dat.before 0 t d = iblk1 V a1 c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a1) c) (hA : dat.A 1 = V c (Pipeline.arrRef spec1 1))
    (hafter : ∀ t, dat.after 1 t = iblk1 V a1 c 1 t) (t : Fin (cfg1 a1).N) (d) : dat.before 1 t d = iblk1 V a1 c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a1) c) (hA : dat.A 2 = V c (Pipeline.arrRef spec1 2))
    (hafter : ∀ t, dat.after 2 t = iblk1 V a1 c 2 t) (t : Fin (cfg1 a1).N) (d) : dat.before 2 t d = iblk1 V a1 c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the output's staging buffer holds after the body at point `t`. -/
def out1 (c : Dev nD) (t : Fin (cfg1 a1).N) : Vec F S1x4096x256 .f32 :=
  k1_pay1 (grid1.coords t) (word1 c (grid1.coords t) (tbl1 a1 c)) (iblk1 V a1 c 2 t) (iblk1 V a1 c 0 t) (iblk1 V a1 c 1 t)

/-- The table, whole, as the pass's invariant carries it. -/
abbrev PhiT1 (c : Dev nD) : sProp 𝕄 := Pipeline.prefHeld (Ix := Unit) (Name := ℕ) (U := UR sig nD τ) (Lvl := ℕ) pre1 c (fun _ => fullShare) a1.1

theorem PhiT1_eq (c : Dev nD) : (PhiT1 a1 c : sProp 𝕄) = tbPt c (tbl1 a1 c) := by
  unfold PhiT1 Pipeline.prefHeld
  rw [show (Finset.univ : Finset (Fin 1)) = {(0 : Fin 1)} from by decide, bigSep_singleton]
  rfl

/-- The proof data of the normalisation pass on core `c`. -/
def dat1 (c : Dev nD) : Dat τ (Elt F) Unit ℕ (UR sig nD τ) ℕ (cfg1 a1) c where
  A w := V c (Pipeline.arrRef spec1 w)
  after w t := match w with
    | ⟨0, _⟩ => iblk1 V a1 c 0 t
    | ⟨1, _⟩ => iblk1 V a1 c 1 t
    | ⟨2, _⟩ => iblk1 V a1 c 2 t
    | ⟨3, _⟩ => out1 V a1 c t
  Φ _ := iprop(Pipeline.ΦA spec1 c ∗ PhiT1 a1 c)
  q _ := fullShare
  owed _ := 0

theorem A_eq1 (c : Dev nD) (w : Fin (cfg1 a1).W) : (dat1 V a1 c).A w = V c (Pipeline.arrRef spec1 w) := by
  dsimp only [dat1]

theorem after1_0 (c : Dev nD) (t : Fin (cfg1 a1).N) : (dat1 V a1 c).after 0 t = iblk1 V a1 c 0 t := by dsimp only [dat1]; try rfl
theorem after1_1 (c : Dev nD) (t : Fin (cfg1 a1).N) : (dat1 V a1 c).after 1 t = iblk1 V a1 c 1 t := by dsimp only [dat1]; try rfl
theorem after1_2 (c : Dev nD) (t : Fin (cfg1 a1).N) : (dat1 V a1 c).after 2 t = iblk1 V a1 c 2 t := by dsimp only [dat1]; try rfl
theorem after1_3 (c : Dev nD) (t : Fin (cfg1 a1).N) : (dat1 V a1 c).after 3 t = out1 V a1 c t := by dsimp only [dat1]; try rfl

theorem before1_0 (c : Dev nD) (t : Fin (cfg1 a1).N) (d) : (dat1 V a1 c).before 0 t d = iblk1 V a1 c 0 t :=
  before1_0_of V a1 (dat1 V a1 c) (A_eq1 V a1 c 0) (after1_0 V a1 c) t d
theorem before1_1 (c : Dev nD) (t : Fin (cfg1 a1).N) (d) : (dat1 V a1 c).before 1 t d = iblk1 V a1 c 1 t :=
  before1_1_of V a1 (dat1 V a1 c) (A_eq1 V a1 c 1) (after1_1 V a1 c) t d
theorem before1_2 (c : Dev nD) (t : Fin (cfg1 a1).N) (d) : (dat1 V a1 c).before 2 t d = iblk1 V a1 c 2 t :=
  before1_2_of V a1 (dat1 V a1 c) (A_eq1 V a1 c 2) (after1_2 V a1 c) t d

def bodyPre1 (c : Dev nD) (t : Fin (cfg1 a1).N) : sProp 𝕄 :=
  iprop((dat1 V a1 c).Φ t.castSucc ∗ (dat1 V a1 c).owesAt () t.castSucc
    ∗ (∃ d, owns (c : Thread nD τ) (ms1_0 a1 t) fullShare ((dat1 V a1 c).before 0 t d))
    ∗ (∃ d, owns (c : Thread nD τ) (ms1_1 a1 t) fullShare ((dat1 V a1 c).before 1 t d))
    ∗ (∃ d, owns (c : Thread nD τ) (ms1_2 a1 t) fullShare ((dat1 V a1 c).before 2 t d))
    ∗ (∃ d, owns (c : Thread nD τ) (ms1_3 a1 t) fullShare ((dat1 V a1 c).before 3 t d)))

def bodyPost1 (c : Dev nD) (t : Fin (cfg1 a1).N) : sProp 𝕄 :=
  iprop((dat1 V a1 c).Φ t.succ ∗ (dat1 V a1 c).owesAt () t.succ
    ∗ owns (c : Thread nD τ) (ms1_0 a1 t) fullShare ((dat1 V a1 c).after 0 t)
    ∗ owns (c : Thread nD τ) (ms1_1 a1 t) fullShare ((dat1 V a1 c).after 1 t)
    ∗ owns (c : Thread nD τ) (ms1_2 a1 t) fullShare ((dat1 V a1 c).after 2 t)
    ∗ owns (c : Thread nD τ) (ms1_3 a1 t) fullShare ((dat1 V a1 c).after 3 t))

set_option maxHeartbeats 800000 in
theorem sound_body1 (c : Dev nD) (t : Fin (cfg1 a1).N) :
    bodyPre1 V a1 c t ⊢ wp frame (wpE (defs₀ (F := F)) Variants.none c none) Set.univ (bodyAt1 a1 t) (fun _ => bodyPost1 V a1 c t) := by
  unfold bodyPre1 bodyPost1 bodyAt1
  simp only [before1_0, before1_1, before1_2]
  rw [show (dat1 V a1 c).Φ t.succ = (dat1 V a1 c).Φ t.castSucc from rfl,
    show (dat1 V a1 c).owesAt () t.succ = (dat1 V a1 c).owesAt () t.castSucc from rfl,
    after1_0, after1_1, after1_2, after1_3]
  rw [show (dat1 V a1 c).Φ t.castSucc = iprop(Pipeline.ΦA spec1 c ∗ PhiT1 a1 c) from rfl, PhiT1_eq]
  unfold out1
  iintro ⟨⟨HΦ, HT⟩, Ho, ⟨%d0, H0⟩, ⟨%d1, H1⟩, ⟨%d2, H2⟩, ⟨%d3, H3⟩⟩
  iapply (run1 c (grid1.coords t) _ _ _ _ _ _ _ _ (iblk1 V a1 c 0 t) (iblk1 V a1 c 1 t) (iblk1 V a1 c 2 t) (tbl1 a1 c) Set.univ _)
  isplitl [H0]; · iexact H0
  isplitl [H1]; · iexact H1
  isplitl [H2]; · iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

theorem body_obligation1 (c : Dev nD) : BodyObligation (dat1 (F := F) V a1 c) (defs₀ (F := F)) Variants.none () Set.univ := fun t => by
  rw [bigSep_W1, bigSep_W1]
  exact sound_body1 V a1 c t

end Region1

end Cert.Kernel.H

end
-- ==== Proof.KB.Launch.lean ====
/-
  The two-call program run from the launch to the return: the statistics pass, the host stretch that turns its sums
  into the scale and shift rows, the normalisation pass.  The buffer contents at each boundary are folded through the
  program: a pass leaves its windows' arrays at what its pipeline computes (inputs as entered, each output's
  write-backs folded) and every other buffer as entered; the host stretch applies its operations.  The table of counts
  is read off the launch memory; no pass and no host operation writes it, nor any argument.  At the end every
  unscoped buffer of the core holds the last boundary's contents: in particular the result holds what the
  normalisation pass's write-backs leave, and each argument what it held at launch.
-/
import proofs.«411793_j30253749633578_3_alg».proof.Proof.KB.Region0
import proofs.«411793_j30253749633578_3_alg».proof.Proof.KB.Region1
import proofs.«411793_j30253749633578_3_alg».proof.Proof.Gen.Kernel.Regions

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Launch

variable (m : (ℓ : Loc nD τ sig) → Buf (Elt F) ℓ) (ρ : Dev nD → PrngReg)

/-! ## The table of counts, read off the launch memory -/

/-- The table's contents at launch (the program runs on one device). -/
def tbl : pre0.Contents (Elt F) := fun j => m (((0 : Dev nD) : Thread nD τ).loc (pre0.ref j))

/-- The admissible contents both pipelines run at: the launch contents (the side condition holds of any). -/
abbrev adm : (p : Fin 2) → (pcfgs (F := F) p).Adm
  | ⟨0, _⟩ => ⟨tbl m, ok0_all _⟩
  | ⟨1, _⟩ => ⟨tbl m, ok1_all _⟩

/-! ## The buffer contents at each boundary -/

/-- Core `c`'s buffers at launch (the statistics pass's entry). -/
abbrev W0 : Dev nD → Valuation τ sig (Elt F) := fun c b => m ((c : Dev nD), b)
abbrev V0' : (c : Dev nD) → (b : Ref sig .tc) → Buf (Elt F) ((c : Thread nD τ).loc b) := fun c b => W0 m c b
/-- At the statistics pass's exit. -/
def W1 (c : Dev nD) : Valuation τ sig (Elt F) :=
  Pipeline.withArrays spec0 c (W0 m c) fun w => (dat0 (V0' m) (adm m 0) c).arrAt w (cfg0 (adm m 0)).N
theorem W1_arr (c : Dev nD) (w : Fin (cfg0 (adm m 0)).W) :
    W1 m c (Proc.devRef .tc (Pipeline.arrRef spec0 w)) = (dat0 (V0' m) (adm m 0) c).arrAt w (cfg0 (adm m 0)).N := by
  unfold W1; exact Pipeline.withArrays_arr spec0 (launch0 (F := F)).win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1' : (c : Dev nD) → (b : Ref sig .tc) → Buf (Elt F) ((c : Thread nD τ).loc b) := fun c b => W1 m c b
theorem hF0 (c : Dev nD) (w : Fin (cfg0 (adm m 0)).W) : (dat0 (V0' m) (adm m 0) c).arrAt w (cfg0 (adm m 0)).N = V1' m c (Pipeline.arrRef spec0 w) :=
  (W1_arr m c w).symm
theorem hrest0 (c : Dev nD) : ∀ b, b ∉ Finset.univ.image (Pipeline.arrRef spec0) → V1' m c b = V0' m c b :=
  fun b hb => W1_of_ne m c b fun w e => hb (Finset.mem_image.mpr ⟨w, Finset.mem_univ _, e⟩)

/-- After the host stretch (the normalisation pass's entry). -/
abbrev W2 : Dev nD → Valuation τ sig (Elt F) := fun c => StableHlo.after hostOps1 (W1 m c)
abbrev V2' : (c : Dev nD) → (b : Ref sig .tc) → Buf (Elt F) ((c : Thread nD τ).loc b) := fun c b => W2 m c b
/-- At the normalisation pass's exit. -/
def W3 (c : Dev nD) : Valuation τ sig (Elt F) :=
  Pipeline.withArrays spec1 c (W2 m c) fun w => (dat1 (V2' m) (adm m 1) c).arrAt w (cfg1 (adm m 1)).N
theorem W3_arr (c : Dev nD) (w : Fin (cfg1 (adm m 1)).W) :
    W3 m c (Proc.devRef .tc (Pipeline.arrRef spec1 w)) = (dat1 (V2' m) (adm m 1) c).arrAt w (cfg1 (adm m 1)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3' : (c : Dev nD) → (b : Ref sig .tc) → Buf (Elt F) ((c : Thread nD τ).loc b) := fun c b => W3 m c b
theorem hF1 (c : Dev nD) (w : Fin (cfg1 (adm m 1)).W) : (dat1 (V2' m) (adm m 1) c).arrAt w (cfg1 (adm m 1)).N = V3' m c (Pipeline.arrRef spec1 w) :=
  (W3_arr m c w).symm
theorem hrest1 (c : Dev nD) : ∀ b, b ∉ Finset.univ.image (Pipeline.arrRef spec1) → V3' m c b = V2' m c b :=
  fun b hb => W3_of_ne m c b fun w e => hb (Finset.mem_image.mpr ⟨w, Finset.mem_univ _, e⟩)

/-- The host stretch writes only its own results. -/
theorem W2_of (c : Dev nD) (r : Ref sig .tc) (h : r ∉ hostOps1_W) : W2 m c (Proc.devRef .tc r) = W1 m c (Proc.devRef .tc r) :=
  StableHlo.after_of_writes_sub hostOps1 _ hostOps1_writes h

/-! ### The table and the arguments are never written -/

theorem W1_arg1 (c : Dev nD) : W1 m c (Proc.devRef .tc main_arg1) = m ((c : Thread nD τ).loc main_arg1) :=
  (W1_of_ne m c main_arg1 (by decide)).trans rfl
theorem W2_arg1 (c : Dev nD) : W2 m c (Proc.devRef .tc main_arg1) = m ((c : Thread nD τ).loc main_arg1) :=
  (W2_of m c main_arg1 (by decide)).trans (W1_arg1 m c)
theorem W3_arg1 (c : Dev nD) : W3 m c (Proc.devRef .tc main_arg1) = m ((c : Thread nD τ).loc main_arg1) :=
  (W3_of_ne m c main_arg1 (by decide)).trans (W2_arg1 m c)
theorem W1_arg0 (c : Dev nD) : W1 m c (Proc.devRef .tc main_arg0) = m ((c : Thread nD τ).loc main_arg0) :=
  (W1_arr m c 0).trans (((dat0 (V0' m) (adm m 0) c).arrAt_in 0 rfl _).trans ((A_eq0 (V0' m) (adm m 0) c 0).trans rfl))
theorem W2_arg0 (c : Dev nD) : W2 m c (Proc.devRef .tc main_arg0) = m ((c : Thread nD τ).loc main_arg0) :=
  (W2_of m c main_arg0 (by decide)).trans (W1_arg0 m c)
theorem W3_arg0 (c : Dev nD) : W3 m c (Proc.devRef .tc main_arg0) = m ((c : Thread nD τ).loc main_arg0) :=
  (W3_arr m c 2).trans (((dat1 (V2' m) (adm m 1) c).arrAt_in 2 rfl _).trans ((A_eq1 (V2' m) (adm m 1) c 2).trans (W2_arg0 m c)))
theorem W3_arg2 (c : Dev nD) : W3 m c (Proc.devRef .tc main_arg2) = m ((c : Thread nD τ).loc main_arg2) :=
  (W3_of_ne m c main_arg2 (by decide)).trans ((W2_of m c main_arg2 (by decide)).trans ((W1_of_ne m c main_arg2 (by decide)).trans rfl))
theorem W3_arg3 (c : Dev nD) : W3 m c (Proc.devRef .tc main_arg3) = m ((c : Thread nD τ).loc main_arg3) :=
  (W3_of_ne m c main_arg3 (by decide)).trans ((W2_of m c main_arg3 (by decide)).trans ((W1_of_ne m c main_arg3 (by decide)).trans rfl))
/-- The result ends at what the normalisation pass's write-backs leave. -/
theorem W3_v22 (c : Dev nD) : W3 m c (Proc.devRef .tc main_v22) = (dat1 (V2' m) (adm m 1) c).arrAt 3 (cfg1 (adm m 1)).N :=
  W3_arr m c 3

/-- On every device the table holds the launch contents when either pass is entered. -/
theorem V0_pre (c : Dev nD) (j : Fin 1) : V0' m c (pre0.ref j) = tbl m j := by
  obtain rfl : c = 0 := Subsingleton.elim _ _; rfl
theorem V2_pre (c : Dev nD) (j : Fin 1) : V2' m c (pre1.ref j) = tbl m j := by
  obtain rfl : c = 0 := Subsingleton.elim _ _
  match j with
  | ⟨0, _⟩ => exact W2_arg1 m 0

/-! ## The proof data family and the thread state -/

def pdats : (p : Fin 2) → (c : Dev nD) → Dat τ (Elt F) Unit ℕ (UR sig nD τ) ℕ (Pipeline.pin (pcfgs (F := F)) (adm m) p) c
  | ⟨0, _⟩ => fun c => dat0 (V0' m) (adm m 0) c
  | ⟨1, _⟩ => fun c => dat1 (V2' m) (adm m 1) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The passes as segments -/

set_option backward.isDefEq.respectTransparency.types false in
/-- THE STATISTICS PASS over the thread state: entered from every unscoped buffer at the launch contents, left at `W1`.
    Its arrays are split out of the unscoped buffers and put back at the exit contents; the table goes into the
    pass's invariant whole and comes back; the generator register likewise; nothing owed. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V0' m) (adm m 0) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop((∃ r, prngReg c r) ∗ PhiT0 (adm m 0) c)
  Z c := Pipeline.unscopedRestP (Ix := Unit) (Name := ℕ) (U := UR sig nD τ) (Lvl := ℕ) pre0 spec0 c (V0' m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (V0' m c) fun _ => rfl
    rw [Pipeline.unscopedBufs_held] at hsplit
    have hT := Pipeline.unscopedRest_split (Ix := Unit) (Name := ℕ) (U := UR sig nD τ) (Lvl := ℕ) (Val := Elt F) (launch0 (F := F)).pre c (V0' m c)
    rw [show (fun k => V0' m c ((pcfgs (F := F) 0).pre.ref k)) = tbl m from funext (V0_pre m c)] at hT
    iintro ⟨⟨Hub, Hp, HO⟩, -, -⟩
    ihave H := hsplit $$ Hub
    icases H with ⟨Ha, Hrest⟩
    ihave Hrest' := (Entails.of_eq hT) $$ Hrest
    icases Hrest' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ PhiT0 (adm m 0) c) from rfl]; unfold Pipeline.ΦA
    iintro ⟨Hp, Ht, Hr⟩
    isplitr [Ht]
    · isplitl [Hr]; · iexact Hr
      iexact Hp
    iexact Ht
  hout c := by
    rw [Pipeline.ownSems0_none, show (pdats m 0 c).Φ (Fin.last _) = iprop(Pipeline.ΦA spec0 c ∗ PhiT0 (adm m 0) c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (V0' m c) (V1' m c) ((pdats m 0 c).arrAt · (cfg0 (adm m 0)).N) (hF0 m c) (hrest0 m c)
    rw [Pipeline.unscopedBufs_held] at hjoin
    have hT := Pipeline.unscopedRest_split (Ix := Unit) (Name := ℕ) (U := UR sig nD τ) (Lvl := ℕ) (Val := Elt F) (launch0 (F := F)).pre c (V0' m c)
    rw [show (fun k => V0' m c ((pcfgs (F := F) 0).pre.ref k)) = tbl m from funext (V0_pre m c)] at hT
    iintro ⟨Ha, HO, ⟨Hp, Ht⟩, Hrest⟩
    ihave Hrest' := (Entails.of_eq hT.symm) $$ [Ht Hrest]
    · isplitl [Ht]; · iexact Ht
      iexact Hrest
    imodintro
    isplitl [Ha Hrest']
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- THE NORMALISATION PASS over the thread state: entered from every unscoped buffer at `W2`, left at `W3`. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V2' m) (adm m 1) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop((∃ r, prngReg c r) ∗ PhiT1 (adm m 1) c)
  Z c := Pipeline.unscopedRestP (Ix := Unit) (Name := ℕ) (U := UR sig nD τ) (Lvl := ℕ) pre1 spec1 c (V2' m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (V2' m c) fun _ => rfl
    rw [Pipeline.unscopedBufs_held] at hsplit
    have hT := Pipeline.unscopedRest_split (Ix := Unit) (Name := ℕ) (U := UR sig nD τ) (Lvl := ℕ) (Val := Elt F) (launch1 (F := F)).pre c (V2' m c)
    rw [show (fun k => V2' m c ((pcfgs (F := F) 1).pre.ref k)) = tbl m from funext (V2_pre m c)] at hT
    iintro ⟨⟨Hub, Hp, HO⟩, -, -⟩
    ihave H := hsplit $$ Hub
    icases H with ⟨Ha, Hrest⟩
    ihave Hrest' := (Entails.of_eq hT) $$ Hrest
    icases Hrest' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ PhiT1 (adm m 1) c) from rfl]; unfold Pipeline.ΦA
    iintro ⟨Hp, Ht, Hr⟩
    isplitr [Ht]
    · isplitl [Hr]; · iexact Hr
      iexact Hp
    iexact Ht
  hout c := by
    rw [Pipeline.ownSems0_none, show (pdats m 1 c).Φ (Fin.last _) = iprop(Pipeline.ΦA spec1 c ∗ PhiT1 (adm m 1) c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (V2' m c) (V3' m c) ((pdats m 1 c).arrAt · (cfg1 (adm m 1)).N) (hF1 m c) (hrest1 m c)
    rw [Pipeline.unscopedBufs_held] at hjoin
    have hT := Pipeline.unscopedRest_split (Ix := Unit) (Name := ℕ) (U := UR sig nD τ) (Lvl := ℕ) (Val := Elt F) (launch1 (F := F)).pre c (V2' m c)
    rw [show (fun k => V2' m c ((pcfgs (F := F) 1).pre.ref k)) = tbl m from funext (V2_pre m c)] at hT
    iintro ⟨Ha, HO, ⟨Hp, Ht⟩, Hrest⟩
    ihave Hrest' := (Entails.of_eq hT.symm) $$ [Ht Hrest]
    · isplitl [Ht]; · iexact Ht
      iexact Hrest
    imodintro
    isplitl [Ha Hrest' Hp]
    · isplitl [Ha Hrest']
      · iapply hjoin; isplitl [Ha] <;> iassumption
      iexact Hp
    unfold Pipeline.Dat.owesAt Pipeline.owesWithin
    icases HO with ⟨%W, -, HO⟩; iexists W; iexact HO

/-! ## @main as segments, and the launch -/

abbrev segs : List (Pipeline.Seg (pcfgs (F := F)) (adm m) (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c _ (mem_uc main_arg0 (by decide))).trans (W3_arg0 m c),
    (h c _ (mem_uc main_arg1 (by decide))).trans (W3_arg1 m c),
    (h c _ (mem_uc main_arg2 (by decide))).trans (W3_arg2 m c),
    (h c _ (mem_uc main_arg3 (by decide))).trans (W3_arg3 m c)⟩) (run_all m ρ)

/-- The run with the result named: it ends at what the normalisation pass's write-backs leave. -/
theorem run_value : θ_run defs (onTc (τ := τ) (main (F := F))) ⟨m, fun _ => 0, ρ⟩ (fun r => ∀ c : Dev nD,
      r.2.mem ((c.tc : Thread nD τ).loc main_v22) = (dat1 (V2' m) (adm m 1) c).arrAt 3 (cfg1 (adm m 1)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c _ (mem_uc main_v22 (by decide))).trans (W3_v22 m c),
    (h c _ (mem_uc main_arg0 (by decide))).trans (W3_arg0 m c),
    (h c _ (mem_uc main_arg1 (by decide))).trans (W3_arg1 m c),
    (h c _ (mem_uc main_arg2 (by decide))).trans (W3_arg2 m c),
    (h c _ (mem_uc main_arg3 (by decide))).trans (W3_arg3 m c)⟩) (run_all m ρ)

end Launch

end Cert.Kernel.H

end
-- ==== Proof.KI.Base.lean ====
/-
  Names shared by the frame proof of the two-call program (statistics pass, then normalisation pass), for any float
  instance: the table of valid-row counts as the kernels are handed it, the condition of the statistics kernel's
  reset branch (first row tile of an entry), each window's current staging memref at a grid point, and each kernel
  body as its pipeline calls it there.  The grids are 16 entries x 2 row tiles; point t is entry t / 2, tile t % 2.
-/
import proofs.«411793_j30253749633578_3_alg».proof.Proof.Gen.KernelIdeal.Launch
import proofs.«411793_j30253749633578_3_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table of valid-row counts -/

/-- The table as both kernel bodies are handed it: its whole buffer (in scalar memory) as a memref. -/
abbrev tbM : Memref sig .tc .smem S16 .i32 := Memref.whole main_arg1
abbrev htbM : tbM.IsWhole := Memref.isWhole_whole _
/-- The table's contents type on core `c`, and the table held at contents `f` at the full share. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f

/-- The word the statistics kernel loads from the table at grid point `i`: entry `i 0`'s count. -/
abbrev word0 (c : Dev nD) (i : grid0.Coords) (xt : TbBuf (F := F) c) : Elt F .i32 :=
  tbM.view.readAt (Elt F) (Rect.unit (s := S16) (k0_off1 i) S1.size (k0_off1_inb i)).toLoadRect xt (Shape.Idx.first (numel1_S1.symm ▸ Nat.one_pos))
/-- The word the normalisation kernel loads from the table at grid point `i`. -/
abbrev word1 (c : Dev nD) (i : grid1.Coords) (xt : TbBuf (F := F) c) : Elt F .i32 :=
  tbM.view.readAt (Elt F) (Rect.unit (s := S16) (k1_off1 i) S1.size (k1_off1_inb i)).toLoadRect xt (Shape.Idx.first (numel1_S1.symm ▸ Nat.one_pos))

/-! ## The statistics kernel's branch -/

/-- The condition of the statistics kernel's `scf.if` (its accumulators are reset): the row-tile coordinate is 0. -/
abbrev cond0 (i : grid0.Coords) : Prop :=
  (Scalar.cmpi .ne (Scalar.extui (Scalar.cmpi .eq (BitVec.ofNat 32 (i 1).val) 0#32)) 0#32) = 1#1
/-- It holds exactly at the even points (row tile 0 of each entry) — decided over the grid. -/
theorem hcond0 : ∀ t : Fin grid0.N, cond0 (grid0.coords t) ↔ t.val % 2 = 0 :=
  (by decide +kernel : ∀ t : Fin grid0.N, cond0 (grid0.coords t) ↔ t.val % 2 = 0)

/-! ## Staging memrefs and bodies at a point, at any admissible contents of the table -/

section Points
variable (a0 : (pcfg0 (F := F)).Adm) (a1 : (pcfg1 (F := F)).Adm)

abbrev ms0_0 (t : Fin (cfg0 a0).N) : Memref sig .tc .vmem S1x4096x256 .f32 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S1x1x256 .f32 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S1x1x256 .f32 := spec0_2.stage ((cfg0 a0).slots t 2)
abbrev hs0_2 (t : Fin (cfg0 a0).N) : (ms0_2 a0 t).IsWhole := hstage0_2 (((cfg0 a0).slots t 2).cast nbuf0_2)

/-- The statistics kernel's body at point `t`, on what its pipeline calls it with. -/
abbrev bodyAt0 (t : Fin (cfg0 a0).N) : Prog (TpuEff nD τ sig (Elt F) Λ₀ .tc) PUnit :=
  cc0__stats_kernel (grid0.coords t) tbM htbM (ms0_0 a0 t) (hs0_0 a0 t) (ms0_1 a0 t) (hs0_1 a0 t) (ms0_2 a0 t) (hs0_2 a0 t)

abbrev ms1_0 (t : Fin (cfg1 a1).N) : Memref sig .tc .vmem S1x256 .f32 := spec1_0.stage ((cfg1 a1).slots t 0)
abbrev hs1_0 (t : Fin (cfg1 a1).N) : (ms1_0 a1 t).IsWhole := hstage1_0 (((cfg1 a1).slots t 0).cast nbuf1_0)
abbrev ms1_1 (t : Fin (cfg1 a1).N) : Memref sig .tc .vmem S1x256 .f32 := spec1_1.stage ((cfg1 a1).slots t 1)
abbrev hs1_1 (t : Fin (cfg1 a1).N) : (ms1_1 a1 t).IsWhole := hstage1_1 (((cfg1 a1).slots t 1).cast nbuf1_1)
abbrev ms1_2 (t : Fin (cfg1 a1).N) : Memref sig .tc .vmem S1x4096x256 .f32 := spec1_2.stage ((cfg1 a1).slots t 2)
abbrev hs1_2 (t : Fin (cfg1 a1).N) : (ms1_2 a1 t).IsWhole := hstage1_2 (((cfg1 a1).slots t 2).cast nbuf1_2)
abbrev ms1_3 (t : Fin (cfg1 a1).N) : Memref sig .tc .vmem S1x4096x256 .f32 := spec1_3.stage ((cfg1 a1).slots t 3)
abbrev hs1_3 (t : Fin (cfg1 a1).N) : (ms1_3 a1 t).IsWhole := hstage1_3 (((cfg1 a1).slots t 3).cast nbuf1_3)

/-- The normalisation kernel's body at point `t`, on what its pipeline calls it with. -/
abbrev bodyAt1 (t : Fin (cfg1 a1).N) : Prog (TpuEff nD τ sig (Elt F) Λ₀ .tc) PUnit :=
  cc1__norm_kernel (grid1.coords t) tbM htbM (ms1_0 a1 t) (hs1_0 a1 t) (ms1_1 a1 t) (hs1_1 a1 t) (ms1_2 a1 t) (hs1_2 a1 t) (ms1_3 a1 t) (hs1_3 a1 t)

end Points

/-- One staging buffer of each output window, through which an output block's contents are stated. -/
abbrev VO0_1 : View sig .tc .vmem S1x1x256 .f32 := (Memref.whole cc0_stg1_0 : Memref sig .tc .vmem S1x1x256 .f32).view
abbrev VO0_2 : View sig .tc .vmem S1x1x256 .f32 := (Memref.whole cc0_stg2_0 : Memref sig .tc .vmem S1x1x256 .f32).view
abbrev VO1_3 : View sig .tc .vmem S1x4096x256 .f32 := (Memref.whole cc1_stg3_0 : Memref sig .tc .vmem S1x4096x256 .f32).view

end Cert.KernelIdeal.H

end
-- ==== Proof.KI.Sched.lean ====
/-
  Facts about the two pipelines that hold at every contents of the table of valid-row counts: the table-indexed
  window's block always lies inside the array (its row-tile index is a minimum with the grid's row tile, which is 0
  or 1); the accumulators of the statistics pass are written back exactly at the second row tile of each entry (odd
  points), the output of the normalisation pass at every point; and, when the count is in [0, 8192], the row-tile
  index the table-indexed window uses: the grid's row tile, except that the second tile of an entry whose count is
  at most 4096 re-uses tile 0.
-/
import proofs.«411793_j30253749633578_3_alg».proof.Proof.KI.Base

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The row-tile index is 0 or 1 whatever the table holds -/

/-- A signed maximum with 0 is not negative. -/
theorem maxsi_zero_nonneg (z : BitVec 32) : 0 ≤ (Scalar.maxsi z 0#32).toInt := by
  unfold Scalar.maxsi IntOp.maxsi
  split
  · rename_i h
    have h' : (0#32).toInt < z.toInt := by simpa [BitVec.slt] using h
    simp at h'; omega
  · simp

/-- The signed minimum of `a` ∈ {0, 1} with a signed maximum against 0 is, as a natural, at most `a`: the maximum
    is a non-negative word, so the minimum is either `a` or a non-negative word that is not above `a`. -/
theorem minsi_maxsi_le (a z : BitVec 32) (ha : a = 0#32 ∨ a = 1#32) :
    (Scalar.minsi a (Scalar.maxsi z 0#32)).toNat ≤ a.toNat := by
  have hy := maxsi_zero_nonneg z
  generalize Scalar.maxsi z 0#32 = y at hy ⊢
  unfold Scalar.minsi IntOp.minsi
  split
  · exact le_refl _
  · rename_i h
    have h' : ¬ a.toInt < y.toInt := by simpa [BitVec.slt] using h
    have hc := BitVec.toInt_eq_toNat_cond y
    rcases ha with rfl | rfl
    · have e1 : (0#32 : BitVec 32).toInt = 0 := by decide
      have e2 : (0#32 : BitVec 32).toNat = 0 := rfl
      rw [e1] at h'; rw [e2]
      split at hc <;> omega
    · have e1 : (1#32 : BitVec 32).toInt = 1 := by decide
      have e2 : (1#32 : BitVec 32).toNat = 1 := rfl
      rw [e1] at h'; rw [e2]
      split at hc <;> omega

/-- With the row tile `k` < 2 in place of `a`: the index is at most 1. -/
theorem tile_le_one (k : Nat) (hk : k < 2) (z : BitVec 32) :
    (Scalar.minsi (BitVec.ofNat 32 k) (Scalar.maxsi z 0#32)).toNat ≤ 1 := by
  have hk' : k = 0 ∨ k = 1 := by omega
  rcases hk' with rfl | rfl
  · exact (minsi_maxsi_le _ z (.inl rfl)).trans (by decide)
  · exact (minsi_maxsi_le _ z (.inr rfl)).trans (by decide)

/-- A grid coordinate below 2^32 is its own word. -/
theorem toNat_ofNat_small (k : Nat) (hk : k < 16) : (BitVec.ofNat 32 k).toNat = k := by
  rw [BitVec.toNat_ofNat]; omega

/-- The index map of the statistics pass's table-indexed window, with everything below its maximum named `z`. -/
theorem tr0_shape (pf : pre0.Contents (Elt F)) (i : grid0.Coords) : ∃ z : BitVec 32,
    cc0_transform_0 k0_off1_inb numel1_S1 pf i
      = ![(BitVec.ofNat 32 (i 0).val).toNat, (Scalar.minsi (BitVec.ofNat 32 (i 1).val) (Scalar.maxsi z 0#32)).toNat, (0#32).toNat] :=
  ⟨_, rfl⟩

/-- The same for the normalisation pass. -/
theorem tr1_shape (pf : pre1.Contents (Elt F)) (i : grid1.Coords) : ∃ z : BitVec 32,
    cc1_transform_2 k1_off1_inb numel1_S1 pf i
      = ![(BitVec.ofNat 32 (i 0).val).toNat, (Scalar.minsi (BitVec.ofNat 32 (i 1).val) (Scalar.maxsi z 0#32)).toNat, (0#32).toNat] :=
  ⟨_, rfl⟩

/-- A block index `![e, t, 0]` with entry `e` < 16 and row tile `t` ≤ 1 names a 1 x 4096 x 256 block inside the
    16 x 8192 x 256 array. -/
theorem block_inb (e t : Nat) (he : e < 16) (ht : t ≤ 1) :
    ∀ a : Fin 3, ((![e, t, (0#32).toNat] : Fin 3 → Nat) a + 1) * S1x4096x256.size a ≤ S16x8192x256.size a
  | ⟨0, _⟩ => by show (e + 1) * 1 ≤ 16; omega
  | ⟨1, _⟩ => by show (t + 1) * 4096 ≤ 8192; omega
  | ⟨2, _⟩ => by show (0 + 1) * 256 ≤ 256; omega

theorem ok0_all (pf : pre0.Contents (Elt F)) : ok0 (F := F) pf := by
  unfold ok0
  intro i
  obtain ⟨z, hz⟩ := tr0_shape pf i
  refine ⟨?_, .inl rfl⟩
  rw [hz, toNat_ofNat_small _ (i 0).isLt]
  exact block_inb _ _ (i 0).isLt (tile_le_one _ (i 1).isLt z)

theorem ok1_all (pf : pre1.Contents (Elt F)) : ok1 (F := F) pf := by
  unfold ok1
  intro i
  obtain ⟨z, hz⟩ := tr1_shape pf i
  refine ⟨?_, .inl rfl⟩
  rw [hz, toNat_ofNat_small _ (i 0).isLt]
  exact block_inb _ _ (i 0).isLt (tile_le_one _ (i 1).isLt z)

/-! ## When the output windows are written back -/

/- An output window is written back at a point when the next point's block index differs, or at the last point. The
   accumulators' block index is the entry alone, so it changes after the second row tile of each entry: decided
   over the 32 points. The normalisation pass's output block index is the point itself, so it changes at every point. -/

theorem flush0_1 (a : (pcfg0 (F := F)).Adm) : ∀ t : Fin (cfg0 a).N, ((cfg0 a).win 1).flush t = decide (t.val % 2 = 1) :=
  (by decide +kernel : ∀ t : Fin grid0.N, Pipeline.Window.flushOf grid0 true cc0_transform_1 t = decide (t.val % 2 = 1))

theorem flush0_2 (a : (pcfg0 (F := F)).Adm) : ∀ t : Fin (cfg0 a).N, ((cfg0 a).win 2).flush t = decide (t.val % 2 = 1) :=
  (by decide +kernel : ∀ t : Fin grid0.N, Pipeline.Window.flushOf grid0 true cc0_transform_2 t = decide (t.val % 2 = 1))

theorem flush1_3 (a : (pcfg1 (F := F)).Adm) : ∀ t : Fin (cfg1 a).N, ((cfg1 a).win 3).flush t = true :=
  (by decide +kernel : ∀ t : Fin grid1.N, Pipeline.Window.flushOf grid1 true cc1_transform_3 t = true)

/-! ## The row-tile index when the count is in range -/

/-- The row-tile index both table-indexed index maps compute from the count word `w` and the grid's row tile `a1`:
    the ceiling of `w / 4096` (printed with a signed division, a remainder and a sign correction), less one,
    clamped below at 0, then the minimum with the row tile. -/
def tileIx (w a1 : BitVec 32) : BitVec 32 :=
  let v3 : BitVec 32 := Scalar.subi (Scalar.addi w 4096#32) 1#32
  let v4 : BitVec 32 := Scalar.divsi v3 4096#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 4096#32 0#32)) (Scalar.extui (Scalar.cmpi .slt 4096#32 0#32))
  let v18 : BitVec 1 := Scalar.andi (Scalar.cmpi .ne v9 v14) (Scalar.cmpi .ne (Scalar.remsi v3 4096#32) 0#32)
  let v20 : BitVec 32 := Scalar.select v18 (Scalar.subi v4 1#32) v4
  Scalar.minsi a1 (Scalar.maxsi (Scalar.subi v20 1#32) 0#32)

/-- The count word the statistics pass's index map reads at grid point `i`: the table at entry `i 0`. -/
abbrev cnt0 (pf : pre0.Contents (Elt F)) (i : grid0.Coords) : BitVec 32 :=
  pf.at 0 (Rect.unit (s := S16) ![(Scalar.indexCast (BitVec.ofNat 32 (i 0).val)).toNat] S1.size (k0_off1_inb i)) numel1_S1
/-- The count word the normalisation pass's index map reads at grid point `i`. -/
abbrev cnt1 (pf : pre1.Contents (Elt F)) (i : grid1.Coords) : BitVec 32 :=
  pf.at 0 (Rect.unit (s := S16) ![(Scalar.indexCast (BitVec.ofNat 32 (i 0).val)).toNat] S1.size (k1_off1_inb i)) numel1_S1

theorem tr0_eq (pf : pre0.Contents (Elt F)) (i : grid0.Coords) :
    cc0_transform_0 k0_off1_inb numel1_S1 pf i
      = ![(BitVec.ofNat 32 (i 0).val).toNat, (tileIx (cnt0 pf i) (BitVec.ofNat 32 (i 1).val)).toNat, (0#32).toNat] := rfl

theorem tr1_eq (pf : pre1.Contents (Elt F)) (i : grid1.Coords) :
    cc1_transform_2 k1_off1_inb numel1_S1 pf i
      = ![(BitVec.ofNat 32 (i 0).val).toNat, (tileIx (cnt1 pf i) (BitVec.ofNat 32 (i 1).val)).toNat, (0#32).toNat] := rfl

/-- The index at every count `64 q + r` ≤ 8192 and row tile `j`, by evaluation: nothing wraps in this range, the
    ceiling of the count over 4096 is 0, 1 or 2, so the clamped value is 1 exactly above 4096. -/
theorem tileIx_table : ∀ q : Fin 129, ∀ r : Fin 64, ∀ j : Fin 2, 64 * q.val + r.val ≤ 8192 →
    (tileIx (BitVec.ofNat 32 (64 * q.val + r.val)) (BitVec.ofNat 32 j.val)).toNat
      = if j.val = 1 ∧ 64 * q.val + r.val ≤ 4096 then 0 else j.val := by
  decide +kernel

theorem tileIx_nat (n : Nat) (hn : n ≤ 8192) (k : Nat) (hk : k < 2) :
    (tileIx (BitVec.ofNat 32 n) (BitVec.ofNat 32 k)).toNat = if k = 1 ∧ n ≤ 4096 then 0 else k := by
  have key := tileIx_table ⟨n / 64, by omega⟩ ⟨n % 64, by omega⟩ ⟨k, hk⟩
  have e : 64 * (n / 64) + n % 64 = n := Nat.div_add_mod n 64
  dsimp only at key
  rw [e] at key
  exact key hn

/-- At a count word in [0, 8192] read as a signed integer. -/
theorem tileIx_of_range (w : BitVec 32) (hr : 0 ≤ w.toInt ∧ w.toInt ≤ 8192) (k : Nat) (hk : k < 2) :
    (tileIx w (BitVec.ofNat 32 k)).toNat = if k = 1 ∧ w.toInt ≤ 4096 then 0 else k := by
  have hc := BitVec.toInt_eq_toNat_cond w
  have hlt := w.isLt
  have hn : w.toInt = (w.toNat : Int) := by split at hc <;> omega
  have hle : w.toNat ≤ 8192 := by omega
  have e : tileIx w (BitVec.ofNat 32 k) = tileIx (BitVec.ofNat 32 w.toNat) (BitVec.ofNat 32 k) :=
    congrArg (fun v => tileIx v (BitVec.ofNat 32 k)) (by simp : w = BitVec.ofNat 32 w.toNat)
  rw [e, tileIx_nat _ hle k hk]
  by_cases h : w.toInt ≤ 4096
  · have h' : w.toNat ≤ 4096 := by omega
    simp only [h, h']
  · have h' : ¬ w.toNat ≤ 4096 := by omega
    simp only [h, h']

theorem vec3_congr {a b c a' b' c' : Nat} (ha : a = a') (hb : b = b') (hc : c = c') :
    (![a, b, c] : Fin 3 → Nat) = ![a', b', c'] := by subst ha hb hc; rfl

/-- The statistics pass's table-indexed block at a count in range: entry `i 0`, and the grid's row tile unless that is
    tile 1 of an entry with at most 4096 valid rows, which re-uses tile 0. -/
theorem eff0 (pf : pre0.Contents (Elt F)) (i : grid0.Coords) (hr : 0 ≤ (cnt0 pf i).toInt ∧ (cnt0 pf i).toInt ≤ 8192) :
    cc0_transform_0 k0_off1_inb numel1_S1 pf i
      = ![(i 0).val, (if (i 1).val = 1 ∧ (cnt0 pf i).toInt ≤ 4096 then 0 else (i 1).val), 0] :=
  (tr0_eq pf i).trans (vec3_congr (toNat_ofNat_small _ (i 0).isLt) (tileIx_of_range _ hr _ (i 1).isLt) rfl)

/-- The same for the normalisation pass's input block. -/
theorem eff1 (pf : pre1.Contents (Elt F)) (i : grid1.Coords) (hr : 0 ≤ (cnt1 pf i).toInt ∧ (cnt1 pf i).toInt ≤ 8192) :
    cc1_transform_2 k1_off1_inb numel1_S1 pf i
      = ![(i 0).val, (if (i 1).val = 1 ∧ (cnt1 pf i).toInt ≤ 4096 then 0 else (i 1).val), 0] :=
  (tr1_eq pf i).trans (vec3_congr (toNat_ofNat_small _ (i 0).isLt) (tileIx_of_range _ hr _ (i 1).isLt) rfl)

end Cert.KernelIdeal.H

end
-- ==== Proof.KI.Run0.lean ====
/-
  The statistics kernel's body, run on any whole staging memrefs, in its two cases.
  At row tile 0 of an entry (the reset branch taken) it stores zeros into both accumulators, then adds the tile's
  masked column sums: the accumulators end at the update of the zero block.  At the other row tile it adds into what
  the accumulators held.  In both cases the input block and the table are left as they were.  The update of an
  accumulator `p` by the input block `x0` at the table word `w` is the body's own payload term (`k0_pay5`, `k0_pay6`).
-/
import proofs.«411793_j30253749633578_3_alg».proof.Proof.KI.Base
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, as the constant function. -/
private theorem hz3 : (![0, 0, 0] : Fin 3 → Nat) = fun _ => 0 := by funext a; fin_cases a <;> rfl

/-- A store of the whole accumulator block, made last, leaves its payload whatever was stored before. -/
private theorem read_store_acc (v : View sig .tc .vmem S1x1x256 .f32) (f : v.ty.Contents (Elt F))
    (w : S1x1x256.Idx → Elt F .f32) (L : List (View.Piece (Elt F) S1x1x256 .f32)) :
    v.read (Elt F) (v.writes (Elt F) f
      ((⟨Rect.unit ![0, 0, 0] S1x1x256.size inb_S1x1x256_S1x1x256_0_0_0, w⟩ : View.Piece (Elt F) S1x1x256 .f32) :: L)) = w := by
  rw [View.read_writes_eq_canon _ _ _ (fun y => ⟨_, List.mem_cons_self .., View.mem_set_unit_zero hz3 inb_S1x1x256_S1x1x256_0_0_0 y⟩),
    View.canon_cons_unit_zero (S := S1x1x256) hz3]

/-- A load of the whole accumulator block after one store of the whole block reads that store's payload. -/
private theorem readCov_acc (v : View sig .tc .vmem S1x1x256 .f32) (w : S1x1x256.Idx → Elt F .f32) :
    v.readCov [(⟨Rect.unit ![0, 0, 0] S1x1x256.size inb_S1x1x256_S1x1x256_0_0_0, w⟩ : View.Piece (Elt F) S1x1x256 .f32)]
      (Rect.unit ![0, 0, 0] S1x1x256.size inb_S1x1x256_S1x1x256_0_0_0).toLoadRect = w :=
  View.readCov_unit_zero (S := S1x1x256) v hz3 _ w

/-- A load of the whole accumulator block of a whole memref reads its contents. -/
private theorem readAt_acc (m : Memref sig .tc .vmem S1x1x256 .f32) (h : m.IsWhole) (X : S1x1x256.Idx → Elt F .f32) :
    m.view.readAt (Elt F) (Rect.unit ![0, 0, 0] S1x1x256.size inb_S1x1x256_S1x1x256_0_0_0).toLoadRect (h.unread X) = X := by
  rw [View.readAt_eq_ld, h.read_unread, View.ld_unit_zero (S := S1x1x256) hz3]

/-- A load of the whole input block of a whole memref reads its contents. -/
private theorem readAt_inp (m : Memref sig .tc .vmem S1x4096x256 .f32) (h : m.IsWhole) (X : S1x4096x256.Idx → Elt F .f32) :
    m.view.readAt (Elt F) (Rect.unit ![0, 0, 0] S1x4096x256.size inb_S1x4096x256_S1x4096x256_0_0_0).toLoadRect (h.unread X) = X := by
  rw [View.readAt_eq_ld, h.read_unread, View.ld_unit_zero (S := S1x4096x256) hz3]

set_option maxHeartbeats 1000000 in
/-- Row tile 0 of an entry: both accumulators are reset, then updated. -/
theorem run0_A (c : Dev nD) (i : grid0.Coords) (arg3 : Memref sig .tc .vmem S1x4096x256 .f32) (harg3 : arg3.IsWhole)
    (arg4 : Memref sig .tc .vmem S1x1x256 .f32) (harg4 : arg4.IsWhole) (arg5 : Memref sig .tc .vmem S1x1x256 .f32) (harg5 : arg5.IsWhole)
    (hc0 : cond0 i) (x0 : Vec F S1x4096x256 .f32) (xt : TbBuf (F := F) c) (E : Set ℕ) (K : PUnit → sProp 𝕄) :
    iprop(owns (c : Thread nD τ) arg3 fullShare x0 ∗ (∃ d, owns (c : Thread nD τ) arg4 fullShare d) ∗ (∃ d, owns (c : Thread nD τ) arg5 fullShare d) ∗ tbPt c xt
        ∗ (iprop(owns (c : Thread nD τ) arg3 fullShare x0
            ∗ owns (c : Thread nD τ) arg4 fullShare (k0_pay5 i (word0 c i xt) x0 (k0_pay1 (F := F)))
            ∗ owns (c : Thread nD τ) arg5 fullShare (k0_pay6 i (word0 c i xt) x0 (k0_pay2 (F := F)))
            ∗ tbPt c xt) -∗ K ⟨⟩))
      ⊢ wp frame (wpE (defs₀ (F := F)) Variants.none c none) E (cc0__stats_kernel i tbM htbM arg3 harg3 arg4 harg4 arg5 harg5) K := by
  simp only [cc0__stats_kernel_eq_skeleton]; unfold cc0__stats_kernel_skel
  unfold owns
  iintro ⟨⟨%f0, %hf0, H0⟩, ⟨%d1, %f1, -, H1⟩, ⟨%d2, %f2, -, H2⟩, HT, Hk⟩
  obtain rfl := harg3.eq_unread hf0
  sl_exec (disch := first | exact hc0)
  sl_step
  iapply Hk
  isplitl [H0]
  · iexists _; isplitr; · ipureintro; exact harg3.read_unread _
    iexact H0
  isplitl [H1]
  · iexists _; isplitr; swap; iexact H1
    ipureintro
    refine (read_store_acc _ _ _ _).trans ?_
    sl_unfold_words
    rw [readAt_inp arg3 harg3 x0, readCov_acc]
    rfl
  isplitl [H2]
  · iexists _; isplitr; swap; iexact H2
    ipureintro
    refine (read_store_acc _ _ _ _).trans ?_
    sl_unfold_words
    rw [readAt_inp arg3 harg3 x0, readCov_acc]
    rfl
  iexact HT

set_option maxHeartbeats 1000000 in
/-- The other row tile: both accumulators are updated from what they held. -/
theorem run0_B (c : Dev nD) (i : grid0.Coords) (arg3 : Memref sig .tc .vmem S1x4096x256 .f32) (harg3 : arg3.IsWhole)
    (arg4 : Memref sig .tc .vmem S1x1x256 .f32) (harg4 : arg4.IsWhole) (arg5 : Memref sig .tc .vmem S1x1x256 .f32) (harg5 : arg5.IsWhole)
    (hc0 : ¬cond0 i) (x0 : Vec F S1x4096x256 .f32) (xo1 xo2 : Vec F S1x1x256 .f32) (xt : TbBuf (F := F) c) (E : Set ℕ) (K : PUnit → sProp 𝕄) :
    iprop(owns (c : Thread nD τ) arg3 fullShare x0 ∗ owns (c : Thread nD τ) arg4 fullShare xo1 ∗ owns (c : Thread nD τ) arg5 fullShare xo2 ∗ tbPt c xt
        ∗ (iprop(owns (c : Thread nD τ) arg3 fullShare x0
            ∗ owns (c : Thread nD τ) arg4 fullShare (k0_pay5 i (word0 c i xt) x0 xo1)
            ∗ owns (c : Thread nD τ) arg5 fullShare (k0_pay6 i (word0 c i xt) x0 xo2)
            ∗ tbPt c xt) -∗ K ⟨⟩))
      ⊢ wp frame (wpE (defs₀ (F := F)) Variants.none c none) E (cc0__stats_kernel i tbM htbM arg3 harg3 arg4 harg4 arg5 harg5) K := by
  simp only [cc0__stats_kernel_eq_skeleton]; unfold cc0__stats_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0)
  sl_step
  iapply Hk
  isplitl [H0]
  · iexists _; isplitr; · ipureintro; exact harg3.read_unread _
    iexact H0
  isplitl [H1]
  · iexists _; isplitr; swap; iexact H1
    ipureintro
    refine (read_store_acc _ _ _ _).trans ?_
    sl_unfold_words
    rw [readAt_inp arg3 harg3 x0, readAt_acc arg4 harg4 xo1]
    rfl
  isplitl [H2]
  · iexists _; isplitr; swap; iexact H2
    ipureintro
    refine (read_store_acc _ _ _ _).trans ?_
    sl_unfold_words
    rw [readAt_inp arg3 harg3 x0, readAt_acc arg5 harg5 xo2]
    rfl
  iexact HT

end Cert.KernelIdeal.H

end
-- ==== Proof.KI.Region0.lean ====
/-
  The statistics pass as a pipeline: its proof data and body obligation, at any contents `V` of the core's buffers
  when the pass is entered and any admissible contents `a0` of the table of counts.

  The grid point t is entry t / 2, row tile t % 2.  The input window holds its block of x at every point.  Each of
  the two accumulators (masked column sums, masked column sums of squares) holds, after the body at point t, the
  body's update of the zero block (at row tile 0) or of what the point before left (at row tile 1: the buffer is not
  written back between the two tiles of an entry).  The table rides in the invariant, whole, and is only read.
-/
import proofs.«411793_j30253749633578_3_alg».proof.Proof.KI.Sched
import proofs.«411793_j30253749633578_3_alg».proof.Proof.KI.Run0

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b)) (a0 : (pcfg0 (F := F)).Adm)

/-- The table's contents as the body reads them. -/
abbrev tbl0 (c : Dev nD) : TbBuf (F := F) c := a0.1 0

/-- Window `w`'s block at point `t`, read off its array as the pass finds it. -/
def iblk0 (c : Dev nD) (w : Fin (cfg0 a0).W) (t : Fin (cfg0 a0).N) : (((cfg0 a0).win w).xblock ((cfg0 a0).grid.coords t)).Idx → Elt F ((cfg0 a0).win w).elt :=
  (((cfg0 a0).win w).blk t).view.read (Elt F) (V c (Pipeline.arrRef spec0 w))

/-- The input window's staging buffer holds its block at every point, fetched there or not. -/
theorem before0_0_of {c : Dev nD} (dat : Dat τ (Elt F) Unit ℕ (UR sig nD τ) ℕ (cfg0 a0) c) (hA : dat.A 0 = V c (Pipeline.arrRef spec0 0))
    (hafter : ∀ t, dat.after 0 t = iblk0 V a0 c 0 t) (t : Fin (cfg0 a0).N) (d) : dat.before 0 t d = iblk0 V a0 c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION of the masked column sums: what the first accumulator's staging buffer holds after the body at
    position `n` — the update of zeros at a row tile 0, of what position `n - 1` left otherwise. -/
def acc1 (c : Dev nD) : (n : ℕ) → n < (cfg0 a0).N → Vec F S1x1x256 .f32
  | 0, hn => k0_pay5 (grid0.coords ⟨0, hn⟩) (word0 c (grid0.coords ⟨0, hn⟩) (tbl0 a0 c)) (iblk0 V a0 c 0 ⟨0, hn⟩) (k0_pay1 (F := F))
  | n + 1, hn =>
    if (n + 1) % 2 = 0 then
      k0_pay5 (grid0.coords ⟨n + 1, hn⟩) (word0 c (grid0.coords ⟨n + 1, hn⟩) (tbl0 a0 c)) (iblk0 V a0 c 0 ⟨n + 1, hn⟩) (k0_pay1 (F := F))
    else
      k0_pay5 (grid0.coords ⟨n + 1, hn⟩) (word0 c (grid0.coords ⟨n + 1, hn⟩) (tbl0 a0 c)) (iblk0 V a0 c 0 ⟨n + 1, hn⟩) (acc1 c n (Nat.lt_of_succ_lt hn))

/-- The same for the masked column sums of squares. -/
def acc2 (c : Dev nD) : (n : ℕ) → n < (cfg0 a0).N → Vec F S1x1x256 .f32
  | 0, hn => k0_pay6 (grid0.coords ⟨0, hn⟩) (word0 c (grid0.coords ⟨0, hn⟩) (tbl0 a0 c)) (iblk0 V a0 c 0 ⟨0, hn⟩) (k0_pay2 (F := F))
  | n + 1, hn =>
    if (n + 1) % 2 = 0 then
      k0_pay6 (grid0.coords ⟨n + 1, hn⟩) (word0 c (grid0.coords ⟨n + 1, hn⟩) (tbl0 a0 c)) (iblk0 V a0 c 0 ⟨n + 1, hn⟩) (k0_pay2 (F := F))
    else
      k0_pay6 (grid0.coords ⟨n + 1, hn⟩) (word0 c (grid0.coords ⟨n + 1, hn⟩) (tbl0 a0 c)) (iblk0 V a0 c 0 ⟨n + 1, hn⟩) (acc2 c n (Nat.lt_of_succ_lt hn))

theorem acc1_A (c : Dev nD) (t : Fin (cfg0 a0).N) (h0 : t.val % 2 = 0) :
    acc1 V a0 c t.val t.isLt = k0_pay5 (grid0.coords t) (word0 c (grid0.coords t) (tbl0 a0 c)) (iblk0 V a0 c 0 t) (k0_pay1 (F := F)) := by
  obtain ⟨n, hn⟩ := t
  cases n with
  | zero => exact rfl
  | succ n => exact (if_pos h0).trans rfl

theorem acc1_B (c : Dev nD) (t : Fin (cfg0 a0).N) (h0 : ¬t.val % 2 = 0) :
    acc1 V a0 c t.val t.isLt = k0_pay5 (grid0.coords t) (word0 c (grid0.coords t) (tbl0 a0 c)) (iblk0 V a0 c 0 t)
      (acc1 V a0 c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

theorem acc2_A (c : Dev nD) (t : Fin (cfg0 a0).N) (h0 : t.val % 2 = 0) :
    acc2 V a0 c t.val t.isLt = k0_pay6 (grid0.coords t) (word0 c (grid0.coords t) (tbl0 a0 c)) (iblk0 V a0 c 0 t) (k0_pay2 (F := F)) := by
  obtain ⟨n, hn⟩ := t
  cases n with
  | zero => exact rfl
  | succ n => exact (if_pos h0).trans rfl

theorem acc2_B (c : Dev nD) (t : Fin (cfg0 a0).N) (h0 : ¬t.val % 2 = 0) :
    acc2 V a0 c t.val t.isLt = k0_pay6 (grid0.coords t) (word0 c (grid0.coords t) (tbl0 a0 c)) (iblk0 V a0 c 0 t)
      (acc2 V a0 c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The table, whole, as the pass's invariant carries it. -/
abbrev PhiT0 (c : Dev nD) : sProp 𝕄 := Pipeline.prefHeld (Ix := Unit) (Name := ℕ) (U := UR sig nD τ) (Lvl := ℕ) pre0 c (fun _ => fullShare) a0.1

theorem PhiT0_eq (c : Dev nD) : (PhiT0 a0 c : sProp 𝕄) = tbPt c (tbl0 a0 c) := by
  unfold PhiT0 Pipeline.prefHeld
  rw [show (Finset.univ : Finset (Fin 1)) = {(0 : Fin 1)} from by decide, bigSep_singleton]
  rfl

/-- The proof data of the statistics pass on core `c`. -/
def dat0 (c : Dev nD) : Dat τ (Elt F) Unit ℕ (UR sig nD τ) ℕ (cfg0 a0) c where
  A w := V c (Pipeline.arrRef spec0 w)
  after w t := match w with
    | ⟨0, _⟩ => iblk0 V a0 c 0 t
    | ⟨1, _⟩ => acc1 V a0 c t.val t.isLt
    | ⟨2, _⟩ => acc2 V a0 c t.val t.isLt
  Φ _ := iprop(Pipeline.ΦA spec0 c ∗ PhiT0 a0 c)
  q _ := fullShare
  owed _ := 0

theorem A_eq0 (c : Dev nD) (w : Fin (cfg0 a0).W) : (dat0 V a0 c).A w = V c (Pipeline.arrRef spec0 w) := by
  dsimp only [dat0]

theorem after0_0 (c : Dev nD) (t : Fin (cfg0 a0).N) : (dat0 V a0 c).after 0 t = iblk0 V a0 c 0 t := by dsimp only [dat0]; try rfl
theorem after0_1 (c : Dev nD) (t : Fin (cfg0 a0).N) : (dat0 V a0 c).after 1 t = acc1 V a0 c t.val t.isLt := by dsimp only [dat0]; try rfl
theorem after0_2 (c : Dev nD) (t : Fin (cfg0 a0).N) : (dat0 V a0 c).after 2 t = acc2 V a0 c t.val t.isLt := by dsimp only [dat0]; try rfl

theorem before0_0 (c : Dev nD) (t : Fin (cfg0 a0).N) (d) : (dat0 V a0 c).before 0 t d = iblk0 V a0 c 0 t :=
  before0_0_of V a0 (dat0 V a0 c) (A_eq0 V a0 c 0) (after0_0 V a0 c) t d

/-- At the second row tile of an entry the accumulators hold what the first tile left: the point is not the first,
    and the buffers were not written back in between. -/
theorem before0_1_B (c : Dev nD) (t : Fin (cfg0 a0).N) (h0 : ¬t.val % 2 = 0) (d) :
    (dat0 V a0 c).before 1 t d = acc1 V a0 c (t.val - 1) (Nat.lt_of_le_of_lt (Nat.sub_le _ _) t.isLt) := by
  have hN : t.val < 32 := lt_of_lt_of_eq t.isLt (show (cfg0 a0).N = 32 from N_0)
  rw [Dat.before_out_kept _ 1 rfl t (by omega) (by rw [flush0_1]; exact decide_eq_false (by dsimp only; omega))
    (fun _ => rfl) (fun _ _ => rfl)]
  dsimp only [dat0]; try rfl

theorem before0_2_B (c : Dev nD) (t : Fin (cfg0 a0).N) (h0 : ¬t.val % 2 = 0) (d) :
    (dat0 V a0 c).before 2 t d = acc2 V a0 c (t.val - 1) (Nat.lt_of_le_of_lt (Nat.sub_le _ _) t.isLt) := by
  have hN : t.val < 32 := lt_of_lt_of_eq t.isLt (show (cfg0 a0).N = 32 from N_0)
  rw [Dat.before_out_kept _ 2 rfl t (by omega) (by rw [flush0_2]; exact decide_eq_false (by dsimp only; omega))
    (fun _ => rfl) (fun _ _ => rfl)]
  dsimp only [dat0]; try rfl

/-! ## The body obligation -/

def bodyPre0 (c : Dev nD) (t : Fin (cfg0 a0).N) : sProp 𝕄 :=
  iprop((dat0 V a0 c).Φ t.castSucc ∗ (dat0 V a0 c).owesAt () t.castSucc
    ∗ (∃ d, owns (c : Thread nD τ) (ms0_0 a0 t) fullShare ((dat0 V a0 c).before 0 t d))
    ∗ (∃ d, owns (c : Thread nD τ) (ms0_1 a0 t) fullShare ((dat0 V a0 c).before 1 t d))
    ∗ (∃ d, owns (c : Thread nD τ) (ms0_2 a0 t) fullShare ((dat0 V a0 c).before 2 t d)))

def bodyPost0 (c : Dev nD) (t : Fin (cfg0 a0).N) : sProp 𝕄 :=
  iprop((dat0 V a0 c).Φ t.succ ∗ (dat0 V a0 c).owesAt () t.succ
    ∗ owns (c : Thread nD τ) (ms0_0 a0 t) fullShare ((dat0 V a0 c).after 0 t)
    ∗ owns (c : Thread nD τ) (ms0_1 a0 t) fullShare ((dat0 V a0 c).after 1 t)
    ∗ owns (c : Thread nD τ) (ms0_2 a0 t) fullShare ((dat0 V a0 c).after 2 t))

set_option maxHeartbeats 800000 in
theorem sound_body0 (c : Dev nD) (t : Fin (cfg0 a0).N) :
    bodyPre0 V a0 c t ⊢ wp frame (wpE (defs₀ (F := F)) Variants.none c none) Set.univ (bodyAt0 a0 t) (fun _ => bodyPost0 V a0 c t) := by
  unfold bodyPre0 bodyPost0 bodyAt0
  simp only [before0_0]
  rw [show (dat0 V a0 c).Φ t.succ = (dat0 V a0 c).Φ t.castSucc from rfl,
    show (dat0 V a0 c).owesAt () t.succ = (dat0 V a0 c).owesAt () t.castSucc from rfl,
    after0_0, after0_1, after0_2]
  rw [show (dat0 V a0 c).Φ t.castSucc = iprop(Pipeline.ΦA spec0 c ∗ PhiT0 a0 c) from rfl, PhiT0_eq]
  by_cases h0 : t.val % 2 = 0
  · rw [acc1_A V a0 c t h0, acc2_A V a0 c t h0]
    iintro ⟨⟨HΦ, HT⟩, Ho, ⟨%d0, H0⟩, ⟨%d1, H1⟩, ⟨%d2, H2⟩⟩
    iapply (run0_A c (grid0.coords t) _ _ _ _ _ _ ((hcond0 t).mpr h0) (iblk0 V a0 c 0 t) (tbl0 a0 c) Set.univ _)
    isplitl [H0]; · iexact H0
    isplitl [H1]; · iexists _; iexact H1
    isplitl [H2]; · iexists _; iexact H2
    isplitl [HT]; · iexact HT
    iintro ⟨H0, H1, H2, HT⟩
    isplitl [HΦ HT]
    · isplitl [HΦ]; · iexact HΦ
      iexact HT
    isplitl [Ho]; · iexact Ho
    isplitl [H0]; · iexact H0
    isplitl [H1]; · iexact H1
    iexact H2
  · rw [acc1_B V a0 c t h0, acc2_B V a0 c t h0]
    simp only [before0_1_B V a0 c t h0, before0_2_B V a0 c t h0]
    iintro ⟨⟨HΦ, HT⟩, Ho, ⟨%d0, H0⟩, ⟨%d1, H1⟩, ⟨%d2, H2⟩⟩
    iapply (run0_B c (grid0.coords t) _ _ _ _ _ _ (fun h => h0 ((hcond0 t).mp h)) (iblk0 V a0 c 0 t) _ _ (tbl0 a0 c) Set.univ _)
    isplitl [H0]; · iexact H0
    isplitl [H1]; · iexact H1
    isplitl [H2]; · iexact H2
    isplitl [HT]; · iexact HT
    iintro ⟨H0, H1, H2, HT⟩
    isplitl [HΦ HT]
    · isplitl [HΦ]; · iexact HΦ
      iexact HT
    isplitl [Ho]; · iexact Ho
    isplitl [H0]; · iexact H0
    isplitl [H1]; · iexact H1
    iexact H2

theorem body_obligation0 (c : Dev nD) : BodyObligation (dat0 (F := F) V a0 c) (defs₀ (F := F)) Variants.none () Set.univ := fun t => by
  rw [bigSep_W0, bigSep_W0]
  exact sound_body0 V a0 c t

end Region0

end Cert.KernelIdeal.H

end
-- ==== Proof.KI.Run1.lean ====
/-
  The normalisation kernel's body, run on any whole staging memrefs: it loads the table word, the row tile, the scale
  and the shift rows, and stores the masked affine image of the tile — the body's own payload term `k1_pay1` — over the
  whole output block; the three input blocks and the table are left as they were.
-/
import proofs.«411793_j30253749633578_3_alg».proof.Proof.KI.Base
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem run1 (c : Dev nD) (i : grid1.Coords) (arg3 : Memref sig .tc .vmem S1x256 .f32) (harg3 : arg3.IsWhole)
    (arg4 : Memref sig .tc .vmem S1x256 .f32) (harg4 : arg4.IsWhole) (arg5 : Memref sig .tc .vmem S1x4096x256 .f32) (harg5 : arg5.IsWhole)
    (arg6 : Memref sig .tc .vmem S1x4096x256 .f32) (harg6 : arg6.IsWhole)
    (xs xh : Vec F S1x256 .f32) (x2 : Vec F S1x4096x256 .f32) (xt : TbBuf (F := F) c) (E : Set ℕ) (K : PUnit → sProp 𝕄) :
    iprop(owns (c : Thread nD τ) arg3 fullShare xs ∗ owns (c : Thread nD τ) arg4 fullShare xh ∗ owns (c : Thread nD τ) arg5 fullShare x2
        ∗ (∃ d, owns (c : Thread nD τ) arg6 fullShare d) ∗ tbPt c xt
        ∗ (iprop(owns (c : Thread nD τ) arg3 fullShare xs ∗ owns (c : Thread nD τ) arg4 fullShare xh ∗ owns (c : Thread nD τ) arg5 fullShare x2
            ∗ owns (c : Thread nD τ) arg6 fullShare (k1_pay1 i (word1 c i xt) x2 xs xh)
            ∗ tbPt c xt) -∗ K ⟨⟩))
      ⊢ wp frame (wpE (defs₀ (F := F)) Variants.none c none) E (cc1__norm_kernel i tbM htbM arg3 harg3 arg4 harg4 arg5 harg5 arg6 harg6) K := by
  simp only [cc1__norm_kernel_eq_skeleton]; unfold cc1__norm_kernel_skel
  unfold owns
  iintro ⟨⟨%f3, %hf3, H3⟩, ⟨%f4, %hf4, H4⟩, ⟨%f5, %hf5, H5⟩, ⟨%d6, %f6, -, H6⟩, HT, Hk⟩
  -- a whole memref's contents are determined by what is read through it
  obtain rfl := harg3.eq_unread hf3
  obtain rfl := harg4.eq_unread hf4
  obtain rfl := harg5.eq_unread hf5
  -- the body: the table word, the four whole-block loads, one store over the whole output block
  sl_exec
  sl_step
  have hz3 : (![0, 0, 0] : Fin 3 → Nat) = fun _ => 0 := by funext a; fin_cases a <;> rfl
  have hz2 : (![0, 0] : Fin 2 → Nat) = fun _ => 0 := by funext a; fin_cases a <;> rfl
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; iexact H6
    ipureintro
    -- one store through the whole-shape rectangle covers every index, so the buffer reads as that store's payload;
    -- each load through a whole-shape rectangle read its buffer's contents
    refine Eq.trans (View.read_writes_eq_canon _ _ _ ?cov) ?_
    case cov => exact fun y => ⟨_, List.mem_singleton_self _, View.mem_set_unit_zero (S := S1x4096x256) hz3 inb_S1x4096x256_S1x4096x256_0_0_0 y⟩
    sl_unfold_words
    rw [View.canon_unit_zero (S := S1x4096x256) hz3]
    simp only [View.readAt_eq_ld, harg3.read_unread, harg4.read_unread, harg5.read_unread,
      View.ld_unit_zero (S := S1x4096x256) hz3, View.ld_unit_zero (S := S1x256) hz2]
    rfl
  iexact HT

end Cert.KernelIdeal.H

end
-- ==== Proof.KI.Region1.lean ====
/-
  The normalisation pass as a pipeline: its proof data and body obligation, at any contents `V` of the core's buffers
  when the pass is entered and any admissible contents `a1` of the table of counts.  Every input window (the scale
  row, the shift row, the row tile of x the table-indexed map selects) holds its block at every point; the output
  window holds, after the body at point t, the body's masked affine image of the input blocks there.
-/
import proofs.«411793_j30253749633578_3_alg».proof.Proof.KI.Sched
import proofs.«411793_j30253749633578_3_alg».proof.Proof.KI.Run1

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b)) (a1 : (pcfg1 (F := F)).Adm)

/-- The table's contents as the body reads them. -/
abbrev tbl1 (c : Dev nD) : TbBuf (F := F) c := a1.1 0

/-- Window `w`'s block at point `t`, read off its array as the pass finds it. -/
def iblk1 (c : Dev nD) (w : Fin (cfg1 a1).W) (t : Fin (cfg1 a1).N) : (((cfg1 a1).win w).xblock ((cfg1 a1).grid.coords t)).Idx → Elt F ((cfg1 a1).win w).elt :=
  (((cfg1 a1).win w).blk t).view.read (Elt F) (V c (Pipeline.arrRef spec1 w))

theorem before1_0_of {c : Dev nD} (dat : Dat τ (Elt F) Unit ℕ (UR sig nD τ) ℕ (cfg1 a1) c) (hA : dat.A 0 = V c (Pipeline.arrRef spec1 0))
    (hafter : ∀ t, dat.after 0 t = iblk1 V a1 c 0 t) (t : Fin (cfg1 a1).N) (d) : dat.before 0 t d = iblk1 V a1 c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a1) c) (hA : dat.A 1 = V c (Pipeline.arrRef spec1 1))
    (hafter : ∀ t, dat.after 1 t = iblk1 V a1 c 1 t) (t : Fin (cfg1 a1).N) (d) : dat.before 1 t d = iblk1 V a1 c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a1) c) (hA : dat.A 2 = V c (Pipeline.arrRef spec1 2))
    (hafter : ∀ t, dat.after 2 t = iblk1 V a1 c 2 t) (t : Fin (cfg1 a1).N) (d) : dat.before 2 t d = iblk1 V a1 c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the output's staging buffer holds after the body at point `t`. -/
def out1 (c : Dev nD) (t : Fin (cfg1 a1).N) : Vec F S1x4096x256 .f32 :=
  k1_pay1 (grid1.coords t) (word1 c (grid1.coords t) (tbl1 a1 c)) (iblk1 V a1 c 2 t) (iblk1 V a1 c 0 t) (iblk1 V a1 c 1 t)

/-- The table, whole, as the pass's invariant carries it. -/
abbrev PhiT1 (c : Dev nD) : sProp 𝕄 := Pipeline.prefHeld (Ix := Unit) (Name := ℕ) (U := UR sig nD τ) (Lvl := ℕ) pre1 c (fun _ => fullShare) a1.1

theorem PhiT1_eq (c : Dev nD) : (PhiT1 a1 c : sProp 𝕄) = tbPt c (tbl1 a1 c) := by
  unfold PhiT1 Pipeline.prefHeld
  rw [show (Finset.univ : Finset (Fin 1)) = {(0 : Fin 1)} from by decide, bigSep_singleton]
  rfl

/-- The proof data of the normalisation pass on core `c`. -/
def dat1 (c : Dev nD) : Dat τ (Elt F) Unit ℕ (UR sig nD τ) ℕ (cfg1 a1) c where
  A w := V c (Pipeline.arrRef spec1 w)
  after w t := match w with
    | ⟨0, _⟩ => iblk1 V a1 c 0 t
    | ⟨1, _⟩ => iblk1 V a1 c 1 t
    | ⟨2, _⟩ => iblk1 V a1 c 2 t
    | ⟨3, _⟩ => out1 V a1 c t
  Φ _ := iprop(Pipeline.ΦA spec1 c ∗ PhiT1 a1 c)
  q _ := fullShare
  owed _ := 0

theorem A_eq1 (c : Dev nD) (w : Fin (cfg1 a1).W) : (dat1 V a1 c).A w = V c (Pipeline.arrRef spec1 w) := by
  dsimp only [dat1]

theorem after1_0 (c : Dev nD) (t : Fin (cfg1 a1).N) : (dat1 V a1 c).after 0 t = iblk1 V a1 c 0 t := by dsimp only [dat1]; try rfl
theorem after1_1 (c : Dev nD) (t : Fin (cfg1 a1).N) : (dat1 V a1 c).after 1 t = iblk1 V a1 c 1 t := by dsimp only [dat1]; try rfl
theorem after1_2 (c : Dev nD) (t : Fin (cfg1 a1).N) : (dat1 V a1 c).after 2 t = iblk1 V a1 c 2 t := by dsimp only [dat1]; try rfl
theorem after1_3 (c : Dev nD) (t : Fin (cfg1 a1).N) : (dat1 V a1 c).after 3 t = out1 V a1 c t := by dsimp only [dat1]; try rfl

theorem before1_0 (c : Dev nD) (t : Fin (cfg1 a1).N) (d) : (dat1 V a1 c).before 0 t d = iblk1 V a1 c 0 t :=
  before1_0_of V a1 (dat1 V a1 c) (A_eq1 V a1 c 0) (after1_0 V a1 c) t d
theorem before1_1 (c : Dev nD) (t : Fin (cfg1 a1).N) (d) : (dat1 V a1 c).before 1 t d = iblk1 V a1 c 1 t :=
  before1_1_of V a1 (dat1 V a1 c) (A_eq1 V a1 c 1) (after1_1 V a1 c) t d
theorem before1_2 (c : Dev nD) (t : Fin (cfg1 a1).N) (d) : (dat1 V a1 c).before 2 t d = iblk1 V a1 c 2 t :=
  before1_2_of V a1 (dat1 V a1 c) (A_eq1 V a1 c 2) (after1_2 V a1 c) t d

def bodyPre1 (c : Dev nD) (t : Fin (cfg1 a1).N) : sProp 𝕄 :=
  iprop((dat1 V a1 c).Φ t.castSucc ∗ (dat1 V a1 c).owesAt () t.castSucc
    ∗ (∃ d, owns (c : Thread nD τ) (ms1_0 a1 t) fullShare ((dat1 V a1 c).before 0 t d))
    ∗ (∃ d, owns (c : Thread nD τ) (ms1_1 a1 t) fullShare ((dat1 V a1 c).before 1 t d))
    ∗ (∃ d, owns (c : Thread nD τ) (ms1_2 a1 t) fullShare ((dat1 V a1 c).before 2 t d))
    ∗ (∃ d, owns (c : Thread nD τ) (ms1_3 a1 t) fullShare ((dat1 V a1 c).before 3 t d)))

def bodyPost1 (c : Dev nD) (t : Fin (cfg1 a1).N) : sProp 𝕄 :=
  iprop((dat1 V a1 c).Φ t.succ ∗ (dat1 V a1 c).owesAt () t.succ
    ∗ owns (c : Thread nD τ) (ms1_0 a1 t) fullShare ((dat1 V a1 c).after 0 t)
    ∗ owns (c : Thread nD τ) (ms1_1 a1 t) fullShare ((dat1 V a1 c).after 1 t)
    ∗ owns (c : Thread nD τ) (ms1_2 a1 t) fullShare ((dat1 V a1 c).after 2 t)
    ∗ owns (c : Thread nD τ) (ms1_3 a1 t) fullShare ((dat1 V a1 c).after 3 t))

set_option maxHeartbeats 800000 in
theorem sound_body1 (c : Dev nD) (t : Fin (cfg1 a1).N) :
    bodyPre1 V a1 c t ⊢ wp frame (wpE (defs₀ (F := F)) Variants.none c none) Set.univ (bodyAt1 a1 t) (fun _ => bodyPost1 V a1 c t) := by
  unfold bodyPre1 bodyPost1 bodyAt1
  simp only [before1_0, before1_1, before1_2]
  rw [show (dat1 V a1 c).Φ t.succ = (dat1 V a1 c).Φ t.castSucc from rfl,
    show (dat1 V a1 c).owesAt () t.succ = (dat1 V a1 c).owesAt () t.castSucc from rfl,
    after1_0, after1_1, after1_2, after1_3]
  rw [show (dat1 V a1 c).Φ t.castSucc = iprop(Pipeline.ΦA spec1 c ∗ PhiT1 a1 c) from rfl, PhiT1_eq]
  unfold out1
  iintro ⟨⟨HΦ, HT⟩, Ho, ⟨%d0, H0⟩, ⟨%d1, H1⟩, ⟨%d2, H2⟩, ⟨%d3, H3⟩⟩
  iapply (run1 c (grid1.coords t) _ _ _ _ _ _ _ _ (iblk1 V a1 c 0 t) (iblk1 V a1 c 1 t) (iblk1 V a1 c 2 t) (tbl1 a1 c) Set.univ _)
  isplitl [H0]; · iexact H0
  isplitl [H1]; · iexact H1
  isplitl [H2]; · iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

theorem body_obligation1 (c : Dev nD) : BodyObligation (dat1 (F := F) V a1 c) (defs₀ (F := F)) Variants.none () Set.univ := fun t => by
  rw [bigSep_W1, bigSep_W1]
  exact sound_body1 V a1 c t

end Region1

end Cert.KernelIdeal.H

end
-- ==== Proof.KI.Launch.lean ====
/-
  The two-call program run from the launch to the return: the statistics pass, the host stretch that turns its sums
  into the scale and shift rows, the normalisation pass.  The buffer contents at each boundary are folded through the
  program: a pass leaves its windows' arrays at what its pipeline computes (inputs as entered, each output's
  write-backs folded) and every other buffer as entered; the host stretch applies its operations.  The table of counts
  is read off the launch memory; no pass and no host operation writes it, nor any argument.  At the end every
  unscoped buffer of the core holds the last boundary's contents: in particular the result holds what the
  normalisation pass's write-backs leave, and each argument what it held at launch.
-/
import proofs.«411793_j30253749633578_3_alg».proof.Proof.KI.Region0
import proofs.«411793_j30253749633578_3_alg».proof.Proof.KI.Region1
import proofs.«411793_j30253749633578_3_alg».proof.Proof.Gen.KernelIdeal.Regions

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Launch

variable (m : (ℓ : Loc nD τ sig) → Buf (Elt F) ℓ) (ρ : Dev nD → PrngReg)

/-! ## The table of counts, read off the launch memory -/

/-- The table's contents at launch (the program runs on one device). -/
def tbl : pre0.Contents (Elt F) := fun j => m (((0 : Dev nD) : Thread nD τ).loc (pre0.ref j))

/-- The admissible contents both pipelines run at: the launch contents (the side condition holds of any). -/
abbrev adm : (p : Fin 2) → (pcfgs (F := F) p).Adm
  | ⟨0, _⟩ => ⟨tbl m, ok0_all _⟩
  | ⟨1, _⟩ => ⟨tbl m, ok1_all _⟩

/-! ## The buffer contents at each boundary -/

/-- Core `c`'s buffers at launch (the statistics pass's entry). -/
abbrev W0 : Dev nD → Valuation τ sig (Elt F) := fun c b => m ((c : Dev nD), b)
abbrev V0' : (c : Dev nD) → (b : Ref sig .tc) → Buf (Elt F) ((c : Thread nD τ).loc b) := fun c b => W0 m c b
/-- At the statistics pass's exit. -/
def W1 (c : Dev nD) : Valuation τ sig (Elt F) :=
  Pipeline.withArrays spec0 c (W0 m c) fun w => (dat0 (V0' m) (adm m 0) c).arrAt w (cfg0 (adm m 0)).N
theorem W1_arr (c : Dev nD) (w : Fin (cfg0 (adm m 0)).W) :
    W1 m c (Proc.devRef .tc (Pipeline.arrRef spec0 w)) = (dat0 (V0' m) (adm m 0) c).arrAt w (cfg0 (adm m 0)).N := by
  unfold W1; exact Pipeline.withArrays_arr spec0 (launch0 (F := F)).win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1' : (c : Dev nD) → (b : Ref sig .tc) → Buf (Elt F) ((c : Thread nD τ).loc b) := fun c b => W1 m c b
theorem hF0 (c : Dev nD) (w : Fin (cfg0 (adm m 0)).W) : (dat0 (V0' m) (adm m 0) c).arrAt w (cfg0 (adm m 0)).N = V1' m c (Pipeline.arrRef spec0 w) :=
  (W1_arr m c w).symm
theorem hrest0 (c : Dev nD) : ∀ b, b ∉ Finset.univ.image (Pipeline.arrRef spec0) → V1' m c b = V0' m c b :=
  fun b hb => W1_of_ne m c b fun w e => hb (Finset.mem_image.mpr ⟨w, Finset.mem_univ _, e⟩)

/-- After the host stretch (the normalisation pass's entry). -/
abbrev W2 : Dev nD → Valuation τ sig (Elt F) := fun c => StableHlo.after hostOps1 (W1 m c)
abbrev V2' : (c : Dev nD) → (b : Ref sig .tc) → Buf (Elt F) ((c : Thread nD τ).loc b) := fun c b => W2 m c b
/-- At the normalisation pass's exit. -/
def W3 (c : Dev nD) : Valuation τ sig (Elt F) :=
  Pipeline.withArrays spec1 c (W2 m c) fun w => (dat1 (V2' m) (adm m 1) c).arrAt w (cfg1 (adm m 1)).N
theorem W3_arr (c : Dev nD) (w : Fin (cfg1 (adm m 1)).W) :
    W3 m c (Proc.devRef .tc (Pipeline.arrRef spec1 w)) = (dat1 (V2' m) (adm m 1) c).arrAt w (cfg1 (adm m 1)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3' : (c : Dev nD) → (b : Ref sig .tc) → Buf (Elt F) ((c : Thread nD τ).loc b) := fun c b => W3 m c b
theorem hF1 (c : Dev nD) (w : Fin (cfg1 (adm m 1)).W) : (dat1 (V2' m) (adm m 1) c).arrAt w (cfg1 (adm m 1)).N = V3' m c (Pipeline.arrRef spec1 w) :=
  (W3_arr m c w).symm
theorem hrest1 (c : Dev nD) : ∀ b, b ∉ Finset.univ.image (Pipeline.arrRef spec1) → V3' m c b = V2' m c b :=
  fun b hb => W3_of_ne m c b fun w e => hb (Finset.mem_image.mpr ⟨w, Finset.mem_univ _, e⟩)

/-- The host stretch writes only its own results. -/
theorem W2_of (c : Dev nD) (r : Ref sig .tc) (h : r ∉ hostOps1_W) : W2 m c (Proc.devRef .tc r) = W1 m c (Proc.devRef .tc r) :=
  StableHlo.after_of_writes_sub hostOps1 _ hostOps1_writes h

/-! ### The table and the arguments are never written -/

theorem W1_arg1 (c : Dev nD) : W1 m c (Proc.devRef .tc main_arg1) = m ((c : Thread nD τ).loc main_arg1) :=
  (W1_of_ne m c main_arg1 (by decide)).trans rfl
theorem W2_arg1 (c : Dev nD) : W2 m c (Proc.devRef .tc main_arg1) = m ((c : Thread nD τ).loc main_arg1) :=
  (W2_of m c main_arg1 (by decide)).trans (W1_arg1 m c)
theorem W3_arg1 (c : Dev nD) : W3 m c (Proc.devRef .tc main_arg1) = m ((c : Thread nD τ).loc main_arg1) :=
  (W3_of_ne m c main_arg1 (by decide)).trans (W2_arg1 m c)
theorem W1_arg0 (c : Dev nD) : W1 m c (Proc.devRef .tc main_arg0) = m ((c : Thread nD τ).loc main_arg0) :=
  (W1_arr m c 0).trans (((dat0 (V0' m) (adm m 0) c).arrAt_in 0 rfl _).trans ((A_eq0 (V0' m) (adm m 0) c 0).trans rfl))
theorem W2_arg0 (c : Dev nD) : W2 m c (Proc.devRef .tc main_arg0) = m ((c : Thread nD τ).loc main_arg0) :=
  (W2_of m c main_arg0 (by decide)).trans (W1_arg0 m c)
theorem W3_arg0 (c : Dev nD) : W3 m c (Proc.devRef .tc main_arg0) = m ((c : Thread nD τ).loc main_arg0) :=
  (W3_arr m c 2).trans (((dat1 (V2' m) (adm m 1) c).arrAt_in 2 rfl _).trans ((A_eq1 (V2' m) (adm m 1) c 2).trans (W2_arg0 m c)))
theorem W3_arg2 (c : Dev nD) : W3 m c (Proc.devRef .tc main_arg2) = m ((c : Thread nD τ).loc main_arg2) :=
  (W3_of_ne m c main_arg2 (by decide)).trans ((W2_of m c main_arg2 (by decide)).trans ((W1_of_ne m c main_arg2 (by decide)).trans rfl))
theorem W3_arg3 (c : Dev nD) : W3 m c (Proc.devRef .tc main_arg3) = m ((c : Thread nD τ).loc main_arg3) :=
  (W3_of_ne m c main_arg3 (by decide)).trans ((W2_of m c main_arg3 (by decide)).trans ((W1_of_ne m c main_arg3 (by decide)).trans rfl))
/-- The result ends at what the normalisation pass's write-backs leave. -/
theorem W3_v22 (c : Dev nD) : W3 m c (Proc.devRef .tc main_v22) = (dat1 (V2' m) (adm m 1) c).arrAt 3 (cfg1 (adm m 1)).N :=
  W3_arr m c 3

/-- On every device the table holds the launch contents when either pass is entered. -/
theorem V0_pre (c : Dev nD) (j : Fin 1) : V0' m c (pre0.ref j) = tbl m j := by
  obtain rfl : c = 0 := Subsingleton.elim _ _; rfl
theorem V2_pre (c : Dev nD) (j : Fin 1) : V2' m c (pre1.ref j) = tbl m j := by
  obtain rfl : c = 0 := Subsingleton.elim _ _
  match j with
  | ⟨0, _⟩ => exact W2_arg1 m 0

/-! ## The proof data family and the thread state -/

def pdats : (p : Fin 2) → (c : Dev nD) → Dat τ (Elt F) Unit ℕ (UR sig nD τ) ℕ (Pipeline.pin (pcfgs (F := F)) (adm m) p) c
  | ⟨0, _⟩ => fun c => dat0 (V0' m) (adm m 0) c
  | ⟨1, _⟩ => fun c => dat1 (V2' m) (adm m 1) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The passes as segments -/

set_option backward.isDefEq.respectTransparency.types false in
/-- THE STATISTICS PASS over the thread state: entered from every unscoped buffer at the launch contents, left at `W1`.
    Its arrays are split out of the unscoped buffers and put back at the exit contents; the table goes into the
    pass's invariant whole and comes back; the generator register likewise; nothing owed. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V0' m) (adm m 0) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop((∃ r, prngReg c r) ∗ PhiT0 (adm m 0) c)
  Z c := Pipeline.unscopedRestP (Ix := Unit) (Name := ℕ) (U := UR sig nD τ) (Lvl := ℕ) pre0 spec0 c (V0' m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (V0' m c) fun _ => rfl
    rw [Pipeline.unscopedBufs_held] at hsplit
    have hT := Pipeline.unscopedRest_split (Ix := Unit) (Name := ℕ) (U := UR sig nD τ) (Lvl := ℕ) (Val := Elt F) (launch0 (F := F)).pre c (V0' m c)
    rw [show (fun k => V0' m c ((pcfgs (F := F) 0).pre.ref k)) = tbl m from funext (V0_pre m c)] at hT
    iintro ⟨⟨Hub, Hp, HO⟩, -, -⟩
    ihave H := hsplit $$ Hub
    icases H with ⟨Ha, Hrest⟩
    ihave Hrest' := (Entails.of_eq hT) $$ Hrest
    icases Hrest' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ PhiT0 (adm m 0) c) from rfl]; unfold Pipeline.ΦA
    iintro ⟨Hp, Ht, Hr⟩
    isplitr [Ht]
    · isplitl [Hr]; · iexact Hr
      iexact Hp
    iexact Ht
  hout c := by
    rw [Pipeline.ownSems0_none, show (pdats m 0 c).Φ (Fin.last _) = iprop(Pipeline.ΦA spec0 c ∗ PhiT0 (adm m 0) c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (V0' m c) (V1' m c) ((pdats m 0 c).arrAt · (cfg0 (adm m 0)).N) (hF0 m c) (hrest0 m c)
    rw [Pipeline.unscopedBufs_held] at hjoin
    have hT := Pipeline.unscopedRest_split (Ix := Unit) (Name := ℕ) (U := UR sig nD τ) (Lvl := ℕ) (Val := Elt F) (launch0 (F := F)).pre c (V0' m c)
    rw [show (fun k => V0' m c ((pcfgs (F := F) 0).pre.ref k)) = tbl m from funext (V0_pre m c)] at hT
    iintro ⟨Ha, HO, ⟨Hp, Ht⟩, Hrest⟩
    ihave Hrest' := (Entails.of_eq hT.symm) $$ [Ht Hrest]
    · isplitl [Ht]; · iexact Ht
      iexact Hrest
    imodintro
    isplitl [Ha Hrest']
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- THE NORMALISATION PASS over the thread state: entered from every unscoped buffer at `W2`, left at `W3`. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V2' m) (adm m 1) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop((∃ r, prngReg c r) ∗ PhiT1 (adm m 1) c)
  Z c := Pipeline.unscopedRestP (Ix := Unit) (Name := ℕ) (U := UR sig nD τ) (Lvl := ℕ) pre1 spec1 c (V2' m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (V2' m c) fun _ => rfl
    rw [Pipeline.unscopedBufs_held] at hsplit
    have hT := Pipeline.unscopedRest_split (Ix := Unit) (Name := ℕ) (U := UR sig nD τ) (Lvl := ℕ) (Val := Elt F) (launch1 (F := F)).pre c (V2' m c)
    rw [show (fun k => V2' m c ((pcfgs (F := F) 1).pre.ref k)) = tbl m from funext (V2_pre m c)] at hT
    iintro ⟨⟨Hub, Hp, HO⟩, -, -⟩
    ihave H := hsplit $$ Hub
    icases H with ⟨Ha, Hrest⟩
    ihave Hrest' := (Entails.of_eq hT) $$ Hrest
    icases Hrest' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ PhiT1 (adm m 1) c) from rfl]; unfold Pipeline.ΦA
    iintro ⟨Hp, Ht, Hr⟩
    isplitr [Ht]
    · isplitl [Hr]; · iexact Hr
      iexact Hp
    iexact Ht
  hout c := by
    rw [Pipeline.ownSems0_none, show (pdats m 1 c).Φ (Fin.last _) = iprop(Pipeline.ΦA spec1 c ∗ PhiT1 (adm m 1) c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (V2' m c) (V3' m c) ((pdats m 1 c).arrAt · (cfg1 (adm m 1)).N) (hF1 m c) (hrest1 m c)
    rw [Pipeline.unscopedBufs_held] at hjoin
    have hT := Pipeline.unscopedRest_split (Ix := Unit) (Name := ℕ) (U := UR sig nD τ) (Lvl := ℕ) (Val := Elt F) (launch1 (F := F)).pre c (V2' m c)
    rw [show (fun k => V2' m c ((pcfgs (F := F) 1).pre.ref k)) = tbl m from funext (V2_pre m c)] at hT
    iintro ⟨Ha, HO, ⟨Hp, Ht⟩, Hrest⟩
    ihave Hrest' := (Entails.of_eq hT.symm) $$ [Ht Hrest]
    · isplitl [Ht]; · iexact Ht
      iexact Hrest
    imodintro
    isplitl [Ha Hrest' Hp]
    · isplitl [Ha Hrest']
      · iapply hjoin; isplitl [Ha] <;> iassumption
      iexact Hp
    unfold Pipeline.Dat.owesAt Pipeline.owesWithin
    icases HO with ⟨%W, -, HO⟩; iexists W; iexact HO

/-! ## @main as segments, and the launch -/

abbrev segs : List (Pipeline.Seg (pcfgs (F := F)) (adm m) (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c _ (mem_uc main_arg0 (by decide))).trans (W3_arg0 m c),
    (h c _ (mem_uc main_arg1 (by decide))).trans (W3_arg1 m c),
    (h c _ (mem_uc main_arg2 (by decide))).trans (W3_arg2 m c),
    (h c _ (mem_uc main_arg3 (by decide))).trans (W3_arg3 m c)⟩) (run_all m ρ)

/-- The run with the result named: it ends at what the normalisation pass's write-backs leave. -/
theorem run_value : θ_run defs (onTc (τ := τ) (main (F := F))) ⟨m, fun _ => 0, ρ⟩ (fun r => ∀ c : Dev nD,
      r.2.mem ((c.tc : Thread nD τ).loc main_v22) = (dat1 (V2' m) (adm m 1) c).arrAt 3 (cfg1 (adm m 1)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c _ (mem_uc main_v22 (by decide))).trans (W3_v22 m c),
    (h c _ (mem_uc main_arg0 (by decide))).trans (W3_arg0 m c),
    (h c _ (mem_uc main_arg1 (by decide))).trans (W3_arg1 m c),
    (h c _ (mem_uc main_arg2 (by decide))).trans (W3_arg2 m c),
    (h c _ (mem_uc main_arg3 (by decide))).trans (W3_arg3 m c)⟩) (run_all m ρ)

end Launch

end Cert.KernelIdeal.H

end
-- ==== Proof.Spec.lean ====
/-
  The mathematics of the certificate, with no program in sight.

  Inputs: an array x[b, n, f] (16 x 8192 x 256), a valid-row count nv[b] per batch entry, and per-feature gamma, beta.
  Row n of entry b is VALID when n < nv b (signed).  Write msk b n for 1 on valid rows and 0 elsewhere, and cn for the
  count the statistics are divided by.  Both programs compute, per feature f, a mean and a variance over the valid rows
  of all entries, normalise every row with them, and zero the rows that are not valid:

    kernel     : mean = S1 / cn,  var = max (S2 / cn - mean * mean) 0,
                 out = (x * scale + shift) * msk   with scale = rsqrt (var + eps) * gamma, shift = beta - mean * scale
    reference  : mean = S1 / cn,  var = (sum of ((x - mean) * (x - mean)) * msk) / cn,
                 out = ((x - mean) * rsqrt (var + eps) * gamma + beta) * msk

  where S1 = sum of x * msk and S2 = sum of (x * msk) * x over b and n.  They agree when every x, gamma, beta is a real
  number and cn is the number of valid rows (or 1 when there is none): then sum msk = cn, the two variances are
  the same real number (which is nonnegative, so the kernel's clamp at 0 does nothing), and
  x * s + (beta - mean * s) = (x - mean) * s + beta.
-/
import Idealize.ShloMosaic.PureOps.Ideal
import Idealize.ShloMosaic.Lib.ValueIdx

noncomputable section

open scoped BigOperators

namespace Cert.Spec

open Idealize.ShloMosaic Idealize.ShloMosaic.ValueIdx

abbrev X3 : Shape := ⟨3, ![16, 8192, 256]⟩
abbrev N1 : Shape := ⟨1, ![16]⟩
abbrev F1 : Shape := ⟨1, ![256]⟩

/-- 1 on the valid rows of entry `b` (row `n` is valid when `n < nv b`, read signed), 0 elsewhere. -/
def msk (nv : N1.Idx → BitVec 32) (b : Fin 16) (n : Fin 8192) : EReal :=
  if (n.val : ℤ) < (nv (ix1 b)).toInt then 1 else 0

/-- How many rows are valid, over all entries. -/
def nvalid (nv : N1.Idx → BitVec 32) : ℕ :=
  ∑ b : Fin 16, ∑ n : Fin 8192, if (n.val : ℤ) < (nv (ix1 b)).toInt then 1 else 0

/-- The f32 literal 1e-3 both programs add under the reciprocal square root. -/
def eps : EReal := Ideal.ofBits .f32 0x3A83126F#32

/-- The masked sum of x over entries and rows, per feature. -/
def s1 (x : X3.Idx → EReal) (nv : N1.Idx → BitVec 32) (f : Fin 256) : EReal :=
  ∑ b : Fin 16, ∑ n : Fin 8192, x (ix3 b n f) * msk nv b n

/-- The masked sum of squares, as the kernel forms it: (x * msk) * x. -/
def s2 (x : X3.Idx → EReal) (nv : N1.Idx → BitVec 32) (f : Fin 256) : EReal :=
  ∑ b : Fin 16, ∑ n : Fin 8192, (x (ix3 b n f) * msk nv b n) * x (ix3 b n f)

/-- The mean both programs form: the masked sum over the count. -/
def mean (x : X3.Idx → EReal) (nv : N1.Idx → BitVec 32) (cn : EReal) (f : Fin 256) : EReal :=
  Ideal.div (s1 x nv f) cn

/-! ## The kernel's result -/

def kvar (x : X3.Idx → EReal) (nv : N1.Idx → BitVec 32) (cn : EReal) (f : Fin 256) : EReal :=
  max (Ideal.div (s2 x nv f) cn - mean x nv cn f * mean x nv cn f) 0

def kscale (x : X3.Idx → EReal) (nv : N1.Idx → BitVec 32) (g : F1.Idx → EReal) (cn : EReal) (f : Fin 256) : EReal :=
  Ideal.rsqrt (kvar x nv cn f + eps) * g (ix1 f)

def kshift (x : X3.Idx → EReal) (nv : N1.Idx → BitVec 32) (g be : F1.Idx → EReal) (cn : EReal) (f : Fin 256) : EReal :=
  be (ix1 f) - mean x nv cn f * kscale x nv g cn f

/-- What the kernel leaves in its result, element by element. -/
def GK (x : X3.Idx → EReal) (nv : N1.Idx → BitVec 32) (g be : F1.Idx → EReal) (cn : EReal) : X3.Idx → EReal :=
  fun i => (x i * kscale x nv g cn (i 2) + kshift x nv g be cn (i 2)) * msk nv (i 0) (i 1)

/-! ## The reference's result -/

def rvar (x : X3.Idx → EReal) (nv : N1.Idx → BitVec 32) (cn : EReal) (f : Fin 256) : EReal :=
  Ideal.div (∑ b : Fin 16, ∑ n : Fin 8192,
    ((x (ix3 b n f) - mean x nv cn f) * (x (ix3 b n f) - mean x nv cn f)) * msk nv b n) cn

/-- What the reference computes, element by element. -/
def GR (x : X3.Idx → EReal) (nv : N1.Idx → BitVec 32) (g be : F1.Idx → EReal) (cn : EReal) : X3.Idx → EReal :=
  fun i => (((x i - mean x nv cn (i 2)) * Ideal.rsqrt (rvar x nv cn (i 2) + eps)) * g (ix1 (i 2)) + be (ix1 (i 2)))
    * msk nv (i 0) (i 1)

/-! ## The real numbers underneath -/

/-- A finite sum of real numbers, read in the extended reals, is the sum of the readings. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mask as a real number. -/
def mskR (nv : N1.Idx → BitVec 32) (b : Fin 16) (n : Fin 8192) : ℝ :=
  if (n.val : ℤ) < (nv (ix1 b)).toInt then 1 else 0

theorem msk_coe (nv : N1.Idx → BitVec 32) (b : Fin 16) (n : Fin 8192) :
    msk nv b n = ((mskR nv b n : ℝ) : EReal) := by
  unfold msk mskR
  split_ifs <;> simp

theorem mskR_nonneg (nv : N1.Idx → BitVec 32) (b : Fin 16) (n : Fin 8192) : 0 ≤ mskR nv b n := by
  unfold mskR
  split_ifs <;> norm_num

/-- The mask sums to the number of valid rows. -/
theorem sum_mskR (nv : N1.Idx → BitVec 32) :
    ∑ b : Fin 16, ∑ n : Fin 8192, mskR nv b n = (nvalid nv : ℝ) := by
  unfold mskR nvalid
  push_cast
  rfl

/-- With no valid row the mask is 0 everywhere. -/
theorem mskR_eq_zero (nv : N1.Idx → BitVec 32) (h : nvalid nv = 0) (b : Fin 16) (n : Fin 8192) :
    mskR nv b n = 0 := by
  unfold nvalid at h
  rw [Finset.sum_eq_zero_iff] at h
  have h1 := h b (Finset.mem_univ b)
  rw [Finset.sum_eq_zero_iff] at h1
  have h2 := h1 n (Finset.mem_univ n)
  unfold mskR
  split_ifs with hc
  · rw [if_pos hc] at h2
    exact absurd h2 one_ne_zero
  · rfl

/-- The added constant is a positive real number. -/
theorem eps_pos : ∃ e : ℝ, 0 < e ∧ eps = (e : EReal) := by
  unfold eps
  simp [Ideal.ofBits, Ideal.ieee, -EReal.coe_mul]

/-- The two variances in the reals: with m = S1 / c, and either m = 0 or the mask summing to c,
    (sum of (X - m)^2 * M) / c = S2 / c - m^2. -/
theorem real_var_eq (X M : Fin 16 → Fin 8192 → ℝ) (c m : ℝ) (hc : c ≠ 0)
    (hm : m = (∑ b, ∑ n, X b n * M b n) * (1 / c))
    (hN : m * (∑ b, ∑ n, M b n - c) = 0) :
    (∑ b, ∑ n, ((X b n - m) * (X b n - m)) * M b n) * (1 / c)
      = (∑ b, ∑ n, (X b n * M b n) * X b n) * (1 / c) - m * m := by
  have e : ∀ b n, ((X b n - m) * (X b n - m)) * M b n
      = (X b n * M b n) * X b n - (2 * m) * (X b n * M b n) + (m * m) * M b n := by
    intro b n; ring
  simp only [e, Finset.sum_add_distrib, Finset.sum_sub_distrib, ← Finset.mul_sum]
  have hS1 : (∑ b, ∑ n, X b n * M b n) = m * c := by
    rw [hm]; field_simp
  rw [hS1]
  field_simp
  linear_combination m * hN

/-! ## They are one function on finite inputs, when the count is the number of valid rows -/

theorem GK_eq_GR (x : X3.Idx → EReal) (nv : N1.Idx → BitVec 32) (g be : F1.Idx → EReal) (cn : EReal)
    (hx : ∀ i, ∃ r : ℝ, x i = (r : EReal)) (hg : ∀ i, ∃ r : ℝ, g i = (r : EReal)) (hb : ∀ i, ∃ r : ℝ, be i = (r : EReal))
    (hcn : cn = ((max (nvalid nv : ℝ) 1 : ℝ) : EReal)) :
    GK x nv g be cn = GR x nv g be cn := by
  choose X hX using hx
  choose G hG using hg
  choose B hB using hb
  obtain ⟨e, he, hE⟩ := eps_pos
  have hc1 : (1 : ℝ) ≤ max (nvalid nv : ℝ) 1 := le_max_right _ _
  subst hcn
  set c : ℝ := max (nvalid nv : ℝ) 1 with hcdef
  have hcpos : 0 < c := lt_of_lt_of_le one_pos hc1
  have hc0 : c ≠ 0 := hcpos.ne'
  -- the real mean and the real variance, per feature
  set m : Fin 256 → ℝ := fun f => (∑ b : Fin 16, ∑ n : Fin 8192, X (ix3 b n f) * mskR nv b n) * (1 / c) with hmdef
  set V : Fin 256 → ℝ := fun f =>
    (∑ b : Fin 16, ∑ n : Fin 8192, ((X (ix3 b n f) - m f) * (X (ix3 b n f) - m f)) * mskR nv b n) * (1 / c) with hVdef
  have hVnn : ∀ f, 0 ≤ V f := fun f =>
    mul_nonneg (Finset.sum_nonneg fun b _ => Finset.sum_nonneg fun n _ =>
      mul_nonneg (mul_self_nonneg _) (mskR_nonneg nv b n)) (by positivity)
  -- either there is no valid row and the mean is 0, or the mask sums to the count
  have hN : ∀ f, m f * (∑ b : Fin 16, ∑ n : Fin 8192, mskR nv b n - c) = 0 := by
    intro f
    rcases Nat.eq_zero_or_pos (nvalid nv) with h0 | hpos
    · have : m f = 0 := by
        simp only [hmdef, mskR_eq_zero nv h0, mul_zero, Finset.sum_const_zero, zero_mul]
      rw [this, zero_mul]
    · have h1 : (1 : ℝ) ≤ (nvalid nv : ℝ) := by exact_mod_cast hpos
      rw [sum_mskR, hcdef, max_eq_left h1, sub_self, mul_zero]
  have hvar : ∀ f, V f
      = (∑ b : Fin 16, ∑ n : Fin 8192, (X (ix3 b n f) * mskR nv b n) * X (ix3 b n f)) * (1 / c) - m f * m f :=
    fun f => real_var_eq (fun b n => X (ix3 b n f)) (mskR nv) c (m f) hc0 rfl (hN f)
  -- every quantity of either program is the reading of a real number
  have hmean : ∀ f, mean x nv (c : EReal) f = ((m f : ℝ) : EReal) := by
    intro f
    unfold mean s1
    rw [Ideal.div_coe hc0]
    simp only [hX, msk_coe, ← EReal.coe_mul, coe_sum]
    rfl
  have hkvar : ∀ f, kvar x nv (c : EReal) f = ((V f : ℝ) : EReal) := by
    intro f
    unfold kvar s2
    rw [hmean f, Ideal.div_coe hc0]
    simp only [hX, msk_coe, ← EReal.coe_mul, coe_sum, ← EReal.coe_sub]
    rw [← hvar f]
    exact max_eq_left (EReal.coe_nonneg.mpr (hVnn f))
  have hrvar : ∀ f, rvar x nv (c : EReal) f = ((V f : ℝ) : EReal) := by
    intro f
    unfold rvar
    rw [Ideal.div_coe hc0]
    simp only [hmean, hX, msk_coe, ← EReal.coe_mul, coe_sum, ← EReal.coe_sub]
    rfl
  have hR : ∀ f, Ideal.rsqrt (((V f : ℝ) : EReal) + eps) = (((Real.sqrt (V f + e))⁻¹ : ℝ) : EReal) := by
    intro f
    have hp : 0 < V f + e := add_pos_of_nonneg_of_pos (hVnn f) he
    rw [hE, ← EReal.coe_add, Ideal.rsqrt_coe, if_neg (not_lt.mpr hp.le), if_neg hp.ne']
  -- the two results, element by element, in the reals
  have key : ∀ (i : X3.Idx) (b : Fin 16) (n : Fin 8192) (f : Fin 256),
      (x i * (Ideal.rsqrt (kvar x nv (c : EReal) f + eps) * g (ix1 f))
          + (be (ix1 f) - mean x nv (c : EReal) f * (Ideal.rsqrt (kvar x nv (c : EReal) f + eps) * g (ix1 f))))
        * msk nv b n
      = (((x i - mean x nv (c : EReal) f) * Ideal.rsqrt (rvar x nv (c : EReal) f + eps)) * g (ix1 f) + be (ix1 f))
        * msk nv b n := by
    intro i b n f
    rw [hkvar, hrvar, hR, hmean, hX i, hG, hB, msk_coe]
    simp only [← EReal.coe_mul, ← EReal.coe_add, ← EReal.coe_sub]
    congr 1
    ring
  funext i
  exact key i (i 0) (i 1) (i 2)

end Cert.Spec

end
-- ==== Proof.KI.ValueR0.lean ====
/-
  What the statistics pass leaves in its two results, read as extended reals, when every count is in [0, 8192]:
  entry b, feature f of the first result is the sum over ALL 8192 rows n of x[b, n, f] * msk b n (msk = 1 on the rows
  n < nv b, else 0), and of the second the sum of (x * msk) * x.  Each accumulator is written back once per entry,
  after the second row tile; it then holds 0 plus tile 0's masked column sum plus tile 1's.  The block the second
  tile reads is tile 1 of x, unless the entry's count is at most 4096 — then it is tile 0 again, but every row
  of tile 1 is masked out, and anything times 0 is 0 — so the two tiles' sums add up to the sum over all rows.
-/
import proofs.«411793_j30253749633578_3_alg».proof.Proof.KI.Launch
import proofs.«411793_j30253749633578_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

namespace R0

/-! ## The body's arithmetic, read at an index -/

/-- The input block viewed as 4096 x 256 reads the block's row and feature. -/
theorem pay3_at (x0 : Vec Ideal S1x4096x256 .f32) (r : Fin 4096) (f : Fin 256) :
    k0_pay3 (F := Ideal) x0 (ix2 r f) = x0 (ix3 0 r f) := by
  unfold k0_pay3
  refine shapeCast_apply x0 _ (ix2 r f) (ix3 0 r f) ?_
  rw [Shape.rowMajor_val_three, Shape.rowMajor_val_two]
  show ((0 * 4096 + r.val) * 256 + f.val) = r.val * 256 + f.val
  omega

/-- The mask factor of row `r` of row tile `a1` against the count word `w`, as the body forms it: the row's number
    `r + a1 * 4096` compared (signed) with the count, the one-bit answer widened to 32 bits and converted. -/
def mword (a1 : Nat) (w : BitVec 32) (r : Fin 4096) : EReal :=
  (((IntOp.cmpi .slt (IntOp.addi (BitVec.ofNat 32 r.val) (Scalar.muli (BitVec.ofNat 32 a1) 4096#32)) w).setWidth 32).toInt : ℝ)

/-- The masked block: the block's element times its row's mask factor. -/
theorem pay4_at (i : grid0.Coords) (w : BitVec 32) (x0 : Vec Ideal S1x4096x256 .f32) (r : Fin 4096) (f : Fin 256) :
    k0_pay4 (F := Ideal) i w x0 (ix2 r f) = x0 (ix3 0 r f) * mword (i 1).val w r := by
  unfold k0_pay4
  dsimp only
  refine (mulf_apply _ _ _).trans ?_
  rw [pay3_at]
  refine congrArg (x0 (ix3 0 r f) * ·) ?_
  refine (broadcastTo_apply _ _ (ix2 r f) (ix2 r (0 : Fin 1)) ?_).trans ?_
  · intro a
    match a with
    | ⟨0, _⟩ => rfl
    | ⟨1, _⟩ => rfl
  · unfold mword
    show ((((IntOp.cmpi .slt (IntOp.addi (iota Kind.tc S4096x1 32 [0] iota_S4096x1_d0_w32 (ix2 r 0)) (Scalar.muli (BitVec.ofNat 32 (i 1).val) 4096#32)) w).setWidth 32).toInt : ℝ) : EReal) = _
    rw [iota_single_apply]

/-- The first accumulator's update at feature `f`: what it held plus the masked block's column sum. -/
theorem pay5_at (i : grid0.Coords) (w : BitVec 32) (x0 : Vec Ideal S1x4096x256 .f32) (p : Vec Ideal S1x1x256 .f32) (f : Fin 256) :
    k0_pay5 (F := Ideal) i w x0 p (ix3 0 0 f) = p (ix3 0 0 f) + ∑ r : Fin 4096, x0 (ix3 0 r f) * mword (i 1).val w r := by
  unfold k0_pay5
  dsimp only
  refine (shapeCast_apply _ _ (ix3 0 0 f) (ix2 0 f) ?_).trans ?_
  · rw [Shape.rowMajor_val_three, Shape.rowMajor_val_two]
    show 0 * 256 + f.val = (0 * 1 + 0) * 256 + f.val
    omega
  refine (addf_apply _ _ _).trans ?_
  congr 1
  · refine shapeCast_apply p _ (ix2 0 f) (ix3 0 0 f) ?_
    rw [Shape.rowMajor_val_three, Shape.rowMajor_val_two]
    show (0 * 1 + 0) * 256 + f.val = 0 * 256 + f.val
    omega
  · refine (shapeCast_apply _ _ (ix2 0 f) (ValueIdx.ix1 f) ?_).trans ?_
    · rw [Shape.rowMajor_val_one, Shape.rowMajor_val_two]
      show f.val = 0 * 256 + f.val
      omega
    refine (Ideal.multiReduction_add_single (k0_pay4 (F := Ideal) i w x0) 0x00000000#32 reduces_S4096x256_S256 _ _ (ValueIdx.ix1 f)).trans ?_
    refine Finset.sum_congr rfl fun r _ => ?_
    have e : reduces_S4096x256_S256.lift (ValueIdx.ix1 f) r = ix2 r f := by
      funext a
      match a with
      | ⟨0, _⟩ => rfl
      | ⟨1, _⟩ => rfl
    rw [e]
    exact pay4_at i w x0 r f

/-- The reset value: the zero block. -/
theorem pay1_at (f : Fin 256) : k0_pay1 (F := Ideal) (ix3 0 0 f) = 0 := by
  unfold k0_pay1
  refine (shapeCast_apply _ _ (ix3 0 0 f) (ix2 0 f) ?_).trans ?_
  · rw [Shape.rowMajor_val_three, Shape.rowMajor_val_two]
    show 0 * 256 + f.val = (0 * 1 + 0) * 256 + f.val
    omega
  show Ideal.ofBits .f32 0x00000000#32 = 0
  exact Ideal.ofBits_zero_f32

/-! ## The mask factor is the specification's mask -/

/-- Row `r` of row tile `a1` (0 or 1) is row `a1 * 4096 + r` of the entry: the word does not wrap. -/
theorem rowword_toInt (a1 : Nat) (ha : a1 < 2) (r : Fin 4096) :
    (IntOp.addi (BitVec.ofNat 32 r.val) (Scalar.muli (BitVec.ofNat 32 a1) 4096#32)).toInt = ((a1 * 4096 + r.val : ℕ) : ℤ) := by
  have hr := r.isLt
  unfold IntOp.addi Scalar.muli IntOp.muli
  rw [BitVec.toInt_eq_toNat_cond]
  simp only [BitVec.toNat_add, BitVec.toNat_mul, BitVec.toNat_ofNat]
  split <;> omega

/-- So the factor is 1 when that row's number is below the count (both read signed), else 0. -/
theorem mword_eq (a1 : Nat) (ha : a1 < 2) (w : BitVec 32) (r : Fin 4096) :
    mword a1 w r = if ((a1 * 4096 + r.val : ℕ) : ℤ) < w.toInt then 1 else 0 := by
  unfold mword IntOp.cmpi
  dsimp only
  rw [BitVec.slt, rowword_toInt a1 ha r]
  by_cases h : ((a1 * 4096 + r.val : ℕ) : ℤ) < w.toInt
  · rw [if_pos h, decide_eq_true h]; simp
  · rw [if_neg h, decide_eq_false h]; simp

/-- Row `r` of the first row tile, and of the second, as a row of the entry. -/
abbrev rowLo (r : Fin 4096) : Fin 8192 := ⟨r.val, by have := r.isLt; omega⟩
abbrev rowHi (r : Fin 4096) : Fin 8192 := ⟨4096 + r.val, by have := r.isLt; omega⟩

/-- The body's mask factor is the specification's mask of the row the tile's row `r` is. -/
theorem mword_msk (nv : S16.Idx → BitVec 32) (b : Fin 16) (a1 : Nat) (ha : a1 < 2) (r : Fin 4096) (n : Fin 8192)
    (hn : n.val = a1 * 4096 + r.val) : mword a1 (nv (ValueIdx.ix1 b)) r = Cert.Spec.msk nv b n := by
  rw [mword_eq a1 ha]
  unfold Cert.Spec.msk
  rw [hn]

/-- The grid's coordinates at point `t`: entry `t / 2`, row tile `t % 2`. -/
theorem coords0 : ∀ t : Fin grid0.N, (grid0.coords t 0).val = t.val / 2 ∧ (grid0.coords t 1).val = t.val % 2 :=
  (by decide +kernel : ∀ t : Fin grid0.N, (grid0.coords t 0).val = t.val / 2 ∧ (grid0.coords t 1).val = t.val % 2)

/-- A sum over the 8192 rows is the sum over the first 4096 plus the sum over the last 4096. -/
theorem sum_rows (g : Fin 8192 → EReal) : ∑ n : Fin 8192, g n = ∑ r : Fin 4096, g (rowLo r) + ∑ r : Fin 4096, g (rowHi r) :=
  Fin.sum_univ_add (a := 4096) (b := 4096) g

/-- Two products with a vanishing factor each are equal. -/
theorem mul_masked (a a' k k' : EReal) (hk : k = 0) (hk' : k' = 0) : a * k = a' * k' := by
  rw [hk, hk', mul_zero, mul_zero]

/-- The second accumulator's update at feature `f`: what it held plus the column sum of (masked block) times block. -/
theorem pay6_at (i : grid0.Coords) (w : BitVec 32) (x0 : Vec Ideal S1x4096x256 .f32) (p : Vec Ideal S1x1x256 .f32) (f : Fin 256) :
    k0_pay6 (F := Ideal) i w x0 p (ix3 0 0 f)
      = p (ix3 0 0 f) + ∑ r : Fin 4096, (x0 (ix3 0 r f) * mword (i 1).val w r) * x0 (ix3 0 r f) := by
  unfold k0_pay6
  dsimp only
  refine (shapeCast_apply _ _ (ix3 0 0 f) (ix2 0 f) ?_).trans ?_
  · rw [Shape.rowMajor_val_three, Shape.rowMajor_val_two]
    show 0 * 256 + f.val = (0 * 1 + 0) * 256 + f.val
    omega
  refine (addf_apply _ _ _).trans ?_
  congr 1
  · refine shapeCast_apply p _ (ix2 0 f) (ix3 0 0 f) ?_
    rw [Shape.rowMajor_val_three, Shape.rowMajor_val_two]
    show (0 * 1 + 0) * 256 + f.val = 0 * 256 + f.val
    omega
  · refine (shapeCast_apply _ _ (ix2 0 f) (ValueIdx.ix1 f) ?_).trans ?_
    · rw [Shape.rowMajor_val_one, Shape.rowMajor_val_two]
      show f.val = 0 * 256 + f.val
      omega
    refine (Ideal.multiReduction_add_single (mulf (k0_pay4 (F := Ideal) i w x0) (k0_pay3 (F := Ideal) x0)) 0x00000000#32
      reduces_S4096x256_S256 _ _ (ValueIdx.ix1 f)).trans ?_
    refine Finset.sum_congr rfl fun r _ => ?_
    have e : reduces_S4096x256_S256.lift (ValueIdx.ix1 f) r = ix2 r f := by
      funext a
      match a with
      | ⟨0, _⟩ => rfl
      | ⟨1, _⟩ => rfl
    rw [e]
    refine (mulf_apply _ _ _).trans ?_
    exact congrArg₂ (· * ·) (pay4_at i w x0 r f) (pay3_at x0 r f)

/-- The second accumulator's reset value: the zero block. -/
theorem pay2_at (f : Fin 256) : k0_pay2 (F := Ideal) (ix3 0 0 f) = 0 := by
  unfold k0_pay2
  refine (shapeCast_apply _ _ (ix3 0 0 f) (ix2 0 f) ?_).trans ?_
  · rw [Shape.rowMajor_val_three, Shape.rowMajor_val_two]
    show 0 * 256 + f.val = (0 * 1 + 0) * 256 + f.val
    omega
  show Ideal.ofBits .f32 0x00000000#32 = 0
  exact Ideal.ofBits_zero_f32

/-- Two such products with a vanishing inner factor each are equal. -/
theorem mul_masked_sq (a a' k k' : EReal) (hk : k = 0) (hk' : k' = 0) : (a * k) * a = (a' * k') * a' := by
  rw [hk, hk', mul_zero, mul_zero, zero_mul, zero_mul]

end R0

section

variable (m : (ℓ : Loc nD τ sig) → Buf (Elt Ideal) ℓ)

/-- The masked column sums per entry, as an array of the first result's shape. -/
def S1arr (x : S16x8192x256.Idx → EReal) (nv : S16.Idx → BitVec 32) : S16x1x256.Idx → EReal :=
  fun j => ∑ n : Fin 8192, x (ix3 (j 0) n (j 2)) * Cert.Spec.msk nv (j 0) n
/-- The masked column sums of squares per entry. -/
def S2arr (x : S16x8192x256.Idx → EReal) (nv : S16.Idx → BitVec 32) : S16x1x256.Idx → EReal :=
  fun j => ∑ n : Fin 8192, (x (ix3 (j 0) n (j 2)) * Cert.Spec.msk nv (j 0) n) * x (ix3 (j 0) n (j 2))

namespace R0

/-- The two arguments as arrays of their literal types. -/
abbrev xarr (c : Dev nD) : S16x8192x256.Idx → EReal := m ((c : Thread nD τ).loc main_arg0)
abbrev nvarr (c : Dev nD) : S16.Idx → BitVec 32 := m ((c : Thread nD τ).loc main_arg1)

/-! ## The blocks and the count words the body is handed -/

/-- The input window's block at a point whose block index is (b, e, 0) holds rows `e * 4096 + r` of entry `b`. -/
theorem iblk_at (c : Dev nD) (t : Fin (cfg0 (adm m 0)).N) (b : Fin 16) (e : Nat) (r : Fin 4096) (f : Fin 256) (n : Fin 8192)
    (htr : cc0_transform_0 k0_off1_inb numel1_S1 (tbl m) (grid0.coords t) = ![b.val, e, 0])
    (hn : n.val = e * 4096 + r.val) :
    (iblk0 (V0' m) (adm m 0) c 0 t : Vec Ideal S1x4096x256 .f32) (ix3 0 r f)
      = (m ((c : Thread nD τ).loc main_arg0) : S16x8192x256.Idx → EReal) (ix3 b n f) := by
  unfold iblk0
  show m ((c : Thread nD τ).loc main_arg0) ((((cfg0 (adm m 0)).win 0).blk t).view.emb (ix3 0 r f)) = m ((c : Thread nD τ).loc main_arg0) (ix3 b n f)
  congr 1
  funext a
  apply Fin.ext
  match a with
  | ⟨0, _⟩ =>
    show cc0_transform_0 k0_off1_inb numel1_S1 (tbl m) (grid0.coords t) 0 * 1 + 1 * 0 = b.val
    rw [htr]; show b.val * 1 + 1 * 0 = b.val; omega
  | ⟨1, _⟩ =>
    show cc0_transform_0 k0_off1_inb numel1_S1 (tbl m) (grid0.coords t) 1 * 4096 + 1 * r.val = n.val
    rw [htr, hn]; show e * 4096 + 1 * r.val = e * 4096 + r.val; omega
  | ⟨2, _⟩ =>
    show cc0_transform_0 k0_off1_inb numel1_S1 (tbl m) (grid0.coords t) 2 * 256 + 1 * f.val = f.val
    rw [htr]; show 0 * 256 + 1 * f.val = f.val; omega

/-- The count word the body loads at a point of entry `b` is the table's entry `b`. -/
theorem word0_at (c : Dev nD) (i : grid0.Coords) (b : Fin 16) (hb : b.val = (i 0).val) :
    word0 (F := Ideal) c i (tbl0 (adm m 0) c) = (m ((c : Thread nD τ).loc main_arg1) : S16.Idx → BitVec 32) (ValueIdx.ix1 b) := by
  obtain rfl : c = 0 := Subsingleton.elim _ _
  show m (((0 : Dev nD) : Thread nD τ).loc main_arg1) _ = m (((0 : Dev nD) : Thread nD τ).loc main_arg1) (ValueIdx.ix1 b)
  congr 1
  funext a
  apply Fin.ext
  match a with
  | ⟨0, _⟩ =>
    show (Scalar.indexCast (BitVec.ofNat 32 (i 0).val)).toNat + 1 * 0 = b.val
    unfold Scalar.indexCast
    rw [toNat_ofNat_small _ (i 0).isLt, hb]; omega

/-- And so is the word the input window's index map reads there. -/
theorem cnt0_at (c : Dev nD) (i : grid0.Coords) (b : Fin 16) (hb : b.val = (i 0).val) :
    cnt0 (F := Ideal) (tbl m) i = (m ((c : Thread nD τ).loc main_arg1) : S16.Idx → BitVec 32) (ValueIdx.ix1 b) := by
  obtain rfl : c = 0 := Subsingleton.elim _ _
  show m (((0 : Dev nD) : Thread nD τ).loc main_arg1) _ = m (((0 : Dev nD) : Thread nD τ).loc main_arg1) (ValueIdx.ix1 b)
  congr 1
  funext a
  apply Fin.ext
  match a with
  | ⟨0, _⟩ =>
    show (Scalar.indexCast (BitVec.ofNat 32 (i 0).val)).toNat + 1 * 0 = b.val
    unfold Scalar.indexCast
    rw [toNat_ofNat_small _ (i 0).isLt, hb]; omega

/-! ## The accumulators after an entry's second row tile -/

/-- THE FIRST ACCUMULATOR AFTER AN ENTRY'S SECOND ROW TILE: 0, plus tile 0's masked column sum, plus tile 1's — the sum
    over all 8192 rows.  When the entry's count is at most 4096 the second tile's block is tile 0 of x again, but each of
    its rows is then masked out, so its term is x times 0 whichever rows were fetched. -/
theorem acc1_odd (c : Dev nD)
    (hr : ∀ b, 0 ≤ ((m ((c : Thread nD τ).loc main_arg1)) b).toInt ∧ ((m ((c : Thread nD τ).loc main_arg1)) b).toInt ≤ 8192)
    (t : Fin (cfg0 (adm m 0)).N) (h1 : t.val % 2 = 1) (b : Fin 16) (hb : b.val = t.val / 2) (f : Fin 256) :
    (acc1 (V0' m) (adm m 0) c t.val t.isLt : Vec Ideal S1x1x256 .f32) (ix3 0 0 f)
      = S1arr (m ((c : Thread nD τ).loc main_arg0)) (m ((c : Thread nD τ).loc main_arg1)) (ix3 b 0 f) := by
  have hN : t.val < 32 := lt_of_lt_of_eq t.isLt (show (cfg0 (adm m 0)).N = 32 from N_0)
  obtain ⟨t', ht'v⟩ : ∃ t' : Fin (cfg0 (adm m 0)).N, t'.val = t.val - 1 := ⟨⟨t.val - 1, Nat.lt_of_le_of_lt (Nat.sub_le _ _) t.isLt⟩, rfl⟩
  have ht' : t'.val % 2 = 0 := by rw [ht'v]; omega
  obtain ⟨c0, c1⟩ := coords0 t
  obtain ⟨c0', c1'⟩ := coords0 t'
  have hb0 : b.val = (grid0.coords t 0).val := by rw [c0, hb]
  have hb0' : b.val = (grid0.coords t' 0).val := by rw [c0', hb, ht'v]; omega
  have e1 : (grid0.coords t 1).val = 1 := by rw [c1, h1]
  have e1' : (grid0.coords t' 1).val = 0 := by rw [c1']; exact ht'
  have hw := word0_at m c (grid0.coords t) b hb0
  have hw' := word0_at m c (grid0.coords t') b hb0'
  have hc := cnt0_at m c (grid0.coords t) b hb0
  have hc' := cnt0_at m c (grid0.coords t') b hb0'
  have hrb := hr (ValueIdx.ix1 b)
  have htr' : cc0_transform_0 k0_off1_inb numel1_S1 (tbl m) (grid0.coords t') = ![b.val, 0, 0] := by
    rw [eff0 (tbl m) (grid0.coords t') (by rw [hc']; exact hrb)]
    exact vec3_congr hb0'.symm (by rw [e1']; simp) rfl
  have hB := congrFun (acc1_B (V0' m) (adm m 0) c t (by omega)) (ix3 0 0 f)
  have hA := congrFun (acc1_A (V0' m) (adm m 0) c t' ht') (ix3 0 0 f)
  have hidx : ∀ (n n' : ℕ) (h : n < (cfg0 (adm m 0)).N) (h' : n' < (cfg0 (adm m 0)).N), n = n' →
      acc1 (V0' m) (adm m 0) c n h = acc1 (V0' m) (adm m 0) c n' h' := by
    intro n n' h h' e; subst e; rfl
  refine hB.trans ((pay5_at (grid0.coords t) (word0 c (grid0.coords t) (tbl0 (adm m 0) c)) (iblk0 (V0' m) (adm m 0) c 0 t)
    (acc1 (V0' m) (adm m 0) c (t.val - 1) (Nat.lt_of_le_of_lt (Nat.sub_le _ _) t.isLt)) f).trans ?_)
  rw [hidx (t.val - 1) t'.val _ t'.isLt ht'v.symm]
  refine (congrArg (· + _) (hA.trans (pay5_at (grid0.coords t') (word0 c (grid0.coords t') (tbl0 (adm m 0) c))
    (iblk0 (V0' m) (adm m 0) c 0 t') (k0_pay1 (F := Ideal)) f))).trans ?_
  rw [pay1_at, zero_add, hw, hw']
  show _ = ∑ n : Fin 8192, xarr m c (ix3 b n f) * Cert.Spec.msk (nvarr m c) b n
  rw [sum_rows]
  refine congrArg₂ (· + ·) (Finset.sum_congr rfl fun r _ => ?_) (Finset.sum_congr rfl fun r _ => ?_)
  · exact congrArg₂ (· * ·) (iblk_at m c t' b 0 r f (rowLo r) htr' (by show r.val = 0 * 4096 + r.val; omega))
      (mword_msk (m ((c : Thread nD τ).loc main_arg1)) b (grid0.coords t' 1).val (by rw [e1']; omega) r (rowLo r)
        (by show r.val = _ * 4096 + r.val; rw [e1']; omega))
  · by_cases hP : ((m ((c : Thread nD τ).loc main_arg1)) (ValueIdx.ix1 b)).toInt ≤ 4096
    · have hz : mword (grid0.coords t 1).val ((m ((c : Thread nD τ).loc main_arg1)) (ValueIdx.ix1 b)) r = 0 := by
        rw [mword_eq (grid0.coords t 1).val (by rw [e1]; omega), e1]
        exact if_neg (by omega)
      have hz' : Cert.Spec.msk (m ((c : Thread nD τ).loc main_arg1)) b (rowHi r) = 0 := by
        unfold Cert.Spec.msk
        exact if_neg (by show ¬ ((4096 + r.val : ℕ) : ℤ) < _; omega)
      exact mul_masked _ _ _ _ hz hz'
    · have htr : cc0_transform_0 k0_off1_inb numel1_S1 (tbl m) (grid0.coords t) = ![b.val, 1, 0] := by
        rw [eff0 (tbl m) (grid0.coords t) (by rw [hc]; exact hrb)]
        exact vec3_congr hb0.symm (by rw [e1, hc]; exact if_neg (fun h => hP h.2)) rfl
      exact congrArg₂ (· * ·) (iblk_at m c t b 1 r f (rowHi r) htr (by show 4096 + r.val = 1 * 4096 + r.val; omega))
        (mword_msk (m ((c : Thread nD τ).loc main_arg1)) b (grid0.coords t 1).val (by rw [e1]; omega) r (rowHi r)
          (by show 4096 + r.val = _ * 4096 + r.val; rw [e1]))

/-- THE SECOND ACCUMULATOR there, likewise: the sum over all 8192 rows of (x times mask) times x. -/
theorem acc2_odd (c : Dev nD)
    (hr : ∀ b, 0 ≤ ((m ((c : Thread nD τ).loc main_arg1)) b).toInt ∧ ((m ((c : Thread nD τ).loc main_arg1)) b).toInt ≤ 8192)
    (t : Fin (cfg0 (adm m 0)).N) (h1 : t.val % 2 = 1) (b : Fin 16) (hb : b.val = t.val / 2) (f : Fin 256) :
    (acc2 (V0' m) (adm m 0) c t.val t.isLt : Vec Ideal S1x1x256 .f32) (ix3 0 0 f)
      = S2arr (m ((c : Thread nD τ).loc main_arg0)) (m ((c : Thread nD τ).loc main_arg1)) (ix3 b 0 f) := by
  have hN : t.val < 32 := lt_of_lt_of_eq t.isLt (show (cfg0 (adm m 0)).N = 32 from N_0)
  obtain ⟨t', ht'v⟩ : ∃ t' : Fin (cfg0 (adm m 0)).N, t'.val = t.val - 1 := ⟨⟨t.val - 1, Nat.lt_of_le_of_lt (Nat.sub_le _ _) t.isLt⟩, rfl⟩
  have ht' : t'.val % 2 = 0 := by rw [ht'v]; omega
  obtain ⟨c0, c1⟩ := coords0 t
  obtain ⟨c0', c1'⟩ := coords0 t'
  have hb0 : b.val = (grid0.coords t 0).val := by rw [c0, hb]
  have hb0' : b.val = (grid0.coords t' 0).val := by rw [c0', hb, ht'v]; omega
  have e1 : (grid0.coords t 1).val = 1 := by rw [c1, h1]
  have e1' : (grid0.coords t' 1).val = 0 := by rw [c1']; exact ht'
  have hw := word0_at m c (grid0.coords t) b hb0
  have hw' := word0_at m c (grid0.coords t') b hb0'
  have hc := cnt0_at m c (grid0.coords t) b hb0
  have hc' := cnt0_at m c (grid0.coords t') b hb0'
  have hrb := hr (ValueIdx.ix1 b)
  have htr' : cc0_transform_0 k0_off1_inb numel1_S1 (tbl m) (grid0.coords t') = ![b.val, 0, 0] := by
    rw [eff0 (tbl m) (grid0.coords t') (by rw [hc']; exact hrb)]
    exact vec3_congr hb0'.symm (by rw [e1']; simp) rfl
  have hB := congrFun (acc2_B (V0' m) (adm m 0) c t (by omega)) (ix3 0 0 f)
  have hA := congrFun (acc2_A (V0' m) (adm m 0) c t' ht') (ix3 0 0 f)
  have hidx : ∀ (n n' : ℕ) (h : n < (cfg0 (adm m 0)).N) (h' : n' < (cfg0 (adm m 0)).N), n = n' →
      acc2 (V0' m) (adm m 0) c n h = acc2 (V0' m) (adm m 0) c n' h' := by
    intro n n' h h' e; subst e; rfl
  refine hB.trans ((pay6_at (grid0.coords t) (word0 c (grid0.coords t) (tbl0 (adm m 0) c)) (iblk0 (V0' m) (adm m 0) c 0 t)
    (acc2 (V0' m) (adm m 0) c (t.val - 1) (Nat.lt_of_le_of_lt (Nat.sub_le _ _) t.isLt)) f).trans ?_)
  rw [hidx (t.val - 1) t'.val _ t'.isLt ht'v.symm]
  refine (congrArg (· + _) (hA.trans (pay6_at (grid0.coords t') (word0 c (grid0.coords t') (tbl0 (adm m 0) c))
    (iblk0 (V0' m) (adm m 0) c 0 t') (k0_pay2 (F := Ideal)) f))).trans ?_
  rw [pay2_at, zero_add, hw, hw']
  show _ = ∑ n : Fin 8192, (xarr m c (ix3 b n f) * Cert.Spec.msk (nvarr m c) b n) * xarr m c (ix3 b n f)
  rw [sum_rows]
  refine congrArg₂ (· + ·) (Finset.sum_congr rfl fun r _ => ?_) (Finset.sum_congr rfl fun r _ => ?_)
  · have hx := iblk_at m c t' b 0 r f (rowLo r) htr' (by show r.val = 0 * 4096 + r.val; omega)
    exact congrArg₂ (· * ·) (congrArg₂ (· * ·) hx
      (mword_msk (m ((c : Thread nD τ).loc main_arg1)) b (grid0.coords t' 1).val (by rw [e1']; omega) r (rowLo r)
        (by show r.val = _ * 4096 + r.val; rw [e1']; omega))) hx
  · by_cases hP : ((m ((c : Thread nD τ).loc main_arg1)) (ValueIdx.ix1 b)).toInt ≤ 4096
    · have hz : mword (grid0.coords t 1).val ((m ((c : Thread nD τ).loc main_arg1)) (ValueIdx.ix1 b)) r = 0 := by
        rw [mword_eq (grid0.coords t 1).val (by rw [e1]; omega), e1]
        exact if_neg (by omega)
      have hz' : Cert.Spec.msk (m ((c : Thread nD τ).loc main_arg1)) b (rowHi r) = 0 := by
        unfold Cert.Spec.msk
        exact if_neg (by show ¬ ((4096 + r.val : ℕ) : ℤ) < _; omega)
      exact mul_masked_sq _ _ _ _ hz hz'
    · have htr : cc0_transform_0 k0_off1_inb numel1_S1 (tbl m) (grid0.coords t) = ![b.val, 1, 0] := by
        rw [eff0 (tbl m) (grid0.coords t) (by rw [hc]; exact hrb)]
        exact vec3_congr hb0.symm (by rw [e1, hc]; exact if_neg (fun h => hP h.2)) rfl
      have hx := iblk_at m c t b 1 r f (rowHi r) htr (by show 4096 + r.val = 1 * 4096 + r.val; omega)
      exact congrArg₂ (· * ·) (congrArg₂ (· * ·) hx
        (mword_msk (m ((c : Thread nD τ).loc main_arg1)) b (grid0.coords t 1).val (by rw [e1]; omega) r (rowHi r)
          (by show 4096 + r.val = _ * 4096 + r.val; rw [e1]))) hx

/-- What an odd point writes back from accumulator 1 is its block of the array: the accumulator's block is the 1 x 1 x 256
    block (entry, 0, ·) of the result, entry = point / 2. -/
theorem flushed1_eq (c : Dev nD)
    (hr : ∀ b, 0 ≤ ((m ((c : Thread nD τ).loc main_arg1)) b).toInt ∧ ((m ((c : Thread nD τ).loc main_arg1)) b).toInt ≤ 8192)
    (t : Fin (cfg0 (adm m 0)).N) (hf : ((cfg0 (adm m 0)).win 1).flush t = true) :
    (dat0 (V0' m) (adm m 0) c).flushed 1 t
      = (((cfg0 (adm m 0)).win 1).blk t).view.read (Elt Ideal)
          (S1arr (m ((c : Thread nD τ).loc main_arg0)) (m ((c : Thread nD τ).loc main_arg1)) : S16x1x256.Idx → EReal) := by
  have hN : t.val < 32 := lt_of_lt_of_eq t.isLt (show (cfg0 (adm m 0)).N = 32 from N_0)
  have h1 : t.val % 2 = 1 := by rw [flush0_1] at hf; exact of_decide_eq_true hf
  obtain ⟨c0, c1⟩ := coords0 t
  show ((cfg0 (adm m 0)).win 1).cut (grid0.coords t) ((dat0 (V0' m) (adm m 0) c).after 1 t) = _
  rw [after0_1]
  refine funext fun (j : S1x1x256.Idx) => ?_
  have hj0 : (j 0).val < 1 := (j 0).isLt
  have hj1 : (j 1).val < 1 := (j 1).isLt
  have hj2 : (j 2).val < 256 := (j 2).isLt
  have eL : ((cfg0 (adm m 0)).win 1).xinj (grid0.coords t) j = ix3 0 0 ⟨(j 2).val, hj2⟩ := by
    funext a
    apply Fin.ext
    match a with
    | ⟨0, _⟩ => show (j 0).val = 0; omega
    | ⟨1, _⟩ => show (j 1).val = 0; omega
    | ⟨2, _⟩ => rfl
  have eR : (((cfg0 (adm m 0)).win 1).blk t).view.emb j = ix3 ⟨t.val / 2, by omega⟩ 0 ⟨(j 2).val, hj2⟩ := by
    funext a
    apply Fin.ext
    match a with
    | ⟨0, _⟩ =>
      show (BitVec.ofNat 32 (grid0.coords t 0).val).toNat * 1 + 1 * (j 0).val = t.val / 2
      rw [toNat_ofNat_small _ (grid0.coords t 0).isLt, c0]; omega
    | ⟨1, _⟩ => show 0 * 1 + 1 * (j 1).val = 0; omega
    | ⟨2, _⟩ => show 0 * 256 + 1 * (j 2).val = (j 2).val; omega
  show acc1 (V0' m) (adm m 0) c t.val t.isLt (((cfg0 (adm m 0)).win 1).xinj (grid0.coords t) j)
    = S1arr (m ((c : Thread nD τ).loc main_arg0)) (m ((c : Thread nD τ).loc main_arg1)) ((((cfg0 (adm m 0)).win 1).blk t).view.emb j)
  rw [eL, eR]
  exact acc1_odd m c hr t h1 ⟨t.val / 2, by omega⟩ rfl ⟨(j 2).val, hj2⟩

/-- Every index (b, 0, f) of result 1 lies in the block written back at point 2 b + 1. -/
theorem cover1 (i : S16x1x256.Idx) :
    ∃ t : Fin (cfg0 (adm m 0)).N, ((cfg0 (adm m 0)).win 1).flush t = true ∧ i ∈ (((cfg0 (adm m 0)).win 1).blk t).view.set := by
  have hi0 : (i 0).val < 16 := (i 0).isLt
  have hi1 : (i 1).val < 1 := (i 1).isLt
  have hi2 : (i 2).val < 256 := (i 2).isLt
  have hlt : 2 * (i 0).val + 1 < (cfg0 (adm m 0)).N := by rw [show (cfg0 (adm m 0)).N = 32 from N_0]; omega
  obtain ⟨c0, c1⟩ := coords0 ⟨2 * (i 0).val + 1, hlt⟩
  refine ⟨⟨2 * (i 0).val + 1, hlt⟩, ?_, ?_⟩
  · rw [flush0_1]; exact decide_eq_true (by show (2 * (i 0).val + 1) % 2 = 1; omega)
  · refine (Finset.ext_iff.mp (View.set_slice_whole main_v0_0 (((cfg0 (adm m 0)).win 1).rect ⟨2 * (i 0).val + 1, hlt⟩)) i).mpr ?_
    refine Rect.mem_set_unit.mpr ?_
    intro a
    match a with
    | ⟨0, _⟩ =>
      show (BitVec.ofNat 32 (grid0.coords ⟨2 * (i 0).val + 1, hlt⟩ 0).val).toNat * 1 ≤ (i 0).val
        ∧ (i 0).val < (BitVec.ofNat 32 (grid0.coords ⟨2 * (i 0).val + 1, hlt⟩ 0).val).toNat * 1 + 1
      rw [toNat_ofNat_small _ (grid0.coords ⟨2 * (i 0).val + 1, hlt⟩ 0).isLt, c0]
      show (2 * (i 0).val + 1) / 2 * 1 ≤ (i 0).val ∧ (i 0).val < (2 * (i 0).val + 1) / 2 * 1 + 1
      omega
    | ⟨1, _⟩ => show 0 * 1 ≤ (i 1).val ∧ (i 1).val < 0 * 1 + 1; omega
    | ⟨2, _⟩ => show 0 * 256 ≤ (i 2).val ∧ (i 2).val < 0 * 256 + 256; omega

/-- What an odd point writes back from accumulator 2 is its block of the array: the accumulator's block is the 1 x 1 x 256
    block (entry, 0, ·) of the result, entry = point / 2. -/
theorem flushed2_eq (c : Dev nD)
    (hr : ∀ b, 0 ≤ ((m ((c : Thread nD τ).loc main_arg1)) b).toInt ∧ ((m ((c : Thread nD τ).loc main_arg1)) b).toInt ≤ 8192)
    (t : Fin (cfg0 (adm m 0)).N) (hf : ((cfg0 (adm m 0)).win 2).flush t = true) :
    (dat0 (V0' m) (adm m 0) c).flushed 2 t
      = (((cfg0 (adm m 0)).win 2).blk t).view.read (Elt Ideal)
          (S2arr (m ((c : Thread nD τ).loc main_arg0)) (m ((c : Thread nD τ).loc main_arg1)) : S16x1x256.Idx → EReal) := by
  have hN : t.val < 32 := lt_of_lt_of_eq t.isLt (show (cfg0 (adm m 0)).N = 32 from N_0)
  have h1 : t.val % 2 = 1 := by rw [flush0_2] at hf; exact of_decide_eq_true hf
  obtain ⟨c0, c1⟩ := coords0 t
  show ((cfg0 (adm m 0)).win 2).cut (grid0.coords t) ((dat0 (V0' m) (adm m 0) c).after 2 t) = _
  rw [after0_2]
  refine funext fun (j : S1x1x256.Idx) => ?_
  have hj0 : (j 0).val < 1 := (j 0).isLt
  have hj1 : (j 1).val < 1 := (j 1).isLt
  have hj2 : (j 2).val < 256 := (j 2).isLt
  have eL : ((cfg0 (adm m 0)).win 2).xinj (grid0.coords t) j = ix3 0 0 ⟨(j 2).val, hj2⟩ := by
    funext a
    apply Fin.ext
    match a with
    | ⟨0, _⟩ => show (j 0).val = 0; omega
    | ⟨1, _⟩ => show (j 1).val = 0; omega
    | ⟨2, _⟩ => rfl
  have eR : (((cfg0 (adm m 0)).win 2).blk t).view.emb j = ix3 ⟨t.val / 2, by omega⟩ 0 ⟨(j 2).val, hj2⟩ := by
    funext a
    apply Fin.ext
    match a with
    | ⟨0, _⟩ =>
      show (BitVec.ofNat 32 (grid0.coords t 0).val).toNat * 1 + 1 * (j 0).val = t.val / 2
      rw [toNat_ofNat_small _ (grid0.coords t 0).isLt, c0]; omega
    | ⟨1, _⟩ => show 0 * 1 + 1 * (j 1).val = 0; omega
    | ⟨2, _⟩ => show 0 * 256 + 1 * (j 2).val = (j 2).val; omega
  show acc2 (V0' m) (adm m 0) c t.val t.isLt (((cfg0 (adm m 0)).win 2).xinj (grid0.coords t) j)
    = S2arr (m ((c : Thread nD τ).loc main_arg0)) (m ((c : Thread nD τ).loc main_arg1)) ((((cfg0 (adm m 0)).win 2).blk t).view.emb j)
  rw [eL, eR]
  exact acc2_odd m c hr t h1 ⟨t.val / 2, by omega⟩ rfl ⟨(j 2).val, hj2⟩

/-- Every index (b, 0, f) of result 2 lies in the block written back at point 2 b + 1. -/
theorem cover2 (i : S16x1x256.Idx) :
    ∃ t : Fin (cfg0 (adm m 0)).N, ((cfg0 (adm m 0)).win 2).flush t = true ∧ i ∈ (((cfg0 (adm m 0)).win 2).blk t).view.set := by
  have hi0 : (i 0).val < 16 := (i 0).isLt
  have hi1 : (i 1).val < 1 := (i 1).isLt
  have hi2 : (i 2).val < 256 := (i 2).isLt
  have hlt : 2 * (i 0).val + 1 < (cfg0 (adm m 0)).N := by rw [show (cfg0 (adm m 0)).N = 32 from N_0]; omega
  obtain ⟨c0, c1⟩ := coords0 ⟨2 * (i 0).val + 1, hlt⟩
  refine ⟨⟨2 * (i 0).val + 1, hlt⟩, ?_, ?_⟩
  · rw [flush0_2]; exact decide_eq_true (by show (2 * (i 0).val + 1) % 2 = 1; omega)
  · refine (Finset.ext_iff.mp (View.set_slice_whole main_v0_1 (((cfg0 (adm m 0)).win 2).rect ⟨2 * (i 0).val + 1, hlt⟩)) i).mpr ?_
    refine Rect.mem_set_unit.mpr ?_
    intro a
    match a with
    | ⟨0, _⟩ =>
      show (BitVec.ofNat 32 (grid0.coords ⟨2 * (i 0).val + 1, hlt⟩ 0).val).toNat * 1 ≤ (i 0).val
        ∧ (i 0).val < (BitVec.ofNat 32 (grid0.coords ⟨2 * (i 0).val + 1, hlt⟩ 0).val).toNat * 1 + 1
      rw [toNat_ofNat_small _ (grid0.coords ⟨2 * (i 0).val + 1, hlt⟩ 0).isLt, c0]
      show (2 * (i 0).val + 1) / 2 * 1 ≤ (i 0).val ∧ (i 0).val < (2 * (i 0).val + 1) / 2 * 1 + 1
      omega
    | ⟨1, _⟩ => show 0 * 1 ≤ (i 1).val ∧ (i 1).val < 0 * 1 + 1; omega
    | ⟨2, _⟩ => show 0 * 256 ≤ (i 2).val ∧ (i 2).val < 0 * 256 + 256; omega

end R0

theorem region0_sum (c : Dev nD)
    (hr : ∀ b, 0 ≤ ((m ((c : Thread nD τ).loc main_arg1)) b).toInt ∧ ((m ((c : Thread nD τ).loc main_arg1)) b).toInt ≤ 8192) :
    (dat0 (V0' m) (adm m 0) c).arrAt 1 (cfg0 (adm m 0)).N
      = (S1arr (m ((c : Thread nD τ).loc main_arg0)) (m ((c : Thread nD τ).loc main_arg1)) : S16x1x256.Idx → EReal) :=
  (dat0 (V0' m) (adm m 0) c).arrAt_eq_of_cover 1 _ (fun t hf => R0.flushed1_eq m c hr t hf) (R0.cover1 m)

theorem region0_sumsq (c : Dev nD)
    (hr : ∀ b, 0 ≤ ((m ((c : Thread nD τ).loc main_arg1)) b).toInt ∧ ((m ((c : Thread nD τ).loc main_arg1)) b).toInt ≤ 8192) :
    (dat0 (V0' m) (adm m 0) c).arrAt 2 (cfg0 (adm m 0)).N
      = (S2arr (m ((c : Thread nD τ).loc main_arg0)) (m ((c : Thread nD τ).loc main_arg1)) : S16x1x256.Idx → EReal) :=
  (dat0 (V0' m) (adm m 0) c).arrAt_eq_of_cover 2 _ (fun t hf => R0.flushed2_eq m c hr t hf) (R0.cover2 m)

end

end Cert.KernelIdeal.H

end
-- ==== Proof.KI.ValueR1.lean ====
/-
  What the normalisation pass leaves in the result, read as extended reals, when every count is in [0, 8192]: element
  (b, n, f) is (x[b, n, f] * scale[f] + shift[f]) * msk b n, with scale and shift the two rows the pass is handed and
  msk = 1 on the rows n < nv b, else 0.  The output's blocks tile the array, one per grid point (entry b, row tile).  The
  block of x a point reads is its own row tile, unless it is the second tile of an entry whose count is at most 4096:
  then it is tile 0 again, but every row of that output tile is masked out, and anything times 0 is 0.
-/
import proofs.«411793_j30253749633578_3_alg».proof.Proof.KI.Launch
import proofs.«411793_j30253749633578_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## The body's arithmetic at one element -/

/-- The mask word of the body: row `k * 4096 + r` of the array compared, signed, with the count `w`; the one-bit
    answer widened to 32 bits and converted. -/
def mword (k r : Nat) (w : BitVec 32) : EReal :=
  (((((IntOp.cmpi .slt (IntOp.addi (BitVec.ofNat 32 r) (Scalar.muli (BitVec.ofNat 32 k) 4096#32)) w).setWidth 32).toInt : ℤ) : ℝ) : EReal)

/-- Row `k * 4096 + r` with `k < 2`, `r < 4096` is below 8192: the sum does not wrap and reads, signed, as itself. -/
theorem row_word (k r : Nat) (hk : k < 2) (hr : r < 4096) :
    (IntOp.addi (BitVec.ofNat 32 r) (Scalar.muli (BitVec.ofNat 32 k) 4096#32)).toInt = ((k * 4096 + r : ℕ) : ℤ) := by
  have e : IntOp.addi (BitVec.ofNat 32 r) (Scalar.muli (BitVec.ofNat 32 k) 4096#32) = BitVec.ofNat 32 (k * 4096 + r) := by
    unfold IntOp.addi Scalar.muli IntOp.muli
    apply BitVec.eq_of_toNat_eq
    simp only [BitVec.toNat_add, BitVec.toNat_mul, BitVec.toNat_ofNat]
    omega
  rw [e, BitVec.toInt_eq_toNat_cond, BitVec.toNat_ofNat]
  have : (k * 4096 + r) % 2 ^ 32 = k * 4096 + r := Nat.mod_eq_of_lt (by omega)
  rw [this]
  split
  · rfl
  · exfalso; omega

/-- So the mask word is 1 on the rows below the count and 0 on the others. -/
theorem mword_eq (k r : Nat) (hk : k < 2) (hr : r < 4096) (w : BitVec 32) :
    mword k r w = if ((k * 4096 + r : ℕ) : ℤ) < w.toInt then 1 else 0 := by
  unfold mword IntOp.cmpi
  have hs : (IntOp.addi (BitVec.ofNat 32 r) (Scalar.muli (BitVec.ofNat 32 k) 4096#32)).slt w
      = decide (((k * 4096 + r : ℕ) : ℤ) < w.toInt) := by
    rw [BitVec.slt, row_word k r hk hr]
  dsimp only
  rw [hs]
  by_cases h : ((k * 4096 + r : ℕ) : ℤ) < w.toInt
  · rw [if_pos h, decide_eq_true h]
    show ((((BitVec.ofBool true).setWidth 32).toInt : ℝ) : EReal) = 1
    rw [show ((BitVec.ofBool true).setWidth 32).toInt = 1 from by decide]
    simp
  · rw [if_neg h, decide_eq_false h]
    show ((((BitVec.ofBool false).setWidth 32).toInt : ℝ) : EReal) = 0
    rw [show ((BitVec.ofBool false).setWidth 32).toInt = 0 from by decide]
    simp

/-- Row r, feature f of a 4096 x 256 tile and element (0, r, f) of the 1 x 4096 x 256 block are at one row-major place. -/
theorem hrm (r : Fin 4096) (f : Fin 256) :
    (S4096x256.rowMajor (ix2 r f)).val = (S1x4096x256.rowMajor (ix3 0 r f)).val := by
  rw [Shape.rowMajor_val_two, Shape.rowMajor_val_three]
  show r.val * 256 + f.val = ((0 : Fin 1).val * 4096 + r.val) * 256 + f.val
  simp

/-- The body's result at row r, feature f of its block: the block of x there times the scale row at f, plus the shift
    row at f, times the mask word of row r. -/
theorem pay1_apply (i : grid1.Coords) (w : BitVec 32) (x0 : Vec Ideal S1x4096x256 .f32) (s0 sh0 : Vec Ideal S1x256 .f32)
    (r : Fin 4096) (f : Fin 256) :
    (k1_pay1 (F := Ideal) i w x0 s0 sh0 : S1x4096x256.Idx → EReal) (ix3 0 r f)
      = (x0 (ix3 0 r f) * s0 (ix2 0 f) + sh0 (ix2 0 f)) * mword (i 1).val r.val w := by
  unfold k1_pay1
  refine (shapeCast_apply _ _ (ix3 0 r f) (ix2 r f) (hrm r f)).trans ?_
  refine (mulf_apply _ _ _).trans ?_
  refine congrArg₂ (· * ·) ?_ ?_
  · refine (addf_apply _ _ _).trans ?_
    refine congrArg₂ (· + ·) ?_ ?_
    · refine (mulf_apply _ _ _).trans ?_
      refine congrArg₂ (· * ·) ?_ ?_
      · exact shapeCast_apply _ _ (ix2 r f) (ix3 0 r f) (hrm r f).symm
      · refine (broadcastTo_apply _ _ (ix2 r f) (ix2 0 f) ?_).trans ?_
        · intro a
          match a with
          | ⟨0, _⟩ => rfl
          | ⟨1, _⟩ => rfl
        · exact shapeCast_apply _ _ (ix2 0 f) (ix2 0 f) rfl
    · refine (broadcastTo_apply _ _ (ix2 r f) (ix2 0 f) ?_).trans ?_
      · intro a
        match a with
        | ⟨0, _⟩ => rfl
        | ⟨1, _⟩ => rfl
      · exact shapeCast_apply _ _ (ix2 0 f) (ix2 0 f) rfl
  · refine (broadcastTo_apply _ _ (ix2 r f) (ix2 r 0) ?_).trans ?_
    · intro a
      match a with
      | ⟨0, _⟩ => rfl
      | ⟨1, _⟩ => rfl
    · show FloatOps.sitofp .f32 ((IntOp.cmpi .slt (IntOp.addi (iota Kind.tc S4096x1 32 [0] iota_S4096x1_d0_w32 (ix2 r 0)) (Scalar.muli (BitVec.ofNat 32 (i 1).val) 4096#32)) w).setWidth 32) = _
      rw [iota_single_apply]
      rfl

section

variable (m : (ℓ : Loc nD τ sig) → Buf (Elt Ideal) ℓ)

/-- The masked affine image of x, as an array of the result's shape. -/
def Narr (x : S16x8192x256.Idx → EReal) (nv : S16.Idx → BitVec 32) (sc sh : S1x256.Idx → EReal) : S16x8192x256.Idx → EReal :=
  fun i => (x i * sc (ix2 0 (i 2)) + sh (ix2 0 (i 2))) * Cert.Spec.msk nv (i 0) (i 1)

/-- The image at (b, n, f), spelled out. -/
theorem Narr_apply (x : S16x8192x256.Idx → EReal) (nv : S16.Idx → BitVec 32) (sc sh : S1x256.Idx → EReal)
    (b : Fin 16) (n : Fin 8192) (f : Fin 256) :
    Narr x nv sc sh (ix3 b n f)
      = (x (ix3 b n f) * sc (ix2 0 f) + sh (ix2 0 f)) * (if (n.val : ℤ) < (nv (ValueIdx.ix1 b)).toInt then 1 else 0) := rfl

/-- A point of row tile k that read row tile e of x, where e is k unless k = 1 and the count is at most 4096 (then e = 0),
    computed the image all the same: in the exceptional case every row of tile 1 is at or past the count, so the mask
    is 0 there and anything times 0 is 0. -/
theorem point_alg (x : S16x8192x256.Idx → EReal) (nv : S16.Idx → BitVec 32) (sc sh : S1x256.Idx → EReal)
    (b : Fin 16) (k e : Nat) (r : Fin 4096) (f : Fin 256)
    (he : e = if k = 1 ∧ (nv (ValueIdx.ix1 b)).toInt ≤ 4096 then 0 else k)
    (h1 : e * 4096 + r.val < 8192) (h2 : k * 4096 + r.val < 8192) :
    (x (ix3 b ⟨e * 4096 + r.val, h1⟩ f) * sc (ix2 0 f) + sh (ix2 0 f))
        * (if ((k * 4096 + r.val : ℕ) : ℤ) < (nv (ValueIdx.ix1 b)).toInt then 1 else 0)
      = Narr x nv sc sh (ix3 b ⟨k * 4096 + r.val, h2⟩ f) := by
  rw [Narr_apply]
  by_cases h : k = 1 ∧ (nv (ValueIdx.ix1 b)).toInt ≤ 4096
  · have hlt : ¬ ((k * 4096 + r.val : ℕ) : ℤ) < (nv (ValueIdx.ix1 b)).toInt := by
      obtain ⟨hk, hn⟩ := h
      rw [hk]; push_cast; omega
    rw [if_neg hlt, mul_zero, mul_zero]
  · rw [if_neg h] at he
    subst he
    rfl

/-! ## The grid, the table word and the input blocks -/

/-- The grid of the pass, point by point: point t is entry t / 2, row tile t % 2; the two rows' windows sit at block
    (0, 0), the output's at block (entry, tile, 0), and the table is read at the entry. -/
theorem idx_facts1 : ∀ t : Fin grid1.N,
    ((grid1.coords t) 0).val = t.val / 2 ∧ ((grid1.coords t) 1).val = t.val % 2
    ∧ cc1_transform_0 (grid1.coords t) = ![0, 0] ∧ cc1_transform_1 (grid1.coords t) = ![0, 0]
    ∧ cc1_transform_3 (grid1.coords t) = ![t.val / 2, t.val % 2, 0]
    ∧ k1_off1 (grid1.coords t) = ![t.val / 2] := by decide +kernel

theorem entry_lt (t : Fin grid1.N) : t.val / 2 < 16 := by
  have := t.isLt; have : grid1.N = 32 := rfl; omega

/-- The count of the entry a grid point works on. -/
abbrev nvAt (c : Dev nD) (t : Fin grid1.N) : BitVec 32 :=
  (m ((c : Thread nD τ).loc main_arg1) : S16.Idx → BitVec 32) (ValueIdx.ix1 ⟨t.val / 2, entry_lt t⟩)

/-- The word the table-indexed index map reads at a point is that count. -/
theorem cnt1_eq (c : Dev nD) (t : Fin grid1.N) : cnt1 (F := Ideal) (tbl m) (grid1.coords t) = nvAt m c t := by
  obtain rfl : c = 0 := Subsingleton.elim _ _
  obtain ⟨e0, e1, e2, e3, e4, e5⟩ := idx_facts1 t
  show tbl m 0 _ = _
  unfold tbl nvAt
  show (m (((0 : Dev nD) : Thread nD τ).loc main_arg1) : S16.Idx → BitVec 32) _ = _
  congr 1
  funext a
  apply Fin.ext
  match a with
  | ⟨0, _⟩ =>
    show k1_off1 (grid1.coords t) 0 + 1 * 0 = t.val / 2
    rw [e5]; rfl

/-- The word the body loads from the table at a point is that count too. -/
theorem word1_eq (c : Dev nD) (t : Fin grid1.N) : word1 (F := Ideal) c (grid1.coords t) (tbl1 (adm m 1) c) = nvAt m c t := by
  obtain rfl : c = 0 := Subsingleton.elim _ _
  obtain ⟨e0, e1, e2, e3, e4, e5⟩ := idx_facts1 t
  show (tbl m 0 : S16.Idx → BitVec 32) _ = _
  unfold tbl nvAt
  show (m (((0 : Dev nD) : Thread nD τ).loc main_arg1) : S16.Idx → BitVec 32) _ = _
  congr 1
  funext a
  apply Fin.ext
  match a with
  | ⟨0, _⟩ =>
    show k1_off1 (grid1.coords t) 0 + 1 * 0 = t.val / 2
    rw [e5]; rfl

/-- The scale row's block at any point is the row itself. -/
theorem iblk_sc (c : Dev nD) (t : Fin (cfg1 (adm m 1)).N) (f : Fin 256) :
    (iblk1 (V2' m) (adm m 1) c 0 t : Vec Ideal S1x256 .f32) (ix2 0 f) = (V2' m c main_v19 : S1x256.Idx → EReal) (ix2 0 f) := by
  obtain ⟨e0, e1, e2, e3, e4, e5⟩ := idx_facts1 t
  unfold iblk1
  show (V2' m c main_v19 : S1x256.Idx → EReal) _ = _
  congr 1
  funext a
  apply Fin.ext
  match a with
  | ⟨0, _⟩ => show cc1_transform_0 (grid1.coords t) 0 * 1 + 1 * (0 : Fin 1).val = (0 : Fin 1).val; rw [e2]; rfl
  | ⟨1, _⟩ => show cc1_transform_0 (grid1.coords t) 1 * 256 + 1 * f.val = f.val; rw [e2]; show 0 * 256 + 1 * f.val = f.val; omega

/-- The shift row's likewise. -/
theorem iblk_sh (c : Dev nD) (t : Fin (cfg1 (adm m 1)).N) (f : Fin 256) :
    (iblk1 (V2' m) (adm m 1) c 1 t : Vec Ideal S1x256 .f32) (ix2 0 f) = (V2' m c main_v21 : S1x256.Idx → EReal) (ix2 0 f) := by
  obtain ⟨e0, e1, e2, e3, e4, e5⟩ := idx_facts1 t
  unfold iblk1
  show (V2' m c main_v21 : S1x256.Idx → EReal) _ = _
  congr 1
  funext a
  apply Fin.ext
  match a with
  | ⟨0, _⟩ => show cc1_transform_1 (grid1.coords t) 0 * 1 + 1 * (0 : Fin 1).val = (0 : Fin 1).val; rw [e3]; rfl
  | ⟨1, _⟩ => show cc1_transform_1 (grid1.coords t) 1 * 256 + 1 * f.val = f.val; rw [e3]; show 0 * 256 + 1 * f.val = f.val; omega

/-- The row tile of x a point reads: its own, unless it is the second tile of an entry with at most 4096 valid rows. -/
def effTile (c : Dev nD) (t : Fin grid1.N) : Nat := if t.val % 2 = 1 ∧ (nvAt m c t).toInt ≤ 4096 then 0 else t.val % 2

/-- Either tile's rows are rows of the array. -/
theorem effTile_lt (c : Dev nD) (t : Fin grid1.N) (r : Fin 4096) : effTile m c t * 4096 + r.val < 8192 := by
  unfold effTile; have := r.isLt; split <;> omega

theorem tile_lt (t : Fin grid1.N) (r : Fin 4096) : t.val % 2 * 4096 + r.val < 8192 := by
  have := r.isLt; omega

/-- The block of x at a point, when the entry's count is in [0, 8192]: rows `effTile * 4096 + r` of the entry. -/
theorem iblk_x (c : Dev nD) (t : Fin (cfg1 (adm m 1)).N)
    (hr : 0 ≤ (nvAt m c t).toInt ∧ (nvAt m c t).toInt ≤ 8192) (r : Fin 4096) (f : Fin 256) :
    (iblk1 (V2' m) (adm m 1) c 2 t : Vec Ideal S1x4096x256 .f32) (ix3 0 r f)
      = (m ((c : Thread nD τ).loc main_arg0) : S16x8192x256.Idx → EReal) (ix3 ⟨t.val / 2, entry_lt t⟩ ⟨effTile m c t * 4096 + r.val, effTile_lt m c t r⟩ f) := by
  obtain ⟨e0, e1, e2, e3, e4, e5⟩ := idx_facts1 t
  have hE := eff1 (F := Ideal) (tbl m) (grid1.coords t) (by rw [cnt1_eq m c t]; exact hr)
  rw [cnt1_eq m c t, e0, e1] at hE
  unfold iblk1
  show (V2' m c main_arg0 : S16x8192x256.Idx → EReal) _ = _
  rw [show (V2' m c main_arg0 : S16x8192x256.Idx → EReal) = m ((c : Thread nD τ).loc main_arg0) from W2_arg0 m c]
  congr 1
  funext a
  apply Fin.ext
  match a with
  | ⟨0, _⟩ =>
    show cc1_transform_2 k1_off1_inb numel1_S1 (tbl m) (grid1.coords t) 0 * 1 + 1 * (0 : Fin 1).val = t.val / 2
    rw [hE]; show t.val / 2 * 1 + 1 * 0 = t.val / 2; omega
  | ⟨1, _⟩ =>
    show cc1_transform_2 k1_off1_inb numel1_S1 (tbl m) (grid1.coords t) 1 * 4096 + 1 * r.val = effTile m c t * 4096 + r.val
    rw [hE]; unfold effTile
    show (if t.val % 2 = 1 ∧ (nvAt m c t).toInt ≤ 4096 then 0 else t.val % 2) * 4096 + 1 * r.val = _
    omega
  | ⟨2, _⟩ =>
    show cc1_transform_2 k1_off1_inb numel1_S1 (tbl m) (grid1.coords t) 2 * 256 + 1 * f.val = f.val
    rw [hE]; show 0 * 256 + 1 * f.val = f.val; omega

/-! ## What a point leaves in its output block, and the array -/

/-- Row r, feature f of the output block at point t is the masked affine image at (entry, tile * 4096 + r, f). -/
theorem out1_point (c : Dev nD) (t : Fin (cfg1 (adm m 1)).N)
    (hr : 0 ≤ (nvAt m c t).toInt ∧ (nvAt m c t).toInt ≤ 8192) (r : Fin 4096) (f : Fin 256) :
    (out1 (V2' m) (adm m 1) c t : S1x4096x256.Idx → EReal) (ix3 0 r f)
      = Narr (m ((c : Thread nD τ).loc main_arg0)) (m ((c : Thread nD τ).loc main_arg1)) (V2' m c main_v19) (V2' m c main_v21)
          (ix3 ⟨t.val / 2, entry_lt t⟩ ⟨t.val % 2 * 4096 + r.val, tile_lt t r⟩ f) := by
  obtain ⟨e0, e1, e2, e3, e4, e5⟩ := idx_facts1 t
  unfold out1
  refine (pay1_apply (grid1.coords t) (word1 c (grid1.coords t) (tbl1 (adm m 1) c)) (iblk1 (V2' m) (adm m 1) c 2 t)
    (iblk1 (V2' m) (adm m 1) c 0 t) (iblk1 (V2' m) (adm m 1) c 1 t) r f).trans ?_
  rw [iblk_sc m c t f, iblk_sh m c t f, iblk_x m c t hr r f, word1_eq m c t, e1,
    mword_eq _ _ (Nat.mod_lt _ (by decide)) r.isLt]
  exact point_alg (m ((c : Thread nD τ).loc main_arg0)) (m ((c : Thread nD τ).loc main_arg1)) (V2' m c main_v19) (V2' m c main_v21)
    ⟨t.val / 2, entry_lt t⟩ (t.val % 2) (effTile m c t) r f rfl (effTile_lt m c t r) (tile_lt t r)

/-- WHAT POINT t WRITES BACK is its block of the masked affine image. -/
theorem flushed1_eq (c : Dev nD)
    (hr : ∀ b, 0 ≤ ((m ((c : Thread nD τ).loc main_arg1)) b).toInt ∧ ((m ((c : Thread nD τ).loc main_arg1)) b).toInt ≤ 8192)
    (t : Fin (cfg1 (adm m 1)).N) :
    (dat1 (V2' m) (adm m 1) c).flushed 3 t = (((cfg1 (adm m 1)).win 3).blk t).view.read (Elt Ideal)
      (Narr (m ((c : Thread nD τ).loc main_arg0)) (m ((c : Thread nD τ).loc main_arg1)) (V2' m c main_v19) (V2' m c main_v21)) := by
  show ((cfg1 (adm m 1)).win 3).cut (grid1.coords t) ((dat1 (V2' m) (adm m 1) c).after 3 t) = _
  rw [after1_3]
  obtain ⟨e0, e1, e2, e3, e4, e5⟩ := idx_facts1 t
  funext j
  revert j
  show ∀ j : S1x4096x256.Idx, (out1 (V2' m) (adm m 1) c t : S1x4096x256.Idx → EReal) j
    = Narr (m ((c : Thread nD τ).loc main_arg0)) (m ((c : Thread nD τ).loc main_arg1)) (V2' m c main_v19) (V2' m c main_v21)
        ((((cfg1 (adm m 1)).win 3).blk t).view.emb j)
  intro j
  have hj0 : (j 0).val = 0 := by have h : (j 0).val < 1 := (j 0).isLt; omega
  obtain ⟨r, f, rfl⟩ : ∃ (r : Fin 4096) (f : Fin 256), j = ix3 0 r f :=
    ⟨j 1, j 2, by
      funext a
      apply Fin.ext
      match a with
      | ⟨0, _⟩ => exact hj0
      | ⟨1, _⟩ => rfl
      | ⟨2, _⟩ => rfl⟩
  rw [out1_point m c t (hr _) r f]
  congr 1
  funext a
  apply Fin.ext
  match a with
  | ⟨0, _⟩ =>
    show t.val / 2 = cc1_transform_3 (grid1.coords t) 0 * 1 + 1 * (0 : Fin 1).val
    rw [e4]; show t.val / 2 = t.val / 2 * 1 + 1 * 0; omega
  | ⟨1, _⟩ =>
    show t.val % 2 * 4096 + r.val = cc1_transform_3 (grid1.coords t) 1 * 4096 + 1 * r.val
    rw [e4]; show t.val % 2 * 4096 + r.val = t.val % 2 * 4096 + 1 * r.val; omega
  | ⟨2, _⟩ =>
    show f.val = cc1_transform_3 (grid1.coords t) 2 * 256 + 1 * f.val
    rw [e4]; show f.val = 0 * 256 + 1 * f.val; omega

/-- An index of the array is in point t's block iff each coordinate is in the block's range on its axis. -/
theorem mem_blk3 (t : Fin (cfg1 (adm m 1)).N) (i : S16x8192x256.Idx) :
    i ∈ (((cfg1 (adm m 1)).win 3).blk t).view.set
      ↔ ∀ a : Fin 3, cc1_transform_3 (grid1.coords t) a * S1x4096x256.size a ≤ (i a).val
        ∧ (i a).val < cc1_transform_3 (grid1.coords t) a * S1x4096x256.size a + S1x4096x256.size a := by
  have e : (((cfg1 (adm m 1)).win 3).blk t).view.set = (((cfg1 (adm m 1)).win 3).rect t).set :=
    View.set_slice_whole main_v22 (((cfg1 (adm m 1)).win 3).rect t)
  exact (Finset.ext_iff.mp e i).trans Rect.mem_set_unit

/-- The output's blocks tile the array: element (b, n, f) is in the block of point 2 b + n / 4096. -/
theorem cover3 (i : S16x8192x256.Idx) :
    ∃ t : Fin (cfg1 (adm m 1)).N, ((cfg1 (adm m 1)).win 3).flush t = true ∧ i ∈ (((cfg1 (adm m 1)).win 3).blk t).view.set := by
  have h0 : (i 0).val < 16 := (i 0).isLt
  have h1 : (i 1).val < 8192 := (i 1).isLt
  have h2 : (i 2).val < 256 := (i 2).isLt
  have hN : grid1.N = 32 := rfl
  have hT : 2 * (i 0).val + (i 1).val / 4096 < grid1.N := by rw [hN]; omega
  refine ⟨⟨2 * (i 0).val + (i 1).val / 4096, hT⟩, flush1_3 (adm m 1) _, ?_⟩
  rw [mem_blk3]
  obtain ⟨e0, e1, e2, e3, e4, e5⟩ := idx_facts1 ⟨2 * (i 0).val + (i 1).val / 4096, hT⟩
  intro a
  rw [e4]
  match a with
  | ⟨0, _⟩ =>
    show (2 * (i 0).val + (i 1).val / 4096) / 2 * 1 ≤ (i 0).val ∧ (i 0).val < (2 * (i 0).val + (i 1).val / 4096) / 2 * 1 + 1
    omega
  | ⟨1, _⟩ =>
    show (2 * (i 0).val + (i 1).val / 4096) % 2 * 4096 ≤ (i 1).val ∧ (i 1).val < (2 * (i 0).val + (i 1).val / 4096) % 2 * 4096 + 4096
    omega
  | ⟨2, _⟩ =>
    show 0 * 256 ≤ (i 2).val ∧ (i 2).val < 0 * 256 + 256
    omega

theorem region1_value (c : Dev nD)
    (hr : ∀ b, 0 ≤ ((m ((c : Thread nD τ).loc main_arg1)) b).toInt ∧ ((m ((c : Thread nD τ).loc main_arg1)) b).toInt ≤ 8192) :
    (dat1 (V2' m) (adm m 1) c).arrAt 3 (cfg1 (adm m 1)).N
      = (Narr (m ((c : Thread nD τ).loc main_arg0)) (m ((c : Thread nD τ).loc main_arg1))
          (V2' m c main_v19) (V2' m c main_v21) : S16x8192x256.Idx → EReal) := by
  exact (dat1 (V2' m) (adm m 1) c).arrAt_eq_of_cover 3
    (Narr (m ((c : Thread nD τ).loc main_arg0)) (m ((c : Thread nD τ).loc main_arg1)) (V2' m c main_v19) (V2' m c main_v21))
    (fun t _ => flushed1_eq m c hr t) (cover3 m)

end

end Cert.KernelIdeal.H

end
-- ==== Proof.KI.ValueHost.lean ====
/-
  The host stretch between the two passes, read as extended reals: from the statistics pass's two results (the masked
  column sums and sums of squares per entry) it forms, per feature f, the mean (the sum over the 16 entries, from 0,
  divided by the count), the variance clamped below at 0, the scale rsqrt(var + eps) * gamma and the shift
  beta - mean * scale — the specification's kscale and kshift at the kernel's own count.  With the normalisation
  pass's result read element by element, the program's result is the specification's GK.
-/
import proofs.«411793_j30253749633578_3_alg».proof.Proof.KI.ValueR0
import proofs.«411793_j30253749633578_3_alg».proof.Proof.KI.ValueR1
import Idealize.ShloMosaic.Lib.IdealHost

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section

variable (m : (ℓ : Loc nD τ sig) → Buf (Elt Ideal) ℓ)

/-- The count the kernel's host stretch forms: the 32-bit sum of the counts from 0, converted signed, clamped below at 1. -/
def cntK (nv : S16.Idx → BitVec 32) : EReal :=
  maximumf (F := Ideal) (sitofp .f32 (Host.reduce IntOp.addi nv (constantI S_ 32 0#32) reducesTo_S16_S_d0 h_S_))
    (constant S_ .f32 0x3F800000#32) ValueIdx.ix0

/-! ## The host operations read at an index -/

/-- The sum over the 16 entries, from the f32 zero, of the per-entry masked column sums is the specification's sum. -/
theorem red_S1 (x : S16x8192x256.Idx → EReal) (nv : S16.Idx → BitVec 32) (j : S1x256.Idx) :
    Host.reduceAdd (F := Ideal) (φ := .f32) (S1arr x nv) (constant (F := Ideal) S_ .f32 0x00000000#32) reducesTo_S16x1x256_S1x256_d0 h_S_ j
      = Cert.Spec.s1 x nv (j 1) := by
  rw [hostReduceAdd_apply, Ideal.hostReduceAdd_single _ (by decide : S16x1x256.Reduces [0] S1x256), constant_apply,
    Ideal.ofBits_zero_f32, zero_add]
  rfl

/-- The same for the sums of squares. -/
theorem red_S2 (x : S16x8192x256.Idx → EReal) (nv : S16.Idx → BitVec 32) (j : S1x256.Idx) :
    Host.reduceAdd (F := Ideal) (φ := .f32) (S2arr x nv) (constant (F := Ideal) S_ .f32 0x00000000#32) reducesTo_S16x1x256_S1x256_d0 h_S_ j
      = Cert.Spec.s2 x nv (j 1) := by
  rw [hostReduceAdd_apply, Ideal.hostReduceAdd_single _ (by decide : S16x1x256.Reduces [0] S1x256), constant_apply,
    Ideal.ofBits_zero_f32, zero_add]
  rfl

/-- The count broadcast to a row reads the count everywhere. -/
theorem bcast_cnt (nv : S16.Idx → BitVec 32) :
    broadcastInDim S1x256 ![] bcast_S_S1x256
        (maximumf (F := Ideal) (sitofp .f32 (Host.reduce IntOp.addi nv (constantI S_ 32 0#32) reducesTo_S16_S_d0 h_S_))
          (constant S_ .f32 0x3F800000#32))
      = fun _ => cntK nv := by
  funext j; exact broadcastInDim_scalar_apply _ _ j

/-- A 256-vector viewed as a 1 x 256 row reads its element at the column. -/
theorem row_apply (g : S256.Idx → EReal) (j : S1x256.Idx) :
    shapeCast S1x256 g shapeCasts_S256_S1x256 j = g (ValueIdx.ix1 (j 1)) := by
  refine (shapeCast_addUnit_apply (n := 1) ![256] g shapeCasts_S256_S1x256 j).trans (congrArg g ?_)
  funext d; match d with | ⟨0, _⟩ => rfl

/-- The mean row the host stretch forms from the statistics pass's first result. -/
abbrev meanV (x : S16x8192x256.Idx → EReal) (nv : S16.Idx → BitVec 32) : FVec Ideal S1x256 .f32 :=
  Host.divf (Host.reduceAdd (F := Ideal) (φ := .f32) (S1arr x nv) (constant (F := Ideal) S_ .f32 0x00000000#32) reducesTo_S16x1x256_S1x256_d0 h_S_)
    (fun _ => cntK nv)

/-- The scale row: rsqrt (max (E[x²] − mean²) 0 + ε) times gamma. -/
abbrev scaleV (x : S16x8192x256.Idx → EReal) (nv : S16.Idx → BitVec 32) (g : S256.Idx → EReal) : FVec Ideal S1x256 .f32 :=
  mulf
    (Host.rsqrt
      (addf
        (maximumf
          (subf
            (Host.divf (Host.reduceAdd (F := Ideal) (φ := .f32) (S2arr x nv) (constant (F := Ideal) S_ .f32 0x00000000#32) reducesTo_S16x1x256_S1x256_d0 h_S_)
              (fun _ => cntK nv))
            (mulf (meanV x nv) (meanV x nv)))
          (broadcastInDim S1x256 ![] bcast_S_S1x256 (constant (F := Ideal) S_ .f32 0x00000000#32)))
        (broadcastInDim S1x256 ![] bcast_S_S1x256 (constant (F := Ideal) S_ .f32 0x3A83126F#32))))
    (fun i => shapeCast S1x256 g shapeCasts_S256_S1x256 i)

theorem mean_at (x : S16x8192x256.Idx → EReal) (nv : S16.Idx → BitVec 32) (j : S1x256.Idx) :
    meanV x nv j = Cert.Spec.mean x nv (cntK nv) (j 1) := by
  show Ideal.div (Host.reduceAdd (F := Ideal) (φ := .f32) (S1arr x nv) (constant (F := Ideal) S_ .f32 0x00000000#32) reducesTo_S16x1x256_S1x256_d0 h_S_ j) (cntK nv) = _
  rw [red_S1]; rfl

theorem scale_at (x : S16x8192x256.Idx → EReal) (nv : S16.Idx → BitVec 32) (g : S256.Idx → EReal) (j : S1x256.Idx) :
    scaleV x nv g j = Cert.Spec.kscale x nv g (cntK nv) (j 1) := by
  show Ideal.rsqrt (max (Ideal.div (Host.reduceAdd (F := Ideal) (φ := .f32) (S2arr x nv) (constant (F := Ideal) S_ .f32 0x00000000#32) reducesTo_S16x1x256_S1x256_d0 h_S_ j) (cntK nv)
        - meanV x nv j * meanV x nv j) (Ideal.ofBits .f32 0x00000000#32) + Ideal.ofBits .f32 0x3A83126F#32)
      * shapeCast S1x256 g shapeCasts_S256_S1x256 j = _
  rw [red_S2, mean_at, row_apply, Ideal.ofBits_zero_f32]
  rfl

theorem shift_at (x : S16x8192x256.Idx → EReal) (nv : S16.Idx → BitVec 32) (g be : S256.Idx → EReal) (j : S1x256.Idx) :
    subf (F := Ideal) (fun i => shapeCast S1x256 be shapeCasts_S256_S1x256 i) (mulf (meanV x nv) (scaleV x nv g)) j
      = Cert.Spec.kshift x nv g be (cntK nv) (j 1) := by
  show shapeCast S1x256 be shapeCasts_S256_S1x256 j - meanV x nv j * scaleV x nv g j = _
  rw [row_apply, mean_at, scale_at]
  rfl

/-! ## What the host stretch reads: the statistics pass's results, and the arguments as launched -/

theorem W1_sum (c : Dev nD)
    (hr : ∀ b, 0 ≤ ((m ((c : Thread nD τ).loc main_arg1)) b).toInt ∧ ((m ((c : Thread nD τ).loc main_arg1)) b).toInt ≤ 8192) :
    (W1 m c (Proc.devRef .tc main_v0_0) : S16x1x256.Idx → EReal)
      = S1arr (m ((c : Thread nD τ).loc main_arg0)) (m ((c : Thread nD τ).loc main_arg1)) :=
  (W1_arr m c 1).trans (region0_sum m c hr)

theorem W1_sumsq (c : Dev nD)
    (hr : ∀ b, 0 ≤ ((m ((c : Thread nD τ).loc main_arg1)) b).toInt ∧ ((m ((c : Thread nD τ).loc main_arg1)) b).toInt ≤ 8192) :
    (W1 m c (Proc.devRef .tc main_v0_1) : S16x1x256.Idx → EReal)
      = S2arr (m ((c : Thread nD τ).loc main_arg0)) (m ((c : Thread nD τ).loc main_arg1)) :=
  (W1_arr m c 2).trans (region0_sumsq m c hr)

theorem W1_arg2 (c : Dev nD) : W1 m c (Proc.devRef .tc main_arg2) = m ((c : Thread nD τ).loc main_arg2) :=
  (W1_of_ne m c main_arg2 (by decide)).trans rfl
theorem W1_arg3 (c : Dev nD) : W1 m c (Proc.devRef .tc main_arg3) = m ((c : Thread nD τ).loc main_arg3) :=
  (W1_of_ne m c main_arg3 (by decide)).trans rfl

theorem host_scale (c : Dev nD)
    (hr : ∀ b, 0 ≤ ((m ((c : Thread nD τ).loc main_arg1)) b).toInt ∧ ((m ((c : Thread nD τ).loc main_arg1)) b).toInt ≤ 8192) :
    (V2' m c main_v19 : S1x256.Idx → EReal)
      = fun j => Cert.Spec.kscale (m ((c : Thread nD τ).loc main_arg0)) (m ((c : Thread nD τ).loc main_arg1)) (m ((c : Thread nD τ).loc main_arg2))
          (cntK (m ((c : Thread nD τ).loc main_arg1))) (j 1) := by
  show StableHlo.after hostOps1 (W1 m c) (Proc.devRef .tc main_v19) = _
  after_results_simp
  rw [W1_sum m c hr, W1_sumsq m c hr, W1_arg1 m c, W1_arg2 m c, bcast_cnt]
  funext j
  exact scale_at _ _ _ j

theorem host_shift (c : Dev nD)
    (hr : ∀ b, 0 ≤ ((m ((c : Thread nD τ).loc main_arg1)) b).toInt ∧ ((m ((c : Thread nD τ).loc main_arg1)) b).toInt ≤ 8192) :
    (V2' m c main_v21 : S1x256.Idx → EReal)
      = fun j => Cert.Spec.kshift (m ((c : Thread nD τ).loc main_arg0)) (m ((c : Thread nD τ).loc main_arg1)) (m ((c : Thread nD τ).loc main_arg2))
          (m ((c : Thread nD τ).loc main_arg3)) (cntK (m ((c : Thread nD τ).loc main_arg1))) (j 1) := by
  show StableHlo.after hostOps1 (W1 m c) (Proc.devRef .tc main_v21) = _
  after_results_simp
  rw [W1_sum m c hr, W1_sumsq m c hr, W1_arg1 m c, W1_arg2 m c, W1_arg3 m c, bcast_cnt]
  funext j
  exact shift_at _ _ _ _ j

/-- The program's result, element by element: the specification's kernel-side function at the kernel's own count. -/
theorem kernel_value (c : Dev nD)
    (hr : ∀ b, 0 ≤ ((m ((c : Thread nD τ).loc main_arg1)) b).toInt ∧ ((m ((c : Thread nD τ).loc main_arg1)) b).toInt ≤ 8192) :
    (dat1 (V2' m) (adm m 1) c).arrAt 3 (cfg1 (adm m 1)).N
      = (Cert.Spec.GK (m ((c : Thread nD τ).loc main_arg0)) (m ((c : Thread nD τ).loc main_arg1)) (m ((c : Thread nD τ).loc main_arg2))
          (m ((c : Thread nD τ).loc main_arg3)) (cntK (m ((c : Thread nD τ).loc main_arg1))) : S16x8192x256.Idx → EReal) := by
  rw [region1_value m c hr, host_scale m c hr, host_shift m c hr]
  funext i
  unfold Narr Cert.Spec.GK
  rfl

end

end Cert.KernelIdeal.H

end
-- ==== Proof.RefG.lean ====
/-
  The reference's result, read element by element: it is the function GR of the specification at the count the
  reference itself forms.  Each host operation is read at an index (the generated stage lemmas); the two sums over
  entries and rows (axes 0 and 1 of a 16 x 8192 x 256 array, into 256 features) are the initial value 0 plus the
  double sum over b and n; the mask is the comparison n < nv b converted to 0 or 1.
-/
import proofs.«411793_j30253749633578_3_alg».proof.Proof.Gen.ReferenceIdeal.Read
import proofs.«411793_j30253749633578_3_alg».proof.Proof.Spec
import Idealize.ShloMosaic.Lib.ValueIdx
import Idealize.ShloMosaic.Lib.Pipeline.Value
import Idealize.ShloMosaic.PureOps.Ideal.Laws

noncomputable section

open scoped BigOperators

namespace Cert.RefG

open Idealize.ShloMosaic Idealize.ShloMosaic.ValueIdx Cert.ReferenceIdeal Cert.ReferenceIdeal.Gen
open Cert.ReferenceIdeal.Read

/-! ## Words: a small row number read signed, and the comparison's bit as a number -/

/-- A natural number below 2^31, as a 32-bit word read signed, is itself. -/
theorem toInt_ofNat_small (m : ℕ) (hm : m < 2 ^ 31) : (BitVec.ofNat 32 m).toInt = (m : ℤ) := by
  rw [BitVec.toInt_eq_toNat_cond, BitVec.toNat_ofNat]
  have h1 : m % 2 ^ 32 = m := Nat.mod_eq_of_lt (by omega)
  rw [h1]
  split_ifs with h
  · rfl
  · omega

/-- The signed comparison's bit, converted to a number, is 1 where a < c and 0 elsewhere. -/
theorem uitofp_slt (a c : BitVec 32) :
    FloatOps.uitofp (F := Ideal) .f32 (IntOp.cmpi .slt a c) = if a.toInt < c.toInt then (1 : EReal) else 0 := by
  show (((IntOp.cmpi .slt a c).toNat : ℝ) : EReal) = _
  unfold IntOp.cmpi
  by_cases h : a.toInt < c.toInt
  · have hs : a.slt c = true := BitVec.slt_iff_toInt_lt.mpr h
    rw [if_pos h]
    simp [hs]
  · have hs : a.slt c = false := by
      rw [Bool.eq_false_iff]
      exact fun hh => h (BitVec.slt_iff_toInt_lt.mp hh)
    rw [if_neg h]
    simp [hs]

/-! ## The mask -/

/-- The converted comparison of the row number against the entry's count is the mask. -/
theorem v7_apply (x1 : IVec S16 32) (k : S16x8192x1.Idx) :
    val_main_v7 (F := Ideal) x1 k = Cert.Spec.msk x1 (k 0) (k 1) := by
  rw [val_main_v7_apply, val_main_v6_apply, val_main_v5_apply, val_main_v3_apply, val_main_v1_apply, val_main_v0_apply,
    val_main_v4_apply, val_main_v2_apply, uitofp_slt]
  have hi : idx_main_v2 (idx_main_v4 (idx_main_v7 k)) = ix1 (n := 16) (k 0) :=
    funext fun a => by match a with | ⟨0, _⟩ => rfl
  have hn : ((idx_main_v1 (idx_main_v3 (idx_main_v7 k))) 0).val = (k 1).val := rfl
  rw [hi, hn, toInt_ofNat_small _ (lt_of_lt_of_le (k 1).isLt (show (8192 : ℕ) ≤ 2 ^ 31 by norm_num))]
  rfl

/-- The mask broadcast along the features, three times over. -/
theorem v11_apply (x1 : IVec S16 32) (i : S16x8192x256.Idx) :
    val_main_v11 (F := Ideal) x1 i = Cert.Spec.msk x1 (i 0) (i 1) := by
  rw [val_main_v11_apply, v7_apply]
  rfl

theorem v20_apply (x1 : IVec S16 32) (i : S16x8192x256.Idx) :
    val_main_v20 (F := Ideal) x1 i = Cert.Spec.msk x1 (i 0) (i 1) := by
  rw [val_main_v20_apply, v7_apply]
  rfl

theorem v40_apply (x1 : IVec S16 32) (i : S16x8192x256.Idx) :
    val_main_v40 (F := Ideal) x1 i = Cert.Spec.msk x1 (i 0) (i 1) := by
  rw [val_main_v40_apply, v7_apply]
  rfl

/-- The sum over entries and rows: at feature j the indices that drop to j are the (b, n, j), one for each entry b and
    row n, so the sum over them is the double sum. -/
theorem hostReduceAdd_rows (h : Shape.ReducesTo S16x8192x256 [0, 1] S256) (v : S16x8192x256.Idx → EReal) (init : EReal)
    (j : S256.Idx) :
    Ideal.hostReduceAdd h v init j
      = init + ∑ b : Fin 16, ∑ n : Fin 8192, v (ix3 (n0 := 16) (n1 := 8192) (n2 := 256) b n (j 0)) := by
  classical
  unfold Ideal.hostReduceAdd
  congr 1
  have hdrop : ∀ i : S16x8192x256.Idx, h.drop i = j ↔ i 2 = j 0 := by
    intro i
    have hv : (h.drop i 0 : ℕ) = i 2 := Shape.ReducesTo.drop_apply_val_of_eq h i 0 2
    constructor
    · intro e
      rw [e] at hv
      exact Fin.ext hv.symm
    · intro e
      funext c
      have hc : c = 0 := Subsingleton.elim _ _
      subst hc
      exact Fin.ext (by rw [hv, e])
  have hback : ∀ i : S16x8192x256.Idx, i 2 = j 0 →
      ix3 (n0 := 16) (n1 := 8192) (n2 := 256) (i 0) (i 1) (j 0) = i := fun i h2 => by
    funext c
    match c with
    | ⟨0, _⟩ => rfl
    | ⟨1, _⟩ => rfl
    | ⟨2, _⟩ => exact h2.symm
  refine Eq.trans ?_ (Fintype.sum_prod_type'
    (fun (b : Fin 16) (n : Fin 8192) => v (ix3 (n0 := 16) (n1 := 8192) (n2 := 256) b n (j 0))))
  refine Finset.sum_bij' (fun i _ => ((i 0, i 1) : Fin 16 × Fin 8192))
    (fun p _ => ix3 (n0 := 16) (n1 := 8192) (n2 := 256) p.1 p.2 (j 0))
    (fun _ _ => Finset.mem_univ _)
    (fun p _ => Finset.mem_filter.2 ⟨Finset.mem_univ _, (hdrop _).2 rfl⟩)
    (fun i hi => hback i ((hdrop i).1 (Finset.mem_filter.1 hi).2))
    (fun _ _ => rfl) ?_
  intro i hi
  exact (congrArg v (hback i ((hdrop i).1 (Finset.mem_filter.1 hi).2))).symm

/-! ## The first sum, and the mean -/

/-- The masked input. -/
theorem v12_apply (x0 : FVec Ideal S16x8192x256 .f32) (x1 : IVec S16 32) (i : S16x8192x256.Idx) :
    val_main_v12 (F := Ideal) x0 x1 i = x0 i * Cert.Spec.msk x1 (i 0) (i 1) := by
  rw [val_main_v12_apply, v11_apply]
  rfl

/-- The masked sum over entries and rows, from the initial value 0. -/
theorem v13_apply (x0 : FVec Ideal S16x8192x256 .f32) (x1 : IVec S16 32) (j : S256.Idx) :
    val_main_v13 (F := Ideal) x0 x1 j = Cert.Spec.s1 x0 x1 (j 0) := by
  refine (hostReduceAdd_rows _ (val_main_v12 (F := Ideal) x0 x1) _ j).trans ?_
  rw [val_main_cst_0_apply, Ideal.ofBits_def, Ideal.ofBits_zero_f32, zero_add]
  unfold Cert.Spec.s1
  refine Finset.sum_congr rfl fun b _ => Finset.sum_congr rfl fun n _ => ?_
  rw [v12_apply]

/-- The mean: the masked sum over the count. -/
theorem v15_apply (x0 : FVec Ideal S16x8192x256 .f32) (x1 : IVec S16 32) (j : S256.Idx) :
    val_main_v15 (F := Ideal) x0 x1 j
      = Cert.Spec.mean x0 x1 (val_main_v10 (F := Ideal) x1 ix0) (j 0) := by
  rw [val_main_v15_apply, val_main_v14_apply, v13_apply, Ideal.hostDivf_def]
  rfl

/-- The mean broadcast over entries and rows, twice over. -/
theorem v17_apply (x0 : FVec Ideal S16x8192x256 .f32) (x1 : IVec S16 32) (i : S16x8192x256.Idx) :
    val_main_v17 (F := Ideal) x0 x1 i
      = Cert.Spec.mean x0 x1 (val_main_v10 (F := Ideal) x1 ix0) (i 2) := by
  rw [val_main_v17_apply, val_main_v16_apply, v15_apply]
  rfl

theorem v29_apply (x0 : FVec Ideal S16x8192x256 .f32) (x1 : IVec S16 32) (i : S16x8192x256.Idx) :
    val_main_v29 (F := Ideal) x0 x1 i
      = Cert.Spec.mean x0 x1 (val_main_v10 (F := Ideal) x1 ix0) (i 2) := by
  rw [val_main_v29_apply, val_main_v28_apply, v15_apply]
  rfl

/-! ## The second sum, and the variance -/

/-- The masked squared deviation. -/
theorem v21_apply (x0 : FVec Ideal S16x8192x256 .f32) (x1 : IVec S16 32) (i : S16x8192x256.Idx) :
    val_main_v21 (F := Ideal) x0 x1 i
      = ((x0 i - Cert.Spec.mean x0 x1 (val_main_v10 (F := Ideal) x1 ix0) (i 2))
          * (x0 i - Cert.Spec.mean x0 x1 (val_main_v10 (F := Ideal) x1 ix0) (i 2))) * Cert.Spec.msk x1 (i 0) (i 1) := by
  rw [val_main_v21_apply, val_main_v19_apply, val_main_v18_apply, v17_apply, v20_apply]
  rfl

/-- The variance: the masked sum of squared deviations over the count. -/
theorem v24_apply (x0 : FVec Ideal S16x8192x256 .f32) (x1 : IVec S16 32) (j : S256.Idx) :
    val_main_v24 (F := Ideal) x0 x1 j
      = Cert.Spec.rvar x0 x1 (val_main_v10 (F := Ideal) x1 ix0) (j 0) := by
  have h22 : val_main_v22 (F := Ideal) x0 x1 j
      = ∑ b : Fin 16, ∑ n : Fin 8192,
          ((x0 (ix3 b n (j 0)) - Cert.Spec.mean x0 x1 (val_main_v10 (F := Ideal) x1 ix0) (j 0))
            * (x0 (ix3 b n (j 0)) - Cert.Spec.mean x0 x1 (val_main_v10 (F := Ideal) x1 ix0) (j 0)))
            * Cert.Spec.msk x1 b n := by
    refine (hostReduceAdd_rows _ (val_main_v21 (F := Ideal) x0 x1) _ j).trans ?_
    rw [val_main_cst_1_apply, Ideal.ofBits_def, Ideal.ofBits_zero_f32, zero_add]
    refine Finset.sum_congr rfl fun b _ => Finset.sum_congr rfl fun n _ => ?_
    rw [v21_apply]
  rw [val_main_v24_apply, val_main_v23_apply, h22, Ideal.hostDivf_def]
  rfl

/-- The reciprocal square root of the variance plus the small constant. -/
theorem v27_apply (x0 : FVec Ideal S16x8192x256 .f32) (x1 : IVec S16 32) (j : S256.Idx) :
    val_main_v27 (F := Ideal) x0 x1 j
      = Ideal.rsqrt (Cert.Spec.rvar x0 x1 (val_main_v10 (F := Ideal) x1 ix0) (j 0) + Cert.Spec.eps) := by
  rw [val_main_v27_apply, val_main_v26_apply, v24_apply, val_main_v25_apply, val_main_cst_2_apply,
    Ideal.hostUnary_rsqrt_def, Ideal.addf_def, Ideal.ofBits_def]
  rfl

/-! ## The result -/

/-- The reference's last stage is GR at the reference's own count (the scalar stage main_v10 read at its one index). -/
theorem ref_eq (x0 : FVec Ideal S16x8192x256 .f32) (x1 : IVec S16 32) (x2 x3 : FVec Ideal S256 .f32) :
    Cert.ReferenceIdeal.Read.val_main_v41 (F := Ideal) x0 x1 x2 x3
      = Cert.Spec.GR x0 x1 x2 x3 (Cert.ReferenceIdeal.Read.val_main_v10 (F := Ideal) x1 ix0) := by
  funext i
  have h2 : idx_main_v34 (idx_main_v35 i) = ix1 (n := 256) (i 2) :=
    funext fun a => by match a with | ⟨0, _⟩ => rfl
  have h3 : idx_main_v37 (idx_main_v38 i) = ix1 (n := 256) (i 2) :=
    funext fun a => by match a with | ⟨0, _⟩ => rfl
  rw [val_main_v41_apply, val_main_v39_apply, val_main_v36_apply, val_main_v33_apply, val_main_v30_apply, v29_apply,
    val_main_v32_apply, val_main_v31_apply, v27_apply, val_main_v35_apply, val_main_v34_apply, h2,
    val_main_v38_apply, val_main_v37_apply, h3, v40_apply]
  rfl

end Cert.RefG

end
-- ==== Proof.PreFacts.lean ====
/-
  What the precondition says, decoded: every element of the three float inputs is a real number, and every
  entry of the integer input nv lies in [0, 8192] (read signed).  And the count both programs divide by:
  with every nv b in that range the 32-bit sum of nv does not wrap, so read as a real it is the number of valid
  rows (row n of entry b is valid when n < nv b, and there are 8192 rows), and the count is max(that, 1).
-/
import proofs.«411793_j30253749633578_3_alg».proof.Pre_finite_inputs
import proofs.«411793_j30253749633578_3_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

open scoped BigOperators

namespace Cert.PreFacts

open Idealize.ShloMosaic Idealize.ShloMosaic.ValueIdx

/-! ## Words -/

/-- A 32-bit word whose signed reading is nonnegative reads the same unsigned. -/
theorem toNat_of_toInt_nonneg {a : BitVec 32} (h0 : 0 ≤ a.toInt) : (a.toNat : ℤ) = a.toInt := by
  have hl := a.isLt
  rw [BitVec.toInt_eq_toNat_cond] at h0 ⊢
  split_ifs at h0 ⊢ <;> omega

/-- The signed comparison "a ≥ 0" that came out 1. -/
theorem sge_zero {a : BitVec 32} (h : IntOp.cmpi .sge a 0#32 = 1#1) : 0 ≤ a.toInt := by
  have h' : (0#32 : BitVec 32).sle a = true := (StableHlo.Predicate.ofBool_eq_one_iff _).1 h
  have e : (0#32 : BitVec 32).toInt = 0 := by decide
  simp only [BitVec.sle, decide_eq_true_eq, e] at h'
  exact h'

/-- The signed comparison "a ≤ 8192" that came out 1. -/
theorem sle_8192 {a : BitVec 32} (h : IntOp.cmpi .sle a 8192#32 = 1#1) : a.toInt ≤ 8192 := by
  have h' : a.sle 8192#32 = true := (StableHlo.Predicate.ofBool_eq_one_iff _).1 h
  have e : (8192#32 : BitVec 32).toInt = 8192 := by decide
  simp only [BitVec.sle, decide_eq_true_eq, e] at h'
  exact h'

/-! ## |a| < +∞ says a is a real number -/

/-- The f32 pattern 0x7F800000 is +∞. -/
theorem ofBits_inf : Ideal.ofBits .f32 0x7F800000#32 = (⊤ : EReal) := by simp [Ideal.ofBits, Ideal.ieee]

/-- If max(a, -a) compares below +∞ then a is neither infinity, so it is a real number. -/
theorem real_of_abs_lt_inf (a : EReal)
    (h : Ideal.cmp .olt (max a (-a)) (Ideal.ofBits .f32 0x7F800000#32) = 1#1) : ∃ r : ℝ, a = (r : EReal) := by
  rw [ofBits_inf] at h
  have hlt : max a (-a) < ⊤ := by
    have := (StableHlo.Predicate.ofBool_eq_one_iff _).1 h
    exact of_decide_eq_true this
  rw [max_lt_iff] at hlt
  have h1 : a ≠ ⊤ := ne_of_lt hlt.1
  have h2 : a ≠ ⊥ := by
    intro e
    rw [e] at hlt
    exact absurd hlt.2 (by simp)
  exact ⟨a.toReal, (EReal.coe_toReal h1 h2).symm⟩

/-- The scalar shape has one index. -/
theorem scalarIdx_subsingleton : Subsingleton Cert.Pre_finite_inputs.S_.Idx := ⟨fun a b => funext fun d => d.elim0⟩

/-- The whole conjunct: the conjunction over all elements of (|y| < +∞), equal to 1, makes every element of y a real number. -/
theorem real_of_all {s : Shape} {axes : List (Fin s.rank)} (y : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf y) (broadcastInDim s ![] hb (constant (F := Ideal) Cert.Pre_finite_inputs.S_ .f32 0x7F800000#32)))
        (constantI Cert.Pre_finite_inputs.S_ 1 1#1) hr hu ix0 = 1#1) (i : s.Idx) : ∃ r : ℝ, y i = (r : EReal) :=
  haveI := scalarIdx_subsingleton
  real_of_abs_lt_inf (y i) (Host.reduce_andi_all _ _ hr hu ix0 e i)

/-! ## Counting the rows below a bound -/

/-- Among 0, …, N-1 exactly min(v, N) numbers are below v. -/
theorem sum_range_lt (v N : ℕ) : ∑ i ∈ Finset.range N, (if i < v then 1 else 0) = min v N := by
  induction N with
  | zero => simp
  | succ N ih =>
    rw [Finset.sum_range_succ, ih]
    split_ifs <;> omega

/-- For 0 ≤ v ≤ 8192, exactly v of the 8192 rows have their number below v. -/
theorem count_lt (v : ℤ) (h0 : 0 ≤ v) (h1 : v ≤ 8192) :
    (∑ n : Fin 8192, if (n.val : ℤ) < v then 1 else 0 : ℕ) = v.toNat := by
  have e : ∀ n : Fin 8192, ((n.val : ℤ) < v) ↔ n.val < v.toNat := fun n => by omega
  simp only [e]
  rw [Fin.sum_univ_eq_sum_range (fun i => if i < v.toNat then 1 else 0) 8192, sum_range_lt]
  omega

/-- With every nv b in [0, 8192], the number of valid rows is the sum of the nv b. -/
theorem nvalid_eq (nv : Cert.Spec.N1.Idx → BitVec 32) (hr : ∀ b, 0 ≤ (nv b).toInt ∧ (nv b).toInt ≤ 8192) :
    (Cert.Spec.nvalid nv : ℤ) = ∑ b : Fin 16, (nv (ix1 b)).toInt := by
  unfold Cert.Spec.nvalid
  rw [Nat.cast_sum]
  refine Finset.sum_congr rfl fun b _ => ?_
  rw [count_lt _ (hr _).1 (hr _).2]
  exact Int.toNat_of_nonneg (hr _).1

/-! ## The 32-bit sum of nv does not wrap -/

/-- A vector's index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The 32-bit sum of the 16 words of nv, each in [0, 8192], read signed, is the integer sum (at most 131072: no wrap). -/
theorem reduce_add_toInt (nv : IVec Cert.Spec.N1 32) (hr : ∀ b, 0 ≤ (nv b).toInt ∧ (nv b).toInt ≤ 8192)
    (h1 : Cert.Spec.N1.ReducesTo [0] (⟨0, ![]⟩ : Shape)) (h2 : 0 < (⟨0, ![]⟩ : Shape).numel) :
    (Host.reduce IntOp.addi nv (constantI (⟨0, ![]⟩ : Shape) 32 0#32) h1 h2 ix0).toInt
      = ∑ b : Fin 16, (nv (ix1 b)).toInt := by
  classical
  have hnat : ∀ i, ((nv i).toNat : ℤ) = (nv i).toInt := fun i => toNat_of_toInt_nonneg (hr i).1
  have hle : ∀ i, (nv i).toNat ≤ 8192 := fun i => by have := hnat i; have := (hr i).2; omega
  have hfilter : (Finset.univ.filter fun i : Cert.Spec.N1.Idx => h1.drop i = ix0) = Finset.univ :=
    Finset.filter_true_of_mem fun i _ => (eq_ix0 _).trans (eq_ix0 _).symm
  have hbound : ∑ i : Cert.Spec.N1.Idx, (nv i).toNat ≤ 131072 := by
    rw [sum_idx1]
    calc ∑ a : Fin 16, (nv (ix1 a)).toNat ≤ ∑ _a : Fin 16, 8192 := Finset.sum_le_sum fun a _ => hle _
      _ = 131072 := by simp
  rw [Host.reduce_eq_fold, hfilter]
  have hfold : (Finset.fold IntOp.addi 0#32 nv (Finset.univ : Finset Cert.Spec.N1.Idx)).toNat = ∑ i, (nv i).toNat :=
    StableHlo.Predicate.toNat_fold_addi _ _ (by omega)
  show (Finset.fold IntOp.addi 0#32 nv (Finset.univ : Finset Cert.Spec.N1.Idx)).toInt = _
  rw [StableHlo.Predicate.toInt_eq_toNat_of_lt (by rw [hfold]; omega), hfold, Nat.cast_sum, sum_idx1]
  exact Finset.sum_congr rfl fun b _ => hnat _

/-! ## The count -/

/-- The f32 pattern 0x3F800000 is 1. -/
theorem ofBits_one : Ideal.ofBits .f32 0x3F800000#32 = (1 : EReal) := by
  rw [show (1 : EReal) = ((1 : ℝ) : EReal) by norm_cast]
  simp [Ideal.ofBits, Ideal.ieee, -EReal.coe_mul]; norm_num

/-- The reals sit in the extended reals in order, so the maximum of two reals is the same on either side. -/
theorem coe_max (a b : ℝ) : max (a : EReal) (b : EReal) = ((max a b : ℝ) : EReal) :=
  (EReal.coe_strictMono.monotone.map_max).symm

/-- The count both programs form — the 32-bit sum of nv from 0, converted signed, clamped below at the f32 literal 1 —
    is max(number of valid rows, 1) as a real, when every nv b is in [0, 8192] (the sum is at most 16 * 8192: no wrap). -/
theorem count_eq (nv : IVec Cert.Spec.N1 32) (hr : ∀ b, 0 ≤ (nv b).toInt ∧ (nv b).toInt ≤ 8192)
    (h1 : Cert.Spec.N1.ReducesTo [0] (⟨0, ![]⟩ : Shape)) (h2 : 0 < (⟨0, ![]⟩ : Shape).numel) :
    maximumf (F := Ideal) (sitofp .f32 (Host.reduce IntOp.addi nv (constantI (⟨0, ![]⟩ : Shape) 32 0#32) h1 h2))
        (constant (⟨0, ![]⟩ : Shape) .f32 0x3F800000#32) ix0
      = ((max (Cert.Spec.nvalid nv : ℝ) 1 : ℝ) : EReal) := by
  show max ((((Host.reduce IntOp.addi nv (constantI (⟨0, ![]⟩ : Shape) 32 0#32) h1 h2 ix0).toInt : ℝ)) : EReal)
      (Ideal.ofBits .f32 0x3F800000#32) = _
  rw [ofBits_one, reduce_add_toInt nv hr h1 h2, ← nvalid_eq nv hr, Int.cast_natCast, ← EReal.coe_one, coe_max]

/-! ## The precondition, decoded -/

/-- The precondition, all ones, gives: the float inputs are real everywhere and every nv b is in [0, 8192]. -/
theorem of_pre [Cert.Pre_finite_inputs.Facts] (x : FVec Ideal Cert.Pre_finite_inputs.S16x8192x256 .f32) (nv : IVec Cert.Pre_finite_inputs.S16 32)
    (g be : FVec Ideal Cert.Pre_finite_inputs.S256 .f32)
    (h : Cert.Pre_finite_inputs.fn (F := Ideal) x nv g be = fun _ => 1#1) :
    (∀ i, ∃ r : ℝ, x i = (r : EReal)) ∧ (∀ i, ∃ r : ℝ, g i = (r : EReal)) ∧ (∀ i, ∃ r : ℝ, be i = (r : EReal))
      ∧ (∀ b, 0 ≤ (nv b).toInt ∧ (nv b).toInt ≤ 8192) := by
  haveI := scalarIdx_subsingleton
  have h0 := congrFun h ix0
  dsimp only [Cert.Pre_finite_inputs.fn, Cert.Pre_finite_inputs.fn_part1] at h0
  obtain ⟨h17, h20⟩ := IntOp.andi_eq_one.1 h0
  obtain ⟨h13, h16⟩ := IntOp.andi_eq_one.1 h17
  obtain ⟨h8, h12⟩ := IntOp.andi_eq_one.1 h13
  obtain ⟨h3, h7⟩ := IntOp.andi_eq_one.1 h8
  refine ⟨real_of_all x _ _ _ h3, real_of_all g _ _ _ h7, real_of_all be _ _ _ h12, fun b => ⟨?_, ?_⟩⟩
  · exact sge_zero (Host.reduce_andi_all _ _ _ _ ix0 h16 b)
  · exact sle_8192 (Host.reduce_andi_all _ _ _ _ ix0 h20 b)

end Cert.PreFacts

end
-- ==== Proof.lean ====
/-
  The certificate's proof.  The kernel runs two pallas_calls: a statistics pass that accumulates, per entry b of the
  batch and per feature f, the masked sums of x and of x * x over the entry's rows (row n of entry b is valid when
  n < nv b), and, after a short host stretch that turns the sums into a per-feature scale and shift, a normalisation
  pass that writes (x * scale + shift) * mask.  The reference normalises with mean and variance of the valid rows
  directly.  Over the extended reals the two agree whenever the float inputs are finite and every count nv b lies in
  [0, 8192], the number of rows: then the count both divide by is the number of valid rows (or 1 when there is none),
  E[(x - mean)^2] = E[x^2] - mean^2 is nonnegative, and x * s + (beta - mean * s) = (x - mean) * s + beta.
  The three frames: the two-call program's run from the launch to the return (for any float instance, once per
  program), and the reference's run with its result dropped.
-/
import proofs.«411793_j30253749633578_3_alg».proof.Defs
import proofs.«411793_j30253749633578_3_alg».proof.Proof.Gen.Kernel
import proofs.«411793_j30253749633578_3_alg».proof.Proof.Gen.KernelIdeal
import proofs.«411793_j30253749633578_3_alg».proof.Proof.Gen.ReferenceIdeal
import proofs.«411793_j30253749633578_3_alg».proof.Proof.Gen.Pre_finite_inputs
import proofs.«411793_j30253749633578_3_alg».proof.Proof.Gen.ReferenceIdeal.Run
import proofs.«411793_j30253749633578_3_alg».proof.Proof.Gen.ReferenceIdeal.Read
import proofs.«411793_j30253749633578_3_alg».proof.Proof.KB.Launch
import proofs.«411793_j30253749633578_3_alg».proof.Proof.KI.Launch
import proofs.«411793_j30253749633578_3_alg».proof.Proof.KI.ValueHost
import proofs.«411793_j30253749633578_3_alg».proof.Proof.RefG
import proofs.«411793_j30253749633578_3_alg».proof.Proof.PreFacts
import proofs.«411793_j30253749633578_3_alg».proof.Proof.Spec

noncomputable section

namespace Cert.Proof

open Idealize.ShloMosaic Idealize.ShloMosaic.TcCoe Idealize.SL.Sem Idealize.ShloMosaic.ValueIdx

theorem frame_p : Cert.frame_Kernel (hKernel := Cert.Kernel.Gen.facts) (hPre_finite_inputs := Cert.Pre_finite_inputs.Gen.facts) :=
  fun m ρ _ => Cert.Kernel.H.frame m ρ

theorem frame_pi : Cert.frame_KernelIdeal (hKernelIdeal := Cert.KernelIdeal.Gen.facts) (hPre_finite_inputs := Cert.Pre_finite_inputs.Gen.facts) :=
  fun m ρ _ => Cert.KernelIdeal.H.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at one function of the arguments: the kernel at the specification's GK at its own count, the
    reference at GR at its own count; the two counts are max(number of valid rows, 1), and there GK = GR. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hP := fun c => @Cert.PreFacts.of_pre Cert.Pre_finite_inputs.Gen.facts _ _ _ _ (hpre c)
  refine ⟨fun c => Cert.Spec.GK (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (Cert.KernelIdeal.H.cntK (m ((c.tc : Thread _ _).loc Cert.KernelIdeal.main_arg1))), ?_, ?_⟩
  · exact (θ_run Cert.KernelIdeal.defs _ _).mono
      (fun _ h c => ⟨(h c).1.trans (Cert.KernelIdeal.H.kernel_value m c (hP c).2.2.2), (h c).2⟩)
      (Cert.KernelIdeal.H.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hg, hb, hr⟩ := hP c
    rw [Cert.ReferenceIdeal.Read.val_main_v41_eq, Cert.RefG.ref_eq, (hagree c).1, (hagree c).2.1, (hagree c).2.2.1, (hagree c).2.2.2]
    have hcK : Cert.KernelIdeal.H.cntK (m ((c.tc : Thread _ _).loc Cert.KernelIdeal.main_arg1))
        = ((max (Cert.Spec.nvalid (m ((c.tc : Thread _ _).loc Cert.KernelIdeal.main_arg1)) : ℝ) 1 : ℝ) : EReal) :=
      Cert.PreFacts.count_eq _ hr _ _
    have hcR : Cert.ReferenceIdeal.Read.val_main_v10 (F := Ideal) (m ((c.tc : Thread _ _).loc Cert.KernelIdeal.main_arg1)) ix0
        = ((max (Cert.Spec.nvalid (m ((c.tc : Thread _ _).loc Cert.KernelIdeal.main_arg1)) : ℝ) 1 : ℝ) : EReal) :=
      Cert.PreFacts.count_eq _ hr _ _
    beta_reduce
    rw [hcK, hcR]
    exact (Cert.Spec.GK_eq_GR _ _ _ _ _ hx hg hb rfl).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
